-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.truncf_extf.Statement Cert.KernelIdeal.S16x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x5 : Shape := ⟨2, ![4096, 5]⟩
abbrev S4096x1 : Shape := ⟨2, ![4096, 1]⟩
abbrev S16x10 : Shape := ⟨2, ![16, 10]⟩
abbrev S16x1 : Shape := ⟨2, ![16, 1]⟩
abbrev S32x16 : Shape := ⟨2, ![32, 16]⟩
abbrev S32x1 : Shape := ⟨2, ![32, 1]⟩
abbrev S16x32 : Shape := ⟨2, ![16, 32]⟩
abbrev S16x5 : Shape := ⟨2, ![16, 5]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x5 : S_.BroadcastsInDim S4096x5 (![] : Fin 0 → Fin S4096x5.rank)
  reducesTo_S4096x5_S_d0_1 : S4096x5.ReducesTo [0, 1] S_
  bcast_S_S16x10 : S_.BroadcastsInDim S16x10 (![] : Fin 0 → Fin S16x10.rank)
  reducesTo_S16x10_S_d0_1 : S16x10.ReducesTo [0, 1] S_
  bcast_S_S16x1 : S_.BroadcastsInDim S16x1 (![] : Fin 0 → Fin S16x1.rank)
  reducesTo_S16x1_S_d0_1 : S16x1.ReducesTo [0, 1] S_
  bcast_S_S32x16 : S_.BroadcastsInDim S32x16 (![] : Fin 0 → Fin S32x16.rank)
  reducesTo_S32x16_S_d0_1 : S32x16.ReducesTo [0, 1] S_
  bcast_S_S32x1 : S_.BroadcastsInDim S32x1 (![] : Fin 0 → Fin S32x1.rank)
  reducesTo_S32x1_S_d0_1 : S32x1.ReducesTo [0, 1] S_
  bcast_S_S16x32 : S_.BroadcastsInDim S16x32 (![] : Fin 0 → Fin S16x32.rank)
  reducesTo_S16x32_S_d0_1 : S16x32.ReducesTo [0, 1] S_
  bcast_S_S16x5 : S_.BroadcastsInDim S16x5 (![] : Fin 0 → Fin S16x5.rank)
  reducesTo_S16x5_S_d0_1 : S16x5.ReducesTo [0, 1] S_

variable [Facts]

def fn_part3 {F : FTy → Type} [FloatOps F] (main_arg12 : FVec F S16x1 .f32) (main_arg13 : FVec F S16x5 .f32) (main_v48 : IVec S_ 1) (main_v49 : FVec F S16x32 .f32) (main_v50 : FVec F S16x32 .f32) : IVec S_ 1 :=
  let main_v51 : IVec S16x32 1 := cmpf .olt main_v49 main_v50
  let main_c_19 : IVec S_ 1 := constantI S_ 1 1#1
  let main_v52 : IVec S_ 1 := (fun x v => Host.reduce IntOp.andi x v reducesTo_S16x32_S_d0_1 h_S_) main_v51 main_c_19
  let main_v53 : IVec S_ 1 := andi main_v48 main_v52
  let main_v54 : FVec F S16x1 .f32 := Host.absf main_arg12
  let main_cst_20 : FVec F S_ .f32 := constant S_ .f32 0x7F800000#32
  let main_v55 : FVec F S16x1 .f32 := broadcastInDim S16x1 ![] bcast_S_S16x1 main_cst_20
  let main_v56 : IVec S16x1 1 := cmpf .olt main_v54 main_v55
  let main_c_21 : IVec S_ 1 := constantI S_ 1 1#1
  let main_v57 : IVec S_ 1 := (fun x v => Host.reduce IntOp.andi x v reducesTo_S16x1_S_d0_1 h_S_) main_v56 main_c_21
  let main_v58 : IVec S_ 1 := andi main_v53 main_v57
  let main_v59 : FVec F S16x5 .f32 := Host.absf main_arg13
  let main_cst_22 : FVec F S_ .f32 := constant S_ .f32 0x7F800000#32
  let main_v60 : FVec F S16x5 .f32 := broadcastInDim S16x5 ![] bcast_S_S16x5 main_cst_22
  let main_v61 : IVec S16x5 1 := cmpf .olt main_v59 main_v60
  let main_c_23 : IVec S_ 1 := constantI S_ 1 1#1
  let main_v62 : IVec S_ 1 := (fun x v => Host.reduce IntOp.andi x v reducesTo_S16x5_S_d0_1 h_S_) main_v61 main_c_23
  let main_v63 : IVec S_ 1 := andi main_v58 main_v62
  main_v63

def fn_part2 {F : FTy → Type} [FloatOps F] (main_arg8 : FVec F S16x1 .f32) (main_arg9 : FVec F S32x16 .f32) (main_arg10 : FVec F S32x1 .f32) (main_arg11 : FVec F S16x32 .f32) (main_arg12 : FVec F S16x1 .f32) (main_arg13 : FVec F S16x5 .f32) (main_v33 : IVec S_ 1) : IVec S_ 1 :=
  let main_v34 : FVec F S16x1 .f32 := Host.absf main_arg8
  let main_cst_12 : FVec F S_ .f32 := constant S_ .f32 0x7F800000#32
  let main_v35 : FVec F S16x1 .f32 := broadcastInDim S16x1 ![] bcast_S_S16x1 main_cst_12
  let main_v36 : IVec S16x1 1 := cmpf .olt main_v34 main_v35
  let main_c_13 : IVec S_ 1 := constantI S_ 1 1#1
  let main_v37 : IVec S_ 1 := (fun x v => Host.reduce IntOp.andi x v reducesTo_S16x1_S_d0_1 h_S_) main_v36 main_c_13
  let main_v38 : IVec S_ 1 := andi main_v33 main_v37
  let main_v39 : FVec F S32x16 .f32 := Host.absf main_arg9
  let main_cst_14 : FVec F S_ .f32 := constant S_ .f32 0x7F800000#32
  let main_v40 : FVec F S32x16 .f32 := broadcastInDim S32x16 ![] bcast_S_S32x16 main_cst_14
  let main_v41 : IVec S32x16 1 := cmpf .olt main_v39 main_v40
  let main_c_15 : IVec S_ 1 := constantI S_ 1 1#1
  let main_v42 : IVec S_ 1 := (fun x v => Host.reduce IntOp.andi x v reducesTo_S32x16_S_d0_1 h_S_) main_v41 main_c_15
  let main_v43 : IVec S_ 1 := andi main_v38 main_v42
  let main_v44 : FVec F S32x1 .f32 := Host.absf main_arg10
  let main_cst_16 : FVec F S_ .f32 := constant S_ .f32 0x7F800000#32
  let main_v45 : FVec F S32x1 .f32 := broadcastInDim S32x1 ![] bcast_S_S32x1 main_cst_16
  let main_v46 : IVec S32x1 1 := cmpf .olt main_v44 main_v45
  let main_c_17 : IVec S_ 1 := constantI S_ 1 1#1
  let main_v47 : IVec S_ 1 := (fun x v => Host.reduce IntOp.andi x v reducesTo_S32x1_S_d0_1 h_S_) main_v46 main_c_17
  let main_v48 : IVec S_ 1 := andi main_v43 main_v47
  let main_v49 : FVec F S16x32 .f32 := Host.absf main_arg11
  let main_cst_18 : FVec F S_ .f32 := constant S_ .f32 0x7F800000#32
  let main_v50 : FVec F S16x32 .f32 := broadcastInDim S16x32 ![] bcast_S_S16x32 main_cst_18
  fn_part3 (F := F) main_arg12 main_arg13 main_v48 main_v49 main_v50

def fn_part1 {F : FTy → Type} [FloatOps F] (main_arg5 : FVec F S32x16 .f32) (main_arg6 : FVec F S32x1 .f32) (main_arg7 : FVec F S16x32 .f32) (main_arg8 : FVec F S16x1 .f32) (main_arg9 : FVec F S32x16 .f32) (main_arg10 : FVec F S32x1 .f32) (main_arg11 : FVec F S16x32 .f32) (main_arg12 : FVec F S16x1 .f32) (main_arg13 : FVec F S16x5 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S32x16 .f32 := Host.absf main_arg5
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S16x32 .f32 := Host.absf main_arg7
  let main_cst_10 : FVec F S_ .f32 := constant S_ .f32 0x7F800000#32
  let main_v30 : FVec F S16x32 .f32 := broadcastInDim S16x32 ![] bcast_S_S16x32 main_cst_10
  let main_v31 : IVec S16x32 1 := cmpf .olt main_v29 main_v30
  let main_c_11 : IVec S_ 1 := constantI S_ 1 1#1
  let main_v32 : IVec S_ 1 := (fun x v => Host.reduce IntOp.andi x v reducesTo_S16x32_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S4096x4096 .f32) (main_arg1 : FVec F S4096x5 .f32) (main_arg2 : IVec S4096x1 32) (main_arg3 : FVec F S16x10 .f32) (main_arg4 : FVec F S16x1 .f32) (main_arg5 : FVec F S32x16 .f32) (main_arg6 : FVec F S32x1 .f32) (main_arg7 : FVec F S16x32 .f32) (main_arg8 : FVec F S16x1 .f32) (main_arg9 : FVec F S32x16 .f32) (main_arg10 : FVec F S32x1 .f32) (main_arg11 : FVec F S16x32 .f32) (main_arg12 : FVec F S16x1 .f32) (main_arg13 : FVec F S16x5 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x5 .f32 := Host.absf main_arg1
  let main_cst_0 : FVec F S_ .f32 := constant S_ .f32 0x7F800000#32
  let main_v5 : FVec F S4096x5 .f32 := broadcastInDim S4096x5 ![] bcast_S_S4096x5 main_cst_0
  let main_v6 : IVec S4096x5 1 := cmpf .olt main_v4 main_v5
  let main_c_1 : IVec S_ 1 := constantI S_ 1 1#1
  let main_v7 : IVec S_ 1 := (fun x v => Host.reduce IntOp.andi x v reducesTo_S4096x5_S_d0_1 h_S_) main_v6 main_c_1
  let main_v8 : IVec S_ 1 := andi main_v3 main_v7
  let main_v9 : FVec F S16x10 .f32 := Host.absf main_arg3
  let main_cst_2 : FVec F S_ .f32 := constant S_ .f32 0x7F800000#32
  let main_v10 : FVec F S16x10 .f32 := broadcastInDim S16x10 ![] bcast_S_S16x10 main_cst_2
  let main_v11 : IVec S16x10 1 := cmpf .olt main_v9 main_v10
  let main_c_3 : IVec S_ 1 := constantI S_ 1 1#1
  let main_v12 : IVec S_ 1 := (fun x v => Host.reduce IntOp.andi x v reducesTo_S16x10_S_d0_1 h_S_) main_v11 main_c_3
  let main_v13 : IVec S_ 1 := andi main_v8 main_v12
  let main_v14 : FVec F S16x1 .f32 := Host.absf main_arg4
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg5 main_arg6 main_arg7 main_arg8 main_arg9 main_arg10 main_arg11 main_arg12 main_arg13 main_v13 main_v16
-- ==== Kernel.lean ====
abbrev S4096x4096 : Shape := ⟨2, ![4096, 4096]⟩
abbrev S4096x5 : Shape := ⟨2, ![4096, 5]⟩
abbrev S4096x1 : Shape := ⟨2, ![4096, 1]⟩
abbrev S16x10 : Shape := ⟨2, ![16, 10]⟩
abbrev S16x1 : Shape := ⟨2, ![16, 1]⟩
abbrev S32x16 : Shape := ⟨2, ![32, 16]⟩
abbrev S32x1 : Shape := ⟨2, ![32, 1]⟩
abbrev S16x32 : Shape := ⟨2, ![16, 32]⟩
abbrev S16x5 : Shape := ⟨2, ![16, 5]⟩
abbrev S_ : Shape := ⟨0, ![]⟩
abbrev S5 : Shape := ⟨1, ![5]⟩
abbrev S1x5 : Shape := ⟨2, ![1, 5]⟩
abbrev S4096 : Shape := ⟨1, ![4096]⟩
abbrev S4096x10 : Shape := ⟨2, ![4096, 10]⟩
abbrev S10x4096 : Shape := ⟨2, ![10, 4096]⟩
abbrev S16x4096 : Shape := ⟨2, ![16, 4096]⟩
abbrev S10x2048 : Shape := ⟨2, ![10, 2048]⟩
abbrev S16x2048 : Shape := ⟨2, ![16, 2048]⟩
abbrev S32x2048 : Shape := ⟨2, ![32, 2048]⟩
abbrev S512x4096 : Shape := ⟨2, ![512, 4096]⟩
abbrev S16x512 : Shape := ⟨2, ![16, 512]⟩
abbrev S32x512 : Shape := ⟨2, ![32, 512]⟩
abbrev S4096x16 : Shape := ⟨2, ![4096, 16]⟩

abbrev nBuf : Space → Nat
  | .hbm => 39
  | .vmem => 23
  | .smem => 0
  | _ => 0

abbrev bufTy : (tb : Table) → Fin (tcTables nBuf tb) → BufTy
  | .hbm, ⟨0, _⟩ => ⟨S4096x4096, .f32⟩
  | .hbm, ⟨1, _⟩ => ⟨S4096x5, .f32⟩
  | .hbm, ⟨2, _⟩ => ⟨S4096x1, .i32⟩
  | .hbm, ⟨3, _⟩ => ⟨S16x10, .f32⟩
  | .hbm, ⟨4, _⟩ => ⟨S16x1, .f32⟩
  | .hbm, ⟨5, _⟩ => ⟨S32x16, .f32⟩
  | .hbm, ⟨6, _⟩ => ⟨S32x1, .f32⟩
  | .hbm, ⟨7, _⟩ => ⟨S16x32, .f32⟩
  | .hbm, ⟨8, _⟩ => ⟨S16x1, .f32⟩
  | .hbm, ⟨9, _⟩ => ⟨S32x16, .f32⟩
  | .hbm, ⟨10, _⟩ => ⟨S32x1, .f32⟩
  | .hbm, ⟨11, _⟩ => ⟨S16x32, .f32⟩
  | .hbm, ⟨12, _⟩ => ⟨S16x1, .f32⟩
  | .hbm, ⟨13, _⟩ => ⟨S16x5, .f32⟩
  | .hbm, ⟨14, _⟩ => ⟨S4096x5, .f32⟩
  | .hbm, ⟨15, _⟩ => ⟨S_, .f32⟩
  | .hbm, ⟨16, _⟩ => ⟨S5, .f32⟩
  | .hbm, ⟨17, _⟩ => ⟨S1x5, .f32⟩
  | .hbm, ⟨18, _⟩ => ⟨S_, .f32⟩
  | .hbm, ⟨19, _⟩ => ⟨S1x5, .f32⟩
  | .hbm, ⟨20, _⟩ => ⟨S1x5, .f32⟩
  | .hbm, ⟨21, _⟩ => ⟨S4096x5, .f32⟩
  | .hbm, ⟨22, _⟩ => ⟨S4096x5, .f32⟩
  | .hbm, ⟨23, _⟩ => ⟨S4096, .i32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4096x1, .i32⟩
  | .hbm, ⟨32, _⟩ => ⟨S4096x5, .f32⟩
  | .hbm, ⟨33, _⟩ => ⟨S4096x10, .f32⟩
  | .hbm, ⟨34, _⟩ => ⟨S10x4096, .f32⟩
  | .hbm, ⟨35, _⟩ => ⟨S16x4096, .f32⟩
  | .hbm, ⟨36, _⟩ => ⟨S16x4096, .f32⟩
  | .hbm, ⟨37, _⟩ => ⟨S16x4096, .f32⟩
  | .hbm, ⟨38, _⟩ => ⟨S4096x16, .f32⟩
  | .local _ .vmem, ⟨0, _⟩ => ⟨S10x2048, .f32⟩
  | .local _ .vmem, ⟨1, _⟩ => ⟨S10x2048, .f32⟩
  | .local _ .vmem, ⟨2, _⟩ => ⟨S16x10, .f32⟩
  | .local _ .vmem, ⟨3, _⟩ => ⟨S16x1, .f32⟩
  | .local _ .vmem, ⟨4, _⟩ => ⟨S32x16, .f32⟩
  | .local _ .vmem, ⟨5, _⟩ => ⟨S32x1, .f32⟩
  | .local _ .vmem, ⟨6, _⟩ => ⟨S16x32, .f32⟩
  | .local _ .vmem, ⟨7, _⟩ => ⟨S16x1, .f32⟩
  | .local _ .vmem, ⟨8, _⟩ => ⟨S16x2048, .f32⟩
  | .local _ .vmem, ⟨9, _⟩ => ⟨S16x2048, .f32⟩
  | .local _ .vmem, ⟨10, _⟩ => ⟨S16x2048, .f32⟩
  | .local _ .vmem, ⟨11, _⟩ => ⟨S16x2048, .f32⟩
  | .local _ .vmem, ⟨12, _⟩ => ⟨S16x4096, .f32⟩
  | .local _ .vmem, ⟨13, _⟩ => ⟨S512x4096, .f32⟩
  | .local _ .vmem, ⟨14, _⟩ => ⟨S512x4096, .f32⟩
  | .local _ .vmem, ⟨15, _⟩ => ⟨S16x512, .f32⟩
  | .local _ .vmem, ⟨16, _⟩ => ⟨S16x512, .f32⟩
  | .local _ .vmem, ⟨17, _⟩ => ⟨S32x16, .f32⟩
  | .local _ .vmem, ⟨18, _⟩ => ⟨S32x1, .f32⟩
  | .local _ .vmem, ⟨19, _⟩ => ⟨S16x32, .f32⟩
  | .local _ .vmem, ⟨20, _⟩ => ⟨S16x1, .f32⟩
  | .local _ .vmem, ⟨21, _⟩ => ⟨S16x512, .f32⟩
  | .local _ .vmem, ⟨22, _⟩ => ⟨S16x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17_0 : Ref sig .tc := ⟨.hbm, 35, rfl⟩
abbrev main_v17_1 : Ref sig .tc := ⟨.hbm, 36, rfl⟩
abbrev main_v18 : Ref sig .tc := ⟨.hbm, 37, rfl⟩
abbrev main_v19 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S10x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S16x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S16x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  reducesTo_S4096x5_S5_d0 : S4096x5.ReducesTo [0] S5
  h_S_ : 0 < S_.numel
  bcast_S5_S1x5_1 : S5.BroadcastsInDim S1x5 (![1] : Fin 1 → Fin S1x5.rank)
  bcast_S_S1x5 : S_.BroadcastsInDim S1x5 (![] : Fin 0 → Fin S1x5.rank)
  bcast_S1x5_S4096x5_0_1 : S1x5.BroadcastsInDim S4096x5 (![0, 1] : Fin 2 → Fin S4096x5.rank)
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  concatenates_S4096x5_S4096x5_S4096x10_d1 : Shape.Concatenates [S4096x5, S4096x5] S4096x10 1
  transposes_S4096x10_S10x4096_1_0 : S4096x10.Transposes [1, 0] S10x4096
  inb_S10x2048_S10x2048_0_0 : ∀ a, (![0, 0] : Fin 2 → Nat) a + S10x2048.size a ≤ S10x2048.size a
  h_S10x2048 : 0 < S10x2048.numel
  shapeCasts_S10x2048_S10x2048 : S10x2048.ShapeCasts S10x2048
  inb_S16x10_S16x10_0_0 : ∀ a, (![0, 0] : Fin 2 → Nat) a + S16x10.size a ≤ S16x10.size a
  h_S16x10 : 0 < S16x10.numel
  inb_S16x1_S16x1_0_0 : ∀ a, (![0, 0] : Fin 2 → Nat) a + S16x1.size a ≤ S16x1.size a
  h_S16x1 : 0 < S16x1.numel
  broadcasts_S16x1_S16x2048 : S16x1.Broadcasts S16x2048
  inb_S32x16_S32x16_0_0 : ∀ a, (![0, 0] : Fin 2 → Nat) a + S32x16.size a ≤ S32x16.size a
  h_S32x16 : 0 < S32x16.numel
  inb_S32x1_S32x1_0_0 : ∀ a, (![0, 0] : Fin 2 → Nat) a + S32x1.size a ≤ S32x1.size a
  h_S32x1 : 0 < S32x1.numel
  broadcasts_S32x1_S32x2048 : S32x1.Broadcasts S32x2048
  inb_S16x32_S16x32_0_0 : ∀ a, (![0, 0] : Fin 2 → Nat) a + S16x32.size a ≤ S16x32.size a
  h_S16x32 : 0 < S16x32.numel
  inb_S16x2048_S16x2048_0_0 : ∀ a, (![0, 0] : Fin 2 → Nat) a + S16x2048.size a ≤ S16x2048.size a
  h_S16x2048 : 0 < S16x2048.numel
  bitsLt_bf16_f32 : FTy.bits .bf16 < FTy.bits .f32
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  inb_S512x4096_S512x4096_0_0 : ∀ a, (![0, 0] : Fin 2 → Nat) a + S512x4096.size a ≤ S512x4096.size a
  h_S512x4096 : 0 < S512x4096.numel
  broadcasts_S32x1_S32x512 : S32x1.Broadcasts S32x512
  broadcasts_S16x1_S16x512 : S16x1.Broadcasts S16x512
  inb_S16x512_S16x512_0_0 : ∀ a, (![0, 0] : Fin 2 → Nat) a + S16x512.size a ≤ S16x512.size a
  h_S16x512 : 0 < S16x512.numel
  shapeCasts_S16x512_S16x512 : S16x512.ShapeCasts S16x512
  transposes_S16x4096_S4096x16_1_0 : S16x4096.Transposes [1, 0] S4096x16
  gather_S16x5_S4096x1_S4096x5_1_0_n_n_0_1_15_wf : GatherDims.WF S16x5 S4096x1 S4096x5 [1] [0] [] [0] [] 1 ![1, 5]
  dot_S16x10_S10x2048_S16x2048_1_0_0_1_n_n_wf : DotDims.WF S16x10 S10x2048 S16x2048 [1] [0] [0] [1] [] []
  dot_S32x16_S16x2048_S32x2048_1_0_0_1_n_n_wf : DotDims.WF S32x16 S16x2048 S32x2048 [1] [0] [0] [1] [] []
  dot_S16x32_S32x2048_S16x2048_1_0_0_1_n_n_wf : DotDims.WF S16x32 S32x2048 S16x2048 [1] [0] [0] [1] [] []
  dot_S16x4096_S512x4096_S16x512_1_1_0_0_n_n_wf : DotDims.WF S16x4096 S512x4096 S16x512 [1] [1] [0] [0] [] []
  dot_S32x16_S16x512_S32x512_1_0_0_1_n_n_wf : DotDims.WF S32x16 S16x512 S32x512 [1] [0] [0] [1] [] []
  dot_S16x32_S32x512_S16x512_1_0_0_1_n_n_wf : DotDims.WF S16x32 S32x512 S16x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10x2048.size a ≤ S10x4096.size a
  hwx0_0 : ∀ i : grid0.Coords, EltTy.bits .f32 = 32 ∨ (Rect.block (s := S10x4096) S10x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x10.size a ≤ S16x10.size a
  hwx0_1 : ∀ i : grid0.Coords, EltTy.bits .f32 = 32 ∨ (Rect.block (s := S16x10) S16x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x16.size a ≤ S32x16.size a
  hwx0_3 : ∀ i : grid0.Coords, EltTy.bits .f32 = 32 ∨ (Rect.block (s := S32x16) S32x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x32.size a ≤ S16x32.size a
  hwx0_5 : ∀ i : grid0.Coords, EltTy.bits .f32 = 32 ∨ (Rect.block (s := S16x32) S16x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x1.size a ≤ S16x1.size a
  hwx0_6 : ∀ i : grid0.Coords, EltTy.bits .f32 = 32 ∨ (Rect.block (s := S16x1) S16x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x2048.size a ≤ S16x4096.size a
  hwx0_7 : ∀ i : grid0.Coords, EltTy.bits .f32 = 32 ∨ (Rect.block (s := S16x4096) S16x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x2048.size a ≤ S16x4096.size a
  hwx0_8 : ∀ i : grid0.Coords, EltTy.bits .f32 = 32 ∨ (Rect.block (s := S16x4096) S16x2048.size (cc0_transform_8 i) (hinb0_8 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S16x4096.size a ≤ S16x4096.size a
  hwx1_0 : ∀ i : grid1.Coords, EltTy.bits .f32 = 32 ∨ (Rect.block (s := S16x4096) S16x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .f32 = 32 ∨ (Rect.block (s := S4096x4096) S512x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x512.size a ≤ S16x4096.size a
  hwx1_2 : ∀ i : grid1.Coords, EltTy.bits .f32 = 32 ∨ (Rect.block (s := S16x4096) S16x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x16.size a ≤ S32x16.size a
  hwx1_3 : ∀ i : grid1.Coords, EltTy.bits .f32 = 32 ∨ (Rect.block (s := S32x16) S32x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x1.size a ≤ S32x1.size a
  hwx1_4 : ∀ i : grid1.Coords, EltTy.bits .f32 = 32 ∨ (Rect.block (s := S32x1) S32x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x32.size a ≤ S16x32.size a
  hwx1_5 : ∀ i : grid1.Coords, EltTy.bits .f32 = 32 ∨ (Rect.block (s := S16x32) S16x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16x1.size a ≤ S16x1.size a
  hwx1_6 : ∀ i : grid1.Coords, EltTy.bits .f32 = 32 ∨ (Rect.block (s := S16x1) S16x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S16x512.size a ≤ S16x4096.size a
  hwx1_7 : ∀ i : grid1.Coords, EltTy.bits .f32 = 32 ∨ (Rect.block (s := S16x4096) S16x512.size (cc1_transform_7 i) (hinb1_7 i)).WholeWords (EltTy.packing .f32)

variable [Facts₀]

def gather_S16x5_S4096x1_S4096x5_1_0_n_n_0_1_15 : GatherDims S16x5 S4096x1 S4096x5 where
  offsetDims := [1]
  collapsedSliceDims := [0]
  operandBatchingDims := []
  startIndicesBatchingDims := []
  startIndexMap := [0]
  indexVectorDim := 1
  sliceSizes := ![1, 5]
  wf := gather_S16x5_S4096x1_S4096x5_1_0_n_n_0_1_15_wf
def dot_S16x10_S10x2048_S16x2048_1_0_0_1_n_n : DotDims S16x10 S10x2048 S16x2048 where
  lhsContracting := [1]
  rhsContracting := [0]
  lhsNonContracting := [0]
  rhsNonContracting := [1]
  lhsBatch := []
  rhsBatch := []
  wf := dot_S16x10_S10x2048_S16x2048_1_0_0_1_n_n_wf
def dot_S32x16_S16x2048_S32x2048_1_0_0_1_n_n : DotDims S32x16 S16x2048 S32x2048 where
  lhsContracting := [1]
  rhsContracting := [0]
  lhsNonContracting := [0]
  rhsNonContracting := [1]
  lhsBatch := []
  rhsBatch := []
  wf := dot_S32x16_S16x2048_S32x2048_1_0_0_1_n_n_wf
def dot_S16x32_S32x2048_S16x2048_1_0_0_1_n_n : DotDims S16x32 S32x2048 S16x2048 where
  lhsContracting := [1]
  rhsContracting := [0]
  lhsNonContracting := [0]
  rhsNonContracting := [1]
  lhsBatch := []
  rhsBatch := []
  wf := dot_S16x32_S32x2048_S16x2048_1_0_0_1_n_n_wf
def dot_S16x4096_S512x4096_S16x512_1_1_0_0_n_n : DotDims S16x4096 S512x4096 S16x512 where
  lhsContracting := [1]
  rhsContracting := [1]
  lhsNonContracting := [0]
  rhsNonContracting := [0]
  lhsBatch := []
  rhsBatch := []
  wf := dot_S16x4096_S512x4096_S16x512_1_1_0_0_n_n_wf
def dot_S32x16_S16x512_S32x512_1_0_0_1_n_n : DotDims S32x16 S16x512 S32x512 where
  lhsContracting := [1]
  rhsContracting := [0]
  lhsNonContracting := [0]
  rhsNonContracting := [1]
  lhsBatch := []
  rhsBatch := []
  wf := dot_S32x16_S16x512_S32x512_1_0_0_1_n_n_wf
def dot_S16x32_S32x512_S16x512_1_0_0_1_n_n : DotDims S16x32 S32x512 S16x512 where
  lhsContracting := [1]
  rhsContracting := [0]
  lhsNonContracting := [0]
  rhsNonContracting := [1]
  lhsBatch := []
  rhsBatch := []
  wf := dot_S16x32_S32x512_S16x512_1_0_0_1_n_n_wf

abbrev win0_0 : Pipeline.Window sig grid0 :=
  Pipeline.Window.ofSpec (Memref.whole main_v16) S10x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S32x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S16x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S16x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17_0) S16x2048.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v17_1) S16x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v17_1) S16x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17_0) S16x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S32x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S32x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S16x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S16x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v18) S16x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S4096x5 : Shape := ⟨2, ![4096, 5]⟩
abbrev S4096x1 : Shape := ⟨2, ![4096, 1]⟩
abbrev S16x10 : Shape := ⟨2, ![16, 10]⟩
abbrev S16x1 : Shape := ⟨2, ![16, 1]⟩
abbrev S32x16 : Shape := ⟨2, ![32, 16]⟩
abbrev S32x1 : Shape := ⟨2, ![32, 1]⟩
abbrev S16x32 : Shape := ⟨2, ![16, 32]⟩
abbrev S16x5 : Shape := ⟨2, ![16, 5]⟩
abbrev S0 : Shape := ⟨1, ![0]⟩
abbrev S_ : Shape := ⟨0, ![]⟩
abbrev S5 : Shape := ⟨1, ![5]⟩
abbrev S1x5 : Shape := ⟨2, ![1, 5]⟩
abbrev S4096 : Shape := ⟨1, ![4096]⟩
abbrev S4096x10 : Shape := ⟨2, ![4096, 10]⟩
abbrev S10x4096 : Shape := ⟨2, ![10, 4096]⟩
abbrev S16x4096 : Shape := ⟨2, ![16, 4096]⟩
abbrev S10x512 : Shape := ⟨2, ![10, 512]⟩
abbrev S16x512 : Shape := ⟨2, ![16, 512]⟩
abbrev S32x512 : Shape := ⟨2, ![32, 512]⟩
abbrev S512x512 : Shape := ⟨2, ![512, 512]⟩
abbrev S4096x16 : Shape := ⟨2, ![4096, 16]⟩

abbrev nBuf : Space → Nat
  | .hbm => 53
  | .vmem => 25
  | .smem => 0
  | _ => 0

abbrev bufTy : (tb : Table) → Fin (tcTables nBuf tb) → BufTy
  | .hbm, ⟨0, _⟩ => ⟨S4096x4096, .f32⟩
  | .hbm, ⟨1, _⟩ => ⟨S4096x5, .f32⟩
  | .hbm, ⟨2, _⟩ => ⟨S4096x1, .i32⟩
  | .hbm, ⟨3, _⟩ => ⟨S16x10, .f32⟩
  | .hbm, ⟨4, _⟩ => ⟨S16x1, .f32⟩
  | .hbm, ⟨5, _⟩ => ⟨S32x16, .f32⟩
  | .hbm, ⟨6, _⟩ => ⟨S32x1, .f32⟩
  | .hbm, ⟨7, _⟩ => ⟨S16x32, .f32⟩
  | .hbm, ⟨8, _⟩ => ⟨S16x1, .f32⟩
  | .hbm, ⟨9, _⟩ => ⟨S32x16, .f32⟩
  | .hbm, ⟨10, _⟩ => ⟨S32x1, .f32⟩
  | .hbm, ⟨11, _⟩ => ⟨S16x32, .f32⟩
  | .hbm, ⟨12, _⟩ => ⟨S16x1, .f32⟩
  | .hbm, ⟨13, _⟩ => ⟨S16x5, .f32⟩
  | .hbm, ⟨14, _⟩ => ⟨S0, .i32⟩
  | .hbm, ⟨15, _⟩ => ⟨S0, .i32⟩
  | .hbm, ⟨16, _⟩ => ⟨S0, .i32⟩
  | .hbm, ⟨17, _⟩ => ⟨S4096x5, .f32⟩
  | .hbm, ⟨18, _⟩ => ⟨S_, .f32⟩
  | .hbm, ⟨19, _⟩ => ⟨S5, .f32⟩
  | .hbm, ⟨20, _⟩ => ⟨S1x5, .f32⟩
  | .hbm, ⟨21, _⟩ => ⟨S_, .f32⟩
  | .hbm, ⟨22, _⟩ => ⟨S1x5, .f32⟩
  | .hbm, ⟨23, _⟩ => ⟨S1x5, .f32⟩
  | .hbm, ⟨24, _⟩ => ⟨S4096x5, .f32⟩
  | .hbm, ⟨25, _⟩ => ⟨S4096x5, .f32⟩
  | .hbm, ⟨26, _⟩ => ⟨S_, .f32⟩
  | .hbm, ⟨27, _⟩ => ⟨S4096x5, .f32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S4096x1, .i32⟩
  | .hbm, ⟨37, _⟩ => ⟨S4096x5, .f32⟩
  | .hbm, ⟨38, _⟩ => ⟨S4096x5, .f32⟩
  | .hbm, ⟨39, _⟩ => ⟨S4096x10, .f32⟩
  | .hbm, ⟨40, _⟩ => ⟨S_, .f32⟩
  | .hbm, ⟨41, _⟩ => ⟨S10x4096, .f32⟩
  | .hbm, ⟨42, _⟩ => ⟨S10x4096, .f32⟩
  | .hbm, ⟨43, _⟩ => ⟨S10x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .bf16⟩
  | .hbm, ⟨49, _⟩ => ⟨S16x4096, .f32⟩
  | .hbm, ⟨50, _⟩ => ⟨S16x4096, .bf16⟩
  | .hbm, ⟨51, _⟩ => ⟨S16x4096, .f32⟩
  | .hbm, ⟨52, _⟩ => ⟨S4096x16, .f32⟩
  | .local _ .vmem, ⟨0, _⟩ => ⟨S10x512, .f32⟩
  | .local _ .vmem, ⟨1, _⟩ => ⟨S10x512, .f32⟩
  | .local _ .vmem, ⟨2, _⟩ => ⟨S16x10, .f32⟩
  | .local _ .vmem, ⟨3, _⟩ => ⟨S16x1, .f32⟩
  | .local _ .vmem, ⟨4, _⟩ => ⟨S32x16, .f32⟩
  | .local _ .vmem, ⟨5, _⟩ => ⟨S32x1, .f32⟩
  | .local _ .vmem, ⟨6, _⟩ => ⟨S16x32, .f32⟩
  | .local _ .vmem, ⟨7, _⟩ => ⟨S16x1, .f32⟩
  | .local _ .vmem, ⟨8, _⟩ => ⟨S16x512, .f32⟩
  | .local _ .vmem, ⟨9, _⟩ => ⟨S16x512, .f32⟩
  | .local _ .vmem, ⟨10, _⟩ => ⟨S16x512, .bf16⟩
  | .local _ .vmem, ⟨11, _⟩ => ⟨S16x512, .bf16⟩
  | .local _ .vmem, ⟨12, _⟩ => ⟨S16x512, .bf16⟩
  | .local _ .vmem, ⟨13, _⟩ => ⟨S16x512, .bf16⟩
  | .local _ .vmem, ⟨14, _⟩ => ⟨S512x512, .bf16⟩
  | .local _ .vmem, ⟨15, _⟩ => ⟨S512x512, .bf16⟩
  | .local _ .vmem, ⟨16, _⟩ => ⟨S16x512, .f32⟩
  | .local _ .vmem, ⟨17, _⟩ => ⟨S16x512, .f32⟩
  | .local _ .vmem, ⟨18, _⟩ => ⟨S32x16, .f32⟩
  | .local _ .vmem, ⟨19, _⟩ => ⟨S32x1, .f32⟩
  | .local _ .vmem, ⟨20, _⟩ => ⟨S16x32, .f32⟩
  | .local _ .vmem, ⟨21, _⟩ => ⟨S16x1, .f32⟩
  | .local _ .vmem, ⟨22, _⟩ => ⟨S16x512, .f32⟩
  | .local _ .vmem, ⟨23, _⟩ => ⟨S16x512, .f32⟩
  | .local _ .vmem, ⟨24, _⟩ => ⟨S16x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_c_0 : Ref sig .tc := ⟨.hbm, 15, rfl⟩
abbrev main_c_1 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_3 : Ref sig .tc := ⟨.hbm, 26, rfl⟩
abbrev main_v7 : Ref sig .tc := ⟨.hbm, 27, rfl⟩
abbrev main_v8 : Ref sig .tc := ⟨.hbm, 28, rfl⟩
abbrev main_c_4 : Ref sig .tc := ⟨.hbm, 29, rfl⟩
abbrev main_v9 : Ref sig .tc := ⟨.hbm, 30, rfl⟩
abbrev main_v10 : Ref sig .tc := ⟨.hbm, 31, rfl⟩
abbrev main_c_5 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_6 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_7 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25_0 : Ref sig .tc := ⟨.hbm, 49, rfl⟩
abbrev main_v25_1 : Ref sig .tc := ⟨.hbm, 50, rfl⟩
abbrev main_v26 : Ref sig .tc := ⟨.hbm, 51, rfl⟩
abbrev main_v27 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S10x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S16x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S16x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S32x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S32x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S16x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S16x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S16x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  hz_S0 : S0.numel = 0
  reducesTo_S4096x5_S5_d0 : S4096x5.ReducesTo [0] S5
  h_S_ : 0 < S_.numel
  bcast_S5_S1x5_1 : S5.BroadcastsInDim S1x5 (![1] : Fin 1 → Fin S1x5.rank)
  bcast_S_S1x5 : S_.BroadcastsInDim S1x5 (![] : Fin 0 → Fin S1x5.rank)
  bcast_S1x5_S4096x5_0_1 : S1x5.BroadcastsInDim S4096x5 (![0, 1] : Fin 2 → Fin S4096x5.rank)
  bcast_S_S4096x5 : S_.BroadcastsInDim S4096x5 (![] : Fin 0 → Fin S4096x5.rank)
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  concatenates_S4096x5_S4096x5_S4096x10_d1 : Shape.Concatenates [S4096x5, S4096x5] S4096x10 1
  bcast_S_S10x4096 : S_.BroadcastsInDim S10x4096 (![] : Fin 0 → Fin S10x4096.rank)
  transposes_S4096x10_S10x4096_1_0 : S4096x10.Transposes [1, 0] S10x4096
  bcast_S_S4096x4096 : S_.BroadcastsInDim S4096x4096 (![] : Fin 0 → Fin S4096x4096.rank)
  transposes_S4096x4096_S4096x4096_1_0 : S4096x4096.Transposes [1, 0] S4096x4096
  bitsLt_bf16_f32 : FTy.bits .bf16 < FTy.bits .f32
  inb_S10x512_S10x512_0_0 : ∀ a, (![0, 0] : Fin 2 → Nat) a + S10x512.size a ≤ S10x512.size a
  h_S10x512 : 0 < S10x512.numel
  shapeCasts_S10x512_S10x512 : S10x512.ShapeCasts S10x512
  inb_S16x10_S16x10_0_0 : ∀ a, (![0, 0] : Fin 2 → Nat) a + S16x10.size a ≤ S16x10.size a
  h_S16x10 : 0 < S16x10.numel
  inb_S16x1_S16x1_0_0 : ∀ a, (![0, 0] : Fin 2 → Nat) a + S16x1.size a ≤ S16x1.size a
  h_S16x1 : 0 < S16x1.numel
  broadcasts_S16x1_S16x512 : S16x1.Broadcasts S16x512
  inb_S32x16_S32x16_0_0 : ∀ a, (![0, 0] : Fin 2 → Nat) a + S32x16.size a ≤ S32x16.size a
  h_S32x16 : 0 < S32x16.numel
  inb_S32x1_S32x1_0_0 : ∀ a, (![0, 0] : Fin 2 → Nat) a + S32x1.size a ≤ S32x1.size a
  h_S32x1 : 0 < S32x1.numel
  broadcasts_S32x1_S32x512 : S32x1.Broadcasts S32x512
  inb_S16x32_S16x32_0_0 : ∀ a, (![0, 0] : Fin 2 → Nat) a + S16x32.size a ≤ S16x32.size a
  h_S16x32 : 0 < S16x32.numel
  inb_S16x512_S16x512_0_0 : ∀ a, (![0, 0] : Fin 2 → Nat) a + S16x512.size a ≤ S16x512.size a
  h_S16x512 : 0 < S16x512.numel
  packedbf16_S16x512_S16x512_0_0 : (Rect.unit (s := S16x512) ![0, 0] S16x512.size inb_S16x512_S16x512_0_0).PackedRows (EltTy.packing .bf16)
  shapeCasts_S16x512_S16x512 : S16x512.ShapeCasts S16x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S16x4096_S4096x16_1_0 : S16x4096.Transposes [1, 0] S4096x16
  gather_S16x5_S4096x1_S4096x5_1_0_n_n_0_1_15_wf : GatherDims.WF S16x5 S4096x1 S4096x5 [1] [0] [] [0] [] 1 ![1, 5]
  scatter_S4096x5_S0_S4096x5_01_n_n_0_wf : ScatterDims.WF S4096x5 S0 S4096x5 [0, 1] [] [] 0
  scatter_S10x4096_S0_S10x4096_01_n_n_0_wf : ScatterDims.WF S10x4096 S0 S10x4096 [0, 1] [] [] 0
  scatter_S4096x4096_S0_S4096x4096_01_n_n_0_wf : ScatterDims.WF S4096x4096 S0 S4096x4096 [0, 1] [] [] 0
  dot_S16x10_S10x512_S16x512_1_0_0_1_n_n_wf : DotDims.WF S16x10 S10x512 S16x512 [1] [0] [0] [1] [] []
  dot_S32x16_S16x512_S32x512_1_0_0_1_n_n_wf : DotDims.WF S32x16 S16x512 S32x512 [1] [0] [0] [1] [] []
  dot_S16x32_S32x512_S16x512_1_0_0_1_n_n_wf : DotDims.WF S16x32 S32x512 S16x512 [1] [0] [0] [1] [] []
  dot_S16x512_S512x512_S16x512_1_0_0_1_n_n_wf : DotDims.WF S16x512 S512x512 S16x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10x512.size a ≤ S10x4096.size a
  hwx0_0 : ∀ i : grid0.Coords, EltTy.bits .f32 = 32 ∨ (Rect.block (s := S10x4096) S10x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x10.size a ≤ S16x10.size a
  hwx0_1 : ∀ i : grid0.Coords, EltTy.bits .f32 = 32 ∨ (Rect.block (s := S16x10) S16x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x16.size a ≤ S32x16.size a
  hwx0_3 : ∀ i : grid0.Coords, EltTy.bits .f32 = 32 ∨ (Rect.block (s := S32x16) S32x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x32.size a ≤ S16x32.size a
  hwx0_5 : ∀ i : grid0.Coords, EltTy.bits .f32 = 32 ∨ (Rect.block (s := S16x32) S16x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x1.size a ≤ S16x1.size a
  hwx0_6 : ∀ i : grid0.Coords, EltTy.bits .f32 = 32 ∨ (Rect.block (s := S16x1) S16x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x512.size a ≤ S16x4096.size a
  hwx0_7 : ∀ i : grid0.Coords, EltTy.bits .f32 = 32 ∨ (Rect.block (s := S16x4096) S16x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x512.size a ≤ S16x4096.size a
  hwx0_8 : ∀ i : grid0.Coords, EltTy.bits .bf16 = 32 ∨ (Rect.block (s := S16x4096) S16x512.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x512.size a ≤ S16x4096.size a
  hwx1_0 : ∀ i : grid1.Coords, EltTy.bits .bf16 = 32 ∨ (Rect.block (s := S16x4096) S16x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S4096x4096.size a
  hwx1_1 : ∀ i : grid1.Coords, EltTy.bits .bf16 = 32 ∨ (Rect.block (s := S4096x4096) S512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x512.size a ≤ S16x4096.size a
  hwx1_2 : ∀ i : grid1.Coords, EltTy.bits .f32 = 32 ∨ (Rect.block (s := S16x4096) S16x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x16.size a ≤ S32x16.size a
  hwx1_3 : ∀ i : grid1.Coords, EltTy.bits .f32 = 32 ∨ (Rect.block (s := S32x16) S32x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x1.size a ≤ S32x1.size a
  hwx1_4 : ∀ i : grid1.Coords, EltTy.bits .f32 = 32 ∨ (Rect.block (s := S32x1) S32x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x32.size a ≤ S16x32.size a
  hwx1_5 : ∀ i : grid1.Coords, EltTy.bits .f32 = 32 ∨ (Rect.block (s := S16x32) S16x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16x1.size a ≤ S16x1.size a
  hwx1_6 : ∀ i : grid1.Coords, EltTy.bits .f32 = 32 ∨ (Rect.block (s := S16x1) S16x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S16x512.size a ≤ S16x4096.size a
  hwx1_7 : ∀ i : grid1.Coords, EltTy.bits .f32 = 32 ∨ (Rect.block (s := S16x4096) S16x512.size (cc1_transform_7 i) (hinb1_7 i)).WholeWords (EltTy.packing .f32)

variable [Facts₀]

def gather_S16x5_S4096x1_S4096x5_1_0_n_n_0_1_15 : GatherDims S16x5 S4096x1 S4096x5 where
  offsetDims := [1]
  collapsedSliceDims := [0]
  operandBatchingDims := []
  startIndicesBatchingDims := []
  startIndexMap := [0]
  indexVectorDim := 1
  sliceSizes := ![1, 5]
  wf := gather_S16x5_S4096x1_S4096x5_1_0_n_n_0_1_15_wf
def scatter_S4096x5_S0_S4096x5_01_n_n_0 : ScatterDims S4096x5 S0 S4096x5 where
  updateWindowDims := [0, 1]
  insertedWindowDims := []
  scatterDimsToOperandDims := []
  indexVectorDim := 0
  wf := scatter_S4096x5_S0_S4096x5_01_n_n_0_wf
def scatter_S10x4096_S0_S10x4096_01_n_n_0 : ScatterDims S10x4096 S0 S10x4096 where
  updateWindowDims := [0, 1]
  insertedWindowDims := []
  scatterDimsToOperandDims := []
  indexVectorDim := 0
  wf := scatter_S10x4096_S0_S10x4096_01_n_n_0_wf
def scatter_S4096x4096_S0_S4096x4096_01_n_n_0 : ScatterDims S4096x4096 S0 S4096x4096 where
  updateWindowDims := [0, 1]
  insertedWindowDims := []
  scatterDimsToOperandDims := []
  indexVectorDim := 0
  wf := scatter_S4096x4096_S0_S4096x4096_01_n_n_0_wf
def dot_S16x10_S10x512_S16x512_1_0_0_1_n_n : DotDims S16x10 S10x512 S16x512 where
  lhsContracting := [1]
  rhsContracting := [0]
  lhsNonContracting := [0]
  rhsNonContracting := [1]
  lhsBatch := []
  rhsBatch := []
  wf := dot_S16x10_S10x512_S16x512_1_0_0_1_n_n_wf
def dot_S32x16_S16x512_S32x512_1_0_0_1_n_n : DotDims S32x16 S16x512 S32x512 where
  lhsContracting := [1]
  rhsContracting := [0]
  lhsNonContracting := [0]
  rhsNonContracting := [1]
  lhsBatch := []
  rhsBatch := []
  wf := dot_S32x16_S16x512_S32x512_1_0_0_1_n_n_wf
def dot_S16x32_S32x512_S16x512_1_0_0_1_n_n : DotDims S16x32 S32x512 S16x512 where
  lhsContracting := [1]
  rhsContracting := [0]
  lhsNonContracting := [0]
  rhsNonContracting := [1]
  lhsBatch := []
  rhsBatch := []
  wf := dot_S16x32_S32x512_S16x512_1_0_0_1_n_n_wf
def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf

abbrev win0_0 : Pipeline.Window sig grid0 :=
  Pipeline.Window.ofSpec (Memref.whole main_v20) S10x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S32x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S16x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S16x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25_0) S16x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v25_1) S16x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v25_1) S16x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25_0) S16x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S32x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S32x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S16x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S16x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S16x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== Proof.Spec.lean ====
/-
  The graph-convolution forward pass as one function of its arguments, over the extended reals, with features on
  rows and nodes on columns.

  A LAYER is an affine map followed by the rectifier: entry (p, q) of `layer w b x` is
  max(Σₖ w(p, k) · x(k, q) + b(p, 0), 0). It reads `x` only in column q, so a block of columns of a layer is the
  layer of the block of columns. The AGGREGATION of messages over the adjacency matrix contracts the node axis of
  both operands: entry (p, d) is Σₛ msg(p, s) · adj(d, s). A sum over 4096 source nodes is the sum, over 8 tiles,
  of the sums over each tile's 512 nodes: addition of extended reals is commutative and associative, so the two
  groupings agree whatever the entries are.

  The whole pass: hid = layer(W_hid, b_hid, feat); msg = layer(W_m2, b_m2, layer(W_m1, b_m1, hid));
  out^T = layer(W_a2, b_a2, layer(W_a1, b_a1, agg(msg, adj))) + hid; the result is the transpose of out^T.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A matrix of extended reals with `a` rows and `b` columns. -/
abbrev Arr (a b : Nat) : Type := (⟨2, ![a, b]⟩ : Shape).Idx → EReal

/-- The rectifier's zero, as the float word both programs spell. -/
abbrev Z : EReal := Ideal.ofBits .f32 0x00000000#32

variable {M K N N' : Nat}

/-- Entry (p, q) of an affine layer followed by the rectifier. -/
def layerE (w : Arr M K) (b : Arr M 1) (x : Arr K N) (p : Fin M) (q : Fin N) : EReal :=
  max ((∑ k : Fin K, w (ix2 p k) * x (ix2 k q)) + b (ix2 p (0 : Fin 1))) Z

/-- The layer as a matrix. -/
def layer (w : Arr M K) (b : Arr M 1) (x : Arr K N) : Arr M N := fun i => layerE w b x (i 0) (i 1)

theorem layer_ix2 (w : Arr M K) (b : Arr M 1) (x : Arr K N) (p : Fin M) (q : Fin N) :
    layer w b x (ix2 p q) = layerE w b x p q := rfl

/-- A layer's entry in column q reads its input in column q only. -/
theorem layerE_congr_col (w : Arr M K) (b : Arr M 1) (x : Arr K N) (x' : Arr K N') (p : Fin M) (q : Fin N) (q' : Fin N')
    (h : ∀ k : Fin K, x (ix2 k q) = x' (ix2 k q')) : layerE w b x p q = layerE w b x' p q' := by
  unfold layerE
  simp only [h]

/-- Entry (p, d) of the aggregation: messages of row p against row d of the adjacency matrix. -/
def aggE (ms : Arr M K) (adj : Arr N K) (p : Fin M) (d : Fin N) : EReal := ∑ s : Fin K, ms (ix2 p s) * adj (ix2 d s)

/-- The aggregation as a matrix. -/
def agg (ms : Arr M K) (adj : Arr N K) : Arr M N := fun i => aggE ms adj (i 0) (i 1)

theorem agg_ix2 (ms : Arr M K) (adj : Arr N K) (p : Fin M) (d : Fin N) : agg ms adj (ix2 p d) = aggE ms adj p d := rfl

/-- The hidden features of every node. -/
def hid (wh : Arr 16 10) (bh : Arr 16 1) (feat : Arr 10 4096) : Arr 16 4096 := layer wh bh feat

/-- The message of every node, from its hidden features. -/
def msg (w1 : Arr 32 16) (b1 : Arr 32 1) (w2 : Arr 16 32) (b2 : Arr 16 1) (h : Arr 16 4096) : Arr 16 4096 :=
  layer w2 b2 (layer w1 b1 h)

/-- The output with features on rows: the aggregated messages through the two aggregation layers, plus the hidden
    features. -/
def outT (adj : Arr 4096 4096) (wa1 : Arr 32 16) (ba1 : Arr 32 1) (wa2 : Arr 16 32) (ba2 : Arr 16 1)
    (h ms : Arr 16 4096) : Arr 16 4096 :=
  fun i => layer wa2 ba2 (layer wa1 ba1 (agg ms adj)) i + h i

/-- The whole pass with features on rows, from the feature matrix and the parameters. -/
def netT (adj : Arr 4096 4096) (feat : Arr 10 4096) (wh : Arr 16 10) (bh : Arr 16 1) (w1 : Arr 32 16) (b1 : Arr 32 1)
    (w2 : Arr 16 32) (b2 : Arr 16 1) (wa1 : Arr 32 16) (ba1 : Arr 32 1) (wa2 : Arr 16 32) (ba2 : Arr 16 1) : Arr 16 4096 :=
  outT adj wa1 ba1 wa2 ba2 (hid wh bh feat) (msg w1 b1 w2 b2 (hid wh bh feat))

/-- The result: nodes on rows. -/
def net (adj : Arr 4096 4096) (feat : Arr 10 4096) (wh : Arr 16 10) (bh : Arr 16 1) (w1 : Arr 32 16) (b1 : Arr 32 1)
    (w2 : Arr 16 32) (b2 : Arr 16 1) (wa1 : Arr 32 16) (ba1 : Arr 32 1) (wa2 : Arr 16 32) (ba2 : Arr 16 1) : Arr 4096 16 :=
  fun i => netT adj feat wh bh w1 b1 w2 b2 wa1 ba1 wa2 ba2 (ix2 (i 1) (i 0))

/-- A sum over `T · B` terms is the sum over `T` tiles of the sums over each tile's `B` terms. -/
theorem sum_tiles (T B : Nat) (g : Fin (T * B) → EReal) :
    ∑ s : Fin (T * B), g s = ∑ j : Fin T, ∑ k : Fin B, g ⟨j.val * B + k.val, by
      calc j.val * B + k.val < j.val * B + B := Nat.add_lt_add_left k.isLt _
        _ = (j.val + 1) * B := by ring
        _ ≤ T * B := Nat.mul_le_mul_right _ j.isLt⟩ := by
  rw [← Fintype.sum_prod_type']
  refine (Fintype.sum_equiv finProdFinEquiv.symm _ _ fun s => ?_)
  congr 1
  apply Fin.ext
  simp only [finProdFinEquiv_symm_apply, Fin.coe_divNat, Fin.coe_modNat]
  exact (Nat.div_add_mod' _ _).symm

end Cert.Spec

end
-- ==== Proof.LibMatmul.lean ====
/-
  A plain matrix product read at an index, over the extended reals.

  The dimension numbers "contract the left operand's second axis with the right operand's first, no batch axes"
  (`DotDims.plain M K N`) make entry `(p, q)` of the product the sum over `k` of `l (p, k) * r (k, q)`: the
  contraction index has one coordinate, which is `k`; the left operand is read at row `p` of the result's index
  and column `k`, the right operand at row `k` and the result's column `q`. Stated once for every size, for the
  kernel's product into a zero accumulator and for the host's product alike, so that a block of rows of a product
  and the whole product are compared as sums over the same `Fin K`.
-/
import Idealize.ShloMosaic.PureOps.Ideal
import Idealize.ShloMosaic.PureOps.Ideal.Laws
import Idealize.ShloMosaic.Lib.ValueIdx

noncomputable section

namespace LibMatmul

open Idealize.ShloMosaic Idealize.ShloMosaic.ValueIdx

variable {M K N : Nat}

/-- The left operand's row is the result's row. -/
theorem plain_lhs_0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs_1 (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row is the contraction position. -/
theorem plain_rhs_0 (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column is the result's column. -/
theorem plain_rhs_1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction shape is the sum over `k : Fin K` of the two operands at `(p, k)` and `(k, q)`. -/
theorem plain_sum (l : (⟨2, ![M, K]⟩ : Shape).Idx → EReal) (r : (⟨2, ![K, N]⟩ : Shape).Idx → EReal) (p : Fin M) (q : Fin N) :
    ∑ c : (DotDims.plain M K N).contr.Idx, l ((DotDims.plain M K N).lhsIdx (ix2 p q) c) * r ((DotDims.plain M K N).rhsIdx (ix2 p q) c)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_0 _ _).trans hk
      | ⟨1, _⟩ => exact plain_rhs_1 _ _)
  rw [el, er]

/-- The kernel's product into the zero accumulator, at entry `(p, q)`. -/
theorem matmul_zero_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply]
  exact plain_sum l r p q

/-- The host's product, at entry `(p, q)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply]
  exact plain_sum l r p q

end LibMatmul

end
-- ==== Proof.LibLayer.lean ====
/-
  One affine layer followed by the rectifier, as a kernel body spells it, read at an entry, over the extended reals.

  A body computes a layer as: the weights times the input block into a zero accumulator, plus the bias column spread
  along the rows, and the maximum with a splat of the zero word. At entry (p, q) that is
  max(Σₖ w(p, k) · x(k, q) + b(p, 0), 0): the product read as a sum over the contraction axis, the spread bias read at
  its row, the splat read as its word. Stated once for every size, so that it serves blocks of any width.
-/
import Idealize.ShloMosaic.PureOps.Ideal
import Idealize.ShloMosaic.PureOps.Ideal.Laws
import Idealize.ShloMosaic.Lib.ValueIdx
import Idealize.ShloMosaic.Lib.Pipeline.Value
import proofs.«130414_g2000600855469178_pallasbulk_547_2_alg».proof.Proof.Spec
import proofs.«130414_g2000600855469178_pallasbulk_547_2_alg».proof.Proof.LibMatmul

noncomputable section

namespace LibLayer

open Idealize.ShloMosaic Idealize.ShloMosaic.ValueIdx Cert.Spec

variable {M K N : Nat}

/-- A column spread along the rows reads, at (p, q), the column's entry of row p. -/
theorem broadcastTo_col_apply {α : Type} (b : (⟨2, ![M, 1]⟩ : Shape).Idx → α)
    (h : (⟨2, ![M, 1]⟩ : Shape).Broadcasts ⟨2, ![M, N]⟩) (p : Fin M) (q : Fin N) :
    broadcastTo ⟨2, ![M, N]⟩ b h (ix2 p q) = b (ix2 p (0 : Fin 1)) := by
  refine broadcastTo_apply b h _ _ fun a => ?_
  match a with
  | ⟨0, _⟩ =>
    show p.val = if M = 1 then 0 else p.val
    split
    · have := p.isLt; omega
    · rfl
  | ⟨1, _⟩ => rfl

/-- The layer a body spells, at entry (p, q). -/
theorem layer_apply (w : FVec Ideal ⟨2, ![M, K]⟩ .f32) (b : FVec Ideal ⟨2, ![M, 1]⟩ .f32) (x : FVec Ideal ⟨2, ![K, N]⟩ .f32)
    (h : (⟨2, ![M, 1]⟩ : Shape).Broadcasts ⟨2, ![M, N]⟩) (p : Fin M) (q : Fin N) :
    maximumf (addf (matmul (DotDims.plain M K N) none w x (constant ⟨2, ![M, N]⟩ .f32 0x00000000#32))
        (broadcastTo ⟨2, ![M, N]⟩ b h))
      (broadcast ⟨2, ![M, N]⟩ (Scalar.ofBits (F := Ideal) .f32 0x00000000#32)) (ix2 p q)
      = layerE w b x p q := by
  rw [maximumf_apply, addf_apply, broadcast_apply, broadcastTo_col_apply]
  unfold layerE
  refine congrArg₂ max (congrArg₂ (· + ·) ?_ rfl) rfl
  exact LibMatmul.matmul_zero_plain_apply none w x p q

/-- The layer a body spells is the specification's layer. -/
theorem layer_eq (w : FVec Ideal ⟨2, ![M, K]⟩ .f32) (b : FVec Ideal ⟨2, ![M, 1]⟩ .f32) (x : FVec Ideal ⟨2, ![K, N]⟩ .f32)
    (h : (⟨2, ![M, 1]⟩ : Shape).Broadcasts ⟨2, ![M, N]⟩) :
    maximumf (addf (matmul (DotDims.plain M K N) none w x (constant ⟨2, ![M, N]⟩ .f32 0x00000000#32))
        (broadcastTo ⟨2, ![M, N]⟩ b h))
      (broadcast ⟨2, ![M, N]⟩ (Scalar.ofBits (F := Ideal) .f32 0x00000000#32))
      = layer w b x := by
  funext i
  rw [eq_ix2 i]
  exact layer_apply w b x h _ _

end LibLayer

end
-- ==== Proof.KArr0.lean ====
/-
  The kernel program's first region: after its two grid points (tiles of 2048 nodes) the hidden-feature array and the
  message array hold the specification's layers of the feature matrix, entry by entry. Block t of each output is what
  point t stored, a layer of the block's columns; a layer reads its input in the entry's column only; the two blocks
  cover the 4096 columns.
-/
import proofs.«130414_g2000600855469178_pallasbulk_547_2_alg».proof.Proof.Gen.KernelIdeal.Frame
import proofs.«130414_g2000600855469178_pallasbulk_547_2_alg».proof.Proof.Spec
import proofs.«130414_g2000600855469178_pallasbulk_547_2_alg».proof.Proof.LibLayer
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Spec

variable (V : (c : Dev nD) → (b : Ref sig .tc) → Buf (Elt Ideal) ((c : Thread nD τ).loc b))

namespace Arr0

theorem hz : (![0, 0] : Fin 2 → Nat) = fun _ => 0 := funext fun a => by fin_cases a <;> rfl

/-- The first payload is one layer of the loaded blocks. -/
theorem pay1_eq (x0 : Vec Ideal S10x2048 .f32) (x1 : Vec Ideal S16x10 .f32) (x2 : Vec Ideal S16x1 .f32) :
    (k0_pay1 x0 x1 x2 : Arr 16 2048) = layer x1 x2 x0 := by
  unfold k0_pay1
  dsimp only
  rw [shapeCast_self]
  exact LibLayer.layer_eq x1 x2 x0 _

/-- The second payload is two more layers over the first. -/
theorem pay2_eq (x0 : Vec Ideal S10x2048 .f32) (x1 : Vec Ideal S16x10 .f32) (x2 : Vec Ideal S16x1 .f32)
    (x3 : Vec Ideal S32x16 .f32) (x4 : Vec Ideal S32x1 .f32) (x5 : Vec Ideal S16x32 .f32) (x6 : Vec Ideal S16x1 .f32) :
    (k0_pay2 x0 x1 x2 x3 x4 x5 x6 : Arr 16 2048) = layer x5 x6 (layer x3 x4 (layer x1 x2 x0)) := by
  unfold k0_pay2
  dsimp only
  rw [pay1_eq]
  rw [← LibLayer.layer_eq x5 x6 (layer x3 x4 (layer x1 x2 x0)) broadcasts_S16x1_S16x2048,
    ← LibLayer.layer_eq x3 x4 (layer x1 x2 x0) broadcasts_S32x1_S32x2048]
  rfl

/-- Two layers agree in a column where their inputs agree in that column. -/
theorem layer_col {M K N N' : Nat} (w : Arr M K) (b : Arr M 1) (x : Arr K N) (x' : Arr K N') (q : Fin N) (q' : Fin N')
    (h : ∀ k : Fin K, x (ix2 k q) = x' (ix2 k q')) (p : Fin M) : layer w b x (ix2 p q) = layer w b x' (ix2 p q') :=
  layerE_congr_col w b x x' p q q' h

/-- The printed index maps over the two points. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = t.val
    ∧ win0_8.index t (0 : Fin 2) = 0 ∧ win0_8.index t (1 : Fin 2) = t.val :=
  (by decide +kernel : ∀ t : Fin grid0.N, _)

/-- An entry of point t's feature block is the feature matrix's entry in column t · 2048 + q. -/
theorem feat_blk (c : Dev nD) (t : Fin cfg0.N) (k : Fin 10) (q : Fin 2048) (q' : Fin 4096) (hq : q'.val = t.val * 2048 + q.val) :
    (iblk0 V c 0 t : Vec Ideal S10x2048 .f32) (ix2 k q) = (V c main_v16 : Arr 10 4096) (ix2 k q') := by
  obtain ⟨e0, e1, -⟩ := idx_facts t
  unfold iblk0
  rw [View.read_apply]
  show V c main_v16 _ = V c main_v16 _
  congr 1
  funext a
  apply Fin.ext
  match a with
  | ⟨0, _⟩ => show win0_0.index t (0 : Fin 2) * 10 + 1 * k.val = k.val; rw [e0]; omega
  | ⟨1, _⟩ => show win0_0.index t (1 : Fin 2) * 2048 + 1 * q.val = q'.val; rw [e1, hq]; omega

/-- A parameter's block is the whole parameter, at every point. -/
theorem par1 (c : Dev nD) (t : Fin cfg0.N) : (iblk0 V c 1 t : Vec Ideal S16x10 .f32) = (V c main_arg3 : Arr 16 10) := by
  obtain ⟨-, -, e0, e1, -⟩ := idx_facts t
  funext y
  unfold iblk0
  rw [View.read_apply]
  show V c main_arg3 _ = V c main_arg3 _
  congr 1
  funext a
  apply Fin.ext
  match a with
  | ⟨0, _⟩ => show win0_1.index t (0 : Fin 2) * 16 + 1 * (y 0).val = (y 0).val; rw [e0]; omega
  | ⟨1, _⟩ => show win0_1.index t (1 : Fin 2) * 10 + 1 * (y 1).val = (y 1).val; rw [e1]; omega

theorem par2 (c : Dev nD) (t : Fin cfg0.N) : (iblk0 V c 2 t : Vec Ideal S16x1 .f32) = (V c main_arg4 : Arr 16 1) := by
  obtain ⟨-, -, -, -, e0, e1, -⟩ := idx_facts t
  funext y
  unfold iblk0
  rw [View.read_apply]
  show V c main_arg4 _ = V c main_arg4 _
  congr 1
  funext a
  apply Fin.ext
  match a with
  | ⟨0, _⟩ => show win0_2.index t (0 : Fin 2) * 16 + 1 * (y 0).val = (y 0).val; rw [e0]; omega
  | ⟨1, _⟩ => show win0_2.index t (1 : Fin 2) * 1 + 1 * (y 1).val = (y 1).val; rw [e1]; omega

/-- What point t stores into the hidden-feature window, entry (p, q), is the specification's entry in column t · 2048 + q. -/
theorem hid_point (c : Dev nD) (t : Fin cfg0.N) (p : Fin 16) (q : Fin 2048) (q' : Fin 4096) (hq : q'.val = t.val * 2048 + q.val) :
    (k0_pay1 (iblk0 V c 0 t) (iblk0 V c 1 t) (iblk0 V c 2 t) : Arr 16 2048) (ix2 p q)
      = hid (V c main_arg3) (V c main_arg4) (V c main_v16) (ix2 p q') := by
  rw [par1 V c t, par2 V c t]
  refine (congrFun (pay1_eq _ _ _) _).trans ?_
  exact layer_col _ _ _ _ q q' (fun k => feat_blk V c t k q q' hq) p

/-- What point t writes back of the hidden features is block t of the specification's array. -/
theorem hid_flushed (c : Dev nD) (t : Fin cfg0.N) :
    (dat0 V c).flushed 7 t = ((cfg0.win 7).blk t).view.read (Elt Ideal) (hid (V c main_arg3) (V c main_arg4) (V c main_v16)) := by
  show (cfg0.win 7).cut (cfg0.grid.coords t) ((dat0 V c).after 7 t) = _
  rw [after0_7]
  unfold out0_7
  rw [View.canon_unit_zero hz]
  simp only [View.ld_unit_zero (S := S10x2048) hz, View.ld_unit_zero (S := S16x10) hz, View.ld_unit_zero (S := S16x1) hz]
  obtain ⟨-, -, -, -, -, -, -, -, -, -, -, -, -, -, e0, e1, -⟩ := idx_facts t
  funext y
  rw [View.read_apply]
  have hy0 : (y 0).val < 16 := (y 0).isLt
  have hy1 : (y 1).val < 2048 := (y 1).isLt
  have ht : t.val < 2 := t.isLt
  have hx : (cfg0.win 7).xinj (cfg0.grid.coords t) y = ix2 (⟨(y 0).val, hy0⟩ : Fin 16) (⟨(y 1).val, hy1⟩ : Fin 2048) := by
    funext a
    match a with
    | ⟨0, _⟩ => rfl
    | ⟨1, _⟩ => rfl
  have he : ((cfg0.win 7).blk t).view.emb y = ix2 (⟨(y 0).val, hy0⟩ : Fin 16) (⟨t.val * 2048 + (y 1).val, by omega⟩ : Fin 4096) := by
    funext a
    apply Fin.ext
    match a with
    | ⟨0, _⟩ => show win0_7.index t (0 : Fin 2) * 16 + 1 * (y 0).val = (y 0).val; rw [e0]; omega
    | ⟨1, _⟩ => show win0_7.index t (1 : Fin 2) * 2048 + 1 * (y 1).val = t.val * 2048 + (y 1).val; rw [e1]; omega
  show (k0_pay1 (iblk0 V c 0 t) (iblk0 V c 1 t) (iblk0 V c 2 t) : Arr 16 2048) ((cfg0.win 7).xinj (cfg0.grid.coords t) y) = _
  rw [hx, he]
  exact hid_point V c t _ _ _ rfl

theorem par3 (c : Dev nD) (t : Fin cfg0.N) : (iblk0 V c 3 t : Vec Ideal S32x16 .f32) = (V c main_arg5 : Arr 32 16) := by
  obtain ⟨-, -, -, -, -, -, e0, e1, -⟩ := idx_facts t
  funext y
  unfold iblk0
  rw [View.read_apply]
  show V c main_arg5 _ = V c main_arg5 _
  congr 1
  funext a
  apply Fin.ext
  match a with
  | ⟨0, _⟩ => show win0_3.index t (0 : Fin 2) * 32 + 1 * (y 0).val = (y 0).val; rw [e0]; omega
  | ⟨1, _⟩ => show win0_3.index t (1 : Fin 2) * 16 + 1 * (y 1).val = (y 1).val; rw [e1]; omega

theorem par4 (c : Dev nD) (t : Fin cfg0.N) : (iblk0 V c 4 t : Vec Ideal S32x1 .f32) = (V c main_arg6 : Arr 32 1) := by
  obtain ⟨-, -, -, -, -, -, -, -, e0, e1, -⟩ := idx_facts t
  funext y
  unfold iblk0
  rw [View.read_apply]
  show V c main_arg6 _ = V c main_arg6 _
  congr 1
  funext a
  apply Fin.ext
  match a with
  | ⟨0, _⟩ => show win0_4.index t (0 : Fin 2) * 32 + 1 * (y 0).val = (y 0).val; rw [e0]; omega
  | ⟨1, _⟩ => show win0_4.index t (1 : Fin 2) * 1 + 1 * (y 1).val = (y 1).val; rw [e1]; omega

theorem par5 (c : Dev nD) (t : Fin cfg0.N) : (iblk0 V c 5 t : Vec Ideal S16x32 .f32) = (V c main_arg7 : Arr 16 32) := by
  obtain ⟨-, -, -, -, -, -, -, -, -, -, e0, e1, -⟩ := idx_facts t
  funext y
  unfold iblk0
  rw [View.read_apply]
  show V c main_arg7 _ = V c main_arg7 _
  congr 1
  funext a
  apply Fin.ext
  match a with
  | ⟨0, _⟩ => show win0_5.index t (0 : Fin 2) * 16 + 1 * (y 0).val = (y 0).val; rw [e0]; omega
  | ⟨1, _⟩ => show win0_5.index t (1 : Fin 2) * 32 + 1 * (y 1).val = (y 1).val; rw [e1]; omega

theorem par6 (c : Dev nD) (t : Fin cfg0.N) : (iblk0 V c 6 t : Vec Ideal S16x1 .f32) = (V c main_arg8 : Arr 16 1) := by
  obtain ⟨-, -, -, -, -, -, -, -, -, -, -, -, e0, e1, -⟩ := idx_facts t
  funext y
  unfold iblk0
  rw [View.read_apply]
  show V c main_arg8 _ = V c main_arg8 _
  congr 1
  funext a
  apply Fin.ext
  match a with
  | ⟨0, _⟩ => show win0_6.index t (0 : Fin 2) * 16 + 1 * (y 0).val = (y 0).val; rw [e0]; omega
  | ⟨1, _⟩ => show win0_6.index t (1 : Fin 2) * 1 + 1 * (y 1).val = (y 1).val; rw [e1]; omega

/-- What point t stores into the message window, entry (p, q), is the specification's entry in column t · 2048 + q:
    each of the three nested layers reads its input in that column only. -/
theorem msg_point (c : Dev nD) (t : Fin cfg0.N) (p : Fin 16) (q : Fin 2048) (q' : Fin 4096) (hq : q'.val = t.val * 2048 + q.val) :
    (k0_pay2 (iblk0 V c 0 t) (iblk0 V c 1 t) (iblk0 V c 2 t) (iblk0 V c 3 t) (iblk0 V c 4 t) (iblk0 V c 5 t) (iblk0 V c 6 t) : Arr 16 2048) (ix2 p q)
      = msg (V c main_arg5) (V c main_arg6) (V c main_arg7) (V c main_arg8) (hid (V c main_arg3) (V c main_arg4) (V c main_v16)) (ix2 p q') := by
  rw [par1 V c t, par2 V c t, par3 V c t, par4 V c t, par5 V c t, par6 V c t]
  refine (congrFun (pay2_eq _ _ _ _ _ _ _) _).trans ?_
  exact layer_col _ _ _ _ q q' (fun k₂ => layer_col _ _ _ _ q q' (fun k₁ => layer_col _ _ _ _ q q'
    (fun k => feat_blk V c t k q q' hq) k₁) k₂) p

/-- What point t writes back of the messages is block t of the specification's array. -/
theorem msg_flushed (c : Dev nD) (t : Fin cfg0.N) :
    (dat0 V c).flushed 8 t = ((cfg0.win 8).blk t).view.read (Elt Ideal)
      (msg (V c main_arg5) (V c main_arg6) (V c main_arg7) (V c main_arg8) (hid (V c main_arg3) (V c main_arg4) (V c main_v16))) := by
  show (cfg0.win 8).cut (cfg0.grid.coords t) ((dat0 V c).after 8 t) = _
  rw [after0_8]
  unfold out0_8
  rw [View.canon_unit_zero hz]
  simp only [View.ld_unit_zero (S := S10x2048) hz, View.ld_unit_zero (S := S16x10) hz, View.ld_unit_zero (S := S16x1) hz,
    View.ld_unit_zero (S := S32x16) hz, View.ld_unit_zero (S := S32x1) hz, View.ld_unit_zero (S := S16x32) hz]
  obtain ⟨-, -, -, -, -, -, -, -, -, -, -, -, -, -, -, -, e0, e1⟩ := idx_facts t
  funext y
  rw [View.read_apply]
  have hy0 : (y 0).val < 16 := (y 0).isLt
  have hy1 : (y 1).val < 2048 := (y 1).isLt
  have ht : t.val < 2 := t.isLt
  have hx : (cfg0.win 8).xinj (cfg0.grid.coords t) y = ix2 (⟨(y 0).val, hy0⟩ : Fin 16) (⟨(y 1).val, hy1⟩ : Fin 2048) := by
    funext a
    match a with
    | ⟨0, _⟩ => rfl
    | ⟨1, _⟩ => rfl
  have he : ((cfg0.win 8).blk t).view.emb y = ix2 (⟨(y 0).val, hy0⟩ : Fin 16) (⟨t.val * 2048 + (y 1).val, by omega⟩ : Fin 4096) := by
    funext a
    apply Fin.ext
    match a with
    | ⟨0, _⟩ => show win0_8.index t (0 : Fin 2) * 16 + 1 * (y 0).val = (y 0).val; rw [e0]; omega
    | ⟨1, _⟩ => show win0_8.index t (1 : Fin 2) * 2048 + 1 * (y 1).val = t.val * 2048 + (y 1).val; rw [e1]; omega
  show (k0_pay2 (iblk0 V c 0 t) (iblk0 V c 1 t) (iblk0 V c 2 t) (iblk0 V c 3 t) (iblk0 V c 4 t) (iblk0 V c 5 t) (iblk0 V c 6 t) : Arr 16 2048)
    ((cfg0.win 8).xinj (cfg0.grid.coords t) y) = _
  rw [hx, he]
  exact msg_point V c t _ _ _ rfl

/-- An index of the hidden-feature array is in point t's block iff each coordinate is in the block's range. -/
theorem mem_blk7 (t : Fin cfg0.N) (i : S16x4096.Idx) :
    i ∈ ((cfg0.win 7).blk t).view.set ↔ ∀ a : Fin 2, win0_7.index t a * S16x2048.size a ≤ (i a).val ∧ (i a).val < win0_7.index t a * S16x2048.size a + S16x2048.size a := by
  show i ∈ ((View.whole main_v17_0).slice (win0_7.rect t)).set ↔ _
  rw [View.set_slice_whole, Rect.mem_set_unit]
  exact Iff.rfl

/-- The same for the message array. -/
theorem mem_blk8 (t : Fin cfg0.N) (i : S16x4096.Idx) :
    i ∈ ((cfg0.win 8).blk t).view.set ↔ ∀ a : Fin 2, win0_8.index t a * S16x2048.size a ≤ (i a).val ∧ (i a).val < win0_8.index t a * S16x2048.size a + S16x2048.size a := by
  show i ∈ ((View.whole main_v17_1).slice (win0_8.rect t)).set ↔ _
  rw [View.set_slice_whole, Rect.mem_set_unit]
  exact Iff.rfl

/-- Column j of the hidden-feature array is in the block of point j / 2048, which writes back. -/
theorem cover7 (i : S16x4096.Idx) : ∃ t : Fin cfg0.N, (cfg0.win 7).flush t = true ∧ i ∈ ((cfg0.win 7).blk t).view.set := by
  have h0 : (i 0).val < 16 := (i 0).isLt
  have h1 : (i 1).val < 4096 := (i 1).isLt
  have hN : cfg0.N = 2 := rfl
  have hlt : (i 1).val / 2048 < cfg0.N := by rw [hN]; omega
  refine ⟨⟨(i 1).val / 2048, hlt⟩, flush0_7 _, ?_⟩
  rw [mem_blk7]
  obtain ⟨-, -, -, -, -, -, -, -, -, -, -, -, -, -, e0, e1, -⟩ := idx_facts ⟨(i 1).val / 2048, hlt⟩
  intro a
  match a with
  | ⟨0, _⟩ =>
    show win0_7.index ⟨(i 1).val / 2048, hlt⟩ (0 : Fin 2) * 16 ≤ (i 0).val ∧ (i 0).val < win0_7.index ⟨(i 1).val / 2048, hlt⟩ (0 : Fin 2) * 16 + 16
    rw [e0]; omega
  | ⟨1, _⟩ =>
    show win0_7.index ⟨(i 1).val / 2048, hlt⟩ (1 : Fin 2) * 2048 ≤ (i 1).val ∧ (i 1).val < win0_7.index ⟨(i 1).val / 2048, hlt⟩ (1 : Fin 2) * 2048 + 2048
    rw [e1]; show (i 1).val / 2048 * 2048 ≤ (i 1).val ∧ (i 1).val < (i 1).val / 2048 * 2048 + 2048; omega

/-- The same for the message array. -/
theorem cover8 (i : S16x4096.Idx) : ∃ t : Fin cfg0.N, (cfg0.win 8).flush t = true ∧ i ∈ ((cfg0.win 8).blk t).view.set := by
  have h0 : (i 0).val < 16 := (i 0).isLt
  have h1 : (i 1).val < 4096 := (i 1).isLt
  have hN : cfg0.N = 2 := rfl
  have hlt : (i 1).val / 2048 < cfg0.N := by rw [hN]; omega
  refine ⟨⟨(i 1).val / 2048, hlt⟩, flush0_8 _, ?_⟩
  rw [mem_blk8]
  obtain ⟨-, -, -, -, -, -, -, -, -, -, -, -, -, -, -, -, e0, e1⟩ := idx_facts ⟨(i 1).val / 2048, hlt⟩
  intro a
  match a with
  | ⟨0, _⟩ =>
    show win0_8.index ⟨(i 1).val / 2048, hlt⟩ (0 : Fin 2) * 16 ≤ (i 0).val ∧ (i 0).val < win0_8.index ⟨(i 1).val / 2048, hlt⟩ (0 : Fin 2) * 16 + 16
    rw [e0]; omega
  | ⟨1, _⟩ =>
    show win0_8.index ⟨(i 1).val / 2048, hlt⟩ (1 : Fin 2) * 2048 ≤ (i 1).val ∧ (i 1).val < win0_8.index ⟨(i 1).val / 2048, hlt⟩ (1 : Fin 2) * 2048 + 2048
    rw [e1]; show (i 1).val / 2048 * 2048 ≤ (i 1).val ∧ (i 1).val < (i 1).val / 2048 * 2048 + 2048; omega

end Arr0

/-- The hidden features after the first region. -/
theorem hid_arr (c : Dev nD) :
    ((Gen.dat0 V c).arrAt 7 cfg0.N : Arr 16 4096) = hid (V c main_arg3) (V c main_arg4) (V c main_v16) :=
  (Gen.dat0 V c).arrAt_eq_of_cover 7 (hid (V c main_arg3) (V c main_arg4) (V c main_v16))
    (fun t _ => Arr0.hid_flushed V c t) Arr0.cover7

/-- The messages after the first region. -/
theorem msg_arr (c : Dev nD) :
    ((Gen.dat0 V c).arrAt 8 cfg0.N : Arr 16 4096)
      = msg (V c main_arg5) (V c main_arg6) (V c main_arg7) (V c main_arg8) (hid (V c main_arg3) (V c main_arg4) (V c main_v16)) :=
  (Gen.dat0 V c).arrAt_eq_of_cover 8
    (msg (V c main_arg5) (V c main_arg6) (V c main_arg7) (V c main_arg8) (hid (V c main_arg3) (V c main_arg4) (V c main_v16)))
    (fun t _ => Arr0.msg_flushed V c t) Arr0.cover8

end Cert.KernelIdeal.Val

end
-- ==== Proof.LibMatmulT.lean ====
/-
  A matrix product with the right operand contracted on its last axis, read at an index, over the extended reals.

  The dimension numbers "contract the left operand's second axis with the right operand's second axis, no batch
  axes" (`DotDims.transposedRhs M K N`) make entry `(p, q)` of the product the sum over `k` of
  `l (p, k) * r (q, k)`: row `p` of the left operand against row `q` of the right operand. Stated once for every size.
-/
import Idealize.ShloMosaic.PureOps.Ideal
import Idealize.ShloMosaic.PureOps.Ideal.Laws
import Idealize.ShloMosaic.Lib.ValueIdx

noncomputable section

namespace LibMatmulT

open Idealize.ShloMosaic Idealize.ShloMosaic.ValueIdx

variable {M K N : Nat}

/-- The left operand's row is the result's row. -/
theorem tr_lhs_0 (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem tr_lhs_1 (i : (⟨2, ![M, N]⟩ : Shape).Idx) (c : (DotDims.transposedRhs M K N).contr.Idx) :
    ((DotDims.transposedRhs M K N).lhsIdx i c 1).val = (c ⟨0, Nat.one_pos⟩).val :=
  (DotDims.transposedRhs M K N).lhsIdx_val_of_single rfl i c

/-- The right operand's row is the result's column. -/
theorem tr_rhs_0 (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem tr_rhs_1 (i : (⟨2, ![M, N]⟩ : Shape).Idx) (c : (DotDims.transposedRhs M K N).contr.Idx) :
    ((DotDims.transposedRhs M K N).rhsIdx i c 1).val = (c ⟨0, Nat.one_pos⟩).val :=
  (DotDims.transposedRhs M K N).rhsIdx_val_of_single rfl i c

/-- The sum over the contraction shape is the sum over `k : Fin K` of the two operands at `(p, k)` and `(q, k)`. -/
theorem tr_sum (l : (⟨2, ![M, K]⟩ : Shape).Idx → EReal) (r : (⟨2, ![N, K]⟩ : Shape).Idx → EReal) (p : Fin M) (q : Fin N) :
    ∑ c : (DotDims.transposedRhs M K N).contr.Idx,
        l ((DotDims.transposedRhs M K N).lhsIdx (ix2 p q) c) * r ((DotDims.transposedRhs M K N).rhsIdx (ix2 p q) c)
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact tr_lhs_0 _ _
      | ⟨1, _⟩ => exact (tr_lhs_1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact tr_rhs_0 _ _
      | ⟨1, _⟩ => exact (tr_rhs_1 _ _).trans hk)
  rw [el, er]

/-- The kernel's product into the zero accumulator, at entry `(p, q)`. -/
theorem matmul_zero_tr_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply]
  exact tr_sum l r p q

end LibMatmulT

end
-- ==== Proof.KArr1.lean ====
/-
  The kernel program's second region: after its eight grid points (destination tiles of 512 nodes) the output array
  holds the specification's aggregation layers plus the hidden features, entry by entry. At point t the body contracts
  the whole message matrix against rows 512 t … 512 t + 511 of the adjacency matrix over all 4096 source nodes at once,
  applies the two layers column by column and adds the hidden tile; the eight blocks cover the 4096 columns.
-/
import proofs.«130414_g2000600855469178_pallasbulk_547_2_alg».proof.Proof.Gen.KernelIdeal.Frame
import proofs.«130414_g2000600855469178_pallasbulk_547_2_alg».proof.Proof.Spec
import proofs.«130414_g2000600855469178_pallasbulk_547_2_alg».proof.Proof.LibLayer
import proofs.«130414_g2000600855469178_pallasbulk_547_2_alg».proof.Proof.LibMatmulT
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Spec

variable (V : (c : Dev nD) → (b : Ref sig .tc) → Buf (Elt Ideal) ((c : Thread nD τ).loc b))

/-! ## The body's value, as a function of its blocks -/

/-- The first product of the body: the messages against the adjacency block's rows, all source nodes at once —
    the aggregation of the messages over the block's destination nodes. -/
theorem agg_eq (x0 : FVec Ideal S16x4096 .f32) (x1 : FVec Ideal S512x4096 .f32) :
    FloatOps.matmul dot_S16x4096_S512x4096_S16x512_1_1_0_0_n_n none x0 x1 (constant S16x512 .f32 0x00000000#32) = (agg x0 x1 : Arr 16 512) := by
  funext i; rw [eq_ix2 i]; exact LibMatmulT.matmul_zero_tr_apply none x0 x1 _ _

/-- The body's stored value: the two layers of the block's aggregation, plus the hidden block. -/
theorem pay_eq (x0 : Vec Ideal S16x4096 .f32) (x1 : Vec Ideal S512x4096 .f32) (w1 : Vec Ideal S32x16 .f32) (b1 : Vec Ideal S32x1 .f32) (w2 : Vec Ideal S16x32 .f32) (b2 : Vec Ideal S16x1 .f32) (hb : Vec Ideal S16x512 .f32) :
    k1_pay1 (F := Ideal) x0 x1 w1 b1 w2 b2 hb = fun i => layer w2 b2 (layer w1 b1 (agg x0 x1)) i + hb i := by
  unfold k1_pay1
  dsimp only
  rw [shapeCast_self, shapeCast_self]
  funext i
  rw [addf_apply]
  refine congrArg₂ (· + ·) ?_ rfl
  refine (congrFun (LibLayer.layer_eq w2 b2 _ _) i).trans ?_
  refine congrArg (fun x => layer w2 b2 x i) ?_
  refine (LibLayer.layer_eq w1 b1 _ _).trans ?_
  exact congrArg (layer w1 b1) (agg_eq x0 x1)

/-! ## From a block's entry to the array's -/

/-- An entry of a block's value is the entry of the whole output in the block's column of the array: the layers read
    their input in one column only, and the block's aggregation column is the array's. -/
theorem block_entry (ms ms' : Arr 16 4096) (adj : Arr 4096 4096) (adjb : Arr 512 4096) (w1 w1' : Arr 32 16) (b1 b1' : Arr 32 1)
    (w2 w2' : Arr 16 32) (b2 b2' : Arr 16 1) (h : Arr 16 4096) (hb : Arr 16 512) (p : Fin 16) (y : Fin 512) (q : Fin 4096)
    (hms : ms' = ms) (hw1 : w1' = w1) (hb1 : b1' = b1) (hw2 : w2' = w2) (hb2 : b2' = b2)
    (hadj : ∀ s : Fin 4096, adjb (ix2 y s) = adj (ix2 q s)) (hh : hb (ix2 p y) = h (ix2 p q)) :
    layer w2' b2' (layer w1' b1' (agg ms' adjb)) (ix2 p y) + hb (ix2 p y) = outT adj w1 b1 w2 b2 h ms (ix2 p q) := by
  subst hms hw1 hb1 hw2 hb2
  show layerE w2' b2' (layer w1' b1' (agg ms' adjb)) p y + hb (ix2 p y) = layerE w2' b2' (layer w1' b1' (agg ms' adj)) p q + h (ix2 p q)
  rw [hh]
  refine congrArg (· + h (ix2 p q)) ?_
  refine layerE_congr_col w2' b2' _ _ p y q fun k => ?_
  show layerE w1' b1' (agg ms' adjb) k y = layerE w1' b1' (agg ms' adj) k q
  refine layerE_congr_col w1' b1' _ _ k y q fun k' => ?_
  show aggE ms' adjb k' y = aggE ms' adj k' q
  unfold aggE
  exact Finset.sum_congr rfl fun s _ => by rw [hadj s]

theorem hz : (![0, 0] : Fin 2 → Nat) = fun _ => 0 := funext fun a => by fin_cases a <;> rfl

/-- The printed index maps over the grid: the message matrix and the four parameters are one block; the adjacency
    block at point t is row block t; the hidden and output blocks are column block t. -/
theorem idx_facts : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = t.val :=
  (by decide +kernel : ∀ t : Fin grid1.N, _)

theorem N8 : cfg1.N = 8 := N_1

/-- The message window's block at any point is the whole message matrix. -/
theorem blk0_eq (c : Dev nD) (t : Fin cfg1.N) : (iblk1 V c 0 t : Arr 16 4096) = V c main_v17_1 := by
  obtain ⟨e0, e1, -⟩ := idx_facts t
  funext y
  unfold iblk1
  rw [View.read_apply]
  show V c main_v17_1 _ = V c main_v17_1 y
  congr 1
  funext a
  apply Fin.ext
  match a with
  | ⟨0, _⟩ => show win1_0.index t (0 : Fin 2) * 16 + 1 * (y 0).val = (y 0).val; rw [e0]; omega
  | ⟨1, _⟩ => show win1_0.index t (1 : Fin 2) * 4096 + 1 * (y 1).val = (y 1).val; rw [e1]; omega

/-- The first layer's weights: one block, the whole matrix. -/
theorem blk3_eq (c : Dev nD) (t : Fin cfg1.N) : (iblk1 V c 3 t : Arr 32 16) = V c main_arg9 := by
  obtain ⟨-, -, -, -, -, -, e0, e1, -⟩ := idx_facts t
  funext y
  unfold iblk1
  rw [View.read_apply]
  show V c main_arg9 _ = V c main_arg9 y
  congr 1
  funext a
  apply Fin.ext
  match a with
  | ⟨0, _⟩ => show win1_3.index t (0 : Fin 2) * 32 + 1 * (y 0).val = (y 0).val; rw [e0]; omega
  | ⟨1, _⟩ => show win1_3.index t (1 : Fin 2) * 16 + 1 * (y 1).val = (y 1).val; rw [e1]; omega

/-- The first layer's bias column: one block, the whole column. -/
theorem blk4_eq (c : Dev nD) (t : Fin cfg1.N) : (iblk1 V c 4 t : Arr 32 1) = V c main_arg10 := by
  obtain ⟨-, -, -, -, -, -, -, -, e0, e1, -⟩ := idx_facts t
  funext y
  unfold iblk1
  rw [View.read_apply]
  show V c main_arg10 _ = V c main_arg10 y
  congr 1
  funext a
  apply Fin.ext
  match a with
  | ⟨0, _⟩ => show win1_4.index t (0 : Fin 2) * 32 + 1 * (y 0).val = (y 0).val; rw [e0]; omega
  | ⟨1, _⟩ => show win1_4.index t (1 : Fin 2) * 1 + 1 * (y 1).val = (y 1).val; rw [e1]; omega

/-- The second layer's weights: one block, the whole matrix. -/
theorem blk5_eq (c : Dev nD) (t : Fin cfg1.N) : (iblk1 V c 5 t : Arr 16 32) = V c main_arg11 := by
  obtain ⟨-, -, -, -, -, -, -, -, -, -, e0, e1, -⟩ := idx_facts t
  funext y
  unfold iblk1
  rw [View.read_apply]
  show V c main_arg11 _ = V c main_arg11 y
  congr 1
  funext a
  apply Fin.ext
  match a with
  | ⟨0, _⟩ => show win1_5.index t (0 : Fin 2) * 16 + 1 * (y 0).val = (y 0).val; rw [e0]; omega
  | ⟨1, _⟩ => show win1_5.index t (1 : Fin 2) * 32 + 1 * (y 1).val = (y 1).val; rw [e1]; omega

/-- The second layer's bias column: one block, the whole column. -/
theorem blk6_eq (c : Dev nD) (t : Fin cfg1.N) : (iblk1 V c 6 t : Arr 16 1) = V c main_arg12 := by
  obtain ⟨-, -, -, -, -, -, -, -, -, -, -, -, e0, e1, -⟩ := idx_facts t
  funext y
  unfold iblk1
  rw [View.read_apply]
  show V c main_arg12 _ = V c main_arg12 y
  congr 1
  funext a
  apply Fin.ext
  match a with
  | ⟨0, _⟩ => show win1_6.index t (0 : Fin 2) * 16 + 1 * (y 0).val = (y 0).val; rw [e0]; omega
  | ⟨1, _⟩ => show win1_6.index t (1 : Fin 2) * 1 + 1 * (y 1).val = (y 1).val; rw [e1]; omega

/-- Row y of the adjacency block at point t is row 512 t + y of the adjacency matrix. -/
theorem blk1_apply (c : Dev nD) (t : Fin cfg1.N) (y : Fin 512) (s : Fin 4096) (q : Fin 4096) (hq : q.val = 512 * t.val + y.val) :
    (iblk1 V c 1 t : Arr 512 4096) (ix2 y s) = V c main_arg0 (ix2 q s) := by
  obtain ⟨-, -, e0, e1, -⟩ := idx_facts t
  unfold iblk1
  rw [View.read_apply]
  show V c main_arg0 _ = V c main_arg0 (ix2 q s)
  congr 1
  funext a
  apply Fin.ext
  match a with
  | ⟨0, _⟩ => show win1_1.index t (0 : Fin 2) * 512 + 1 * y.val = q.val; rw [e0, hq]; omega
  | ⟨1, _⟩ => show win1_1.index t (1 : Fin 2) * 4096 + 1 * s.val = s.val; rw [e1]; omega

/-- Column y of the hidden block at point t is column 512 t + y of the hidden features. -/
theorem blk2_apply (c : Dev nD) (t : Fin cfg1.N) (p : Fin 16) (y : Fin 512) (q : Fin 4096) (hq : q.val = 512 * t.val + y.val) :
    (iblk1 V c 2 t : Arr 16 512) (ix2 p y) = V c main_v17_0 (ix2 p q) := by
  obtain ⟨-, -, -, -, e0, e1, -⟩ := idx_facts t
  unfold iblk1
  rw [View.read_apply]
  show V c main_v17_0 _ = V c main_v17_0 (ix2 p q)
  congr 1
  funext a
  apply Fin.ext
  match a with
  | ⟨0, _⟩ => show win1_2.index t (0 : Fin 2) * 16 + 1 * p.val = p.val; rw [e0]; omega
  | ⟨1, _⟩ => show win1_2.index t (1 : Fin 2) * 512 + 1 * y.val = q.val; rw [e1, hq]; omega

/-- Column y of the output block at point t sits in column 512 t + y of the output. -/
theorem emb7 (t : Fin cfg1.N) (p : Fin 16) (y : Fin 512) (q : Fin 4096) (hq : q.val = 512 * t.val + y.val) :
    ((cfg1.win 7).blk t).view.emb (ix2 p y) = (ix2 p q : S16x4096.Idx) := by
  obtain ⟨-, -, -, -, -, -, -, -, -, -, -, -, -, -, e0, e1⟩ := idx_facts t
  funext a
  apply Fin.ext
  match a with
  | ⟨0, _⟩ => show win1_7.index t (0 : Fin 2) * 16 + 1 * p.val = p.val; rw [e0]; omega
  | ⟨1, _⟩ => show win1_7.index t (1 : Fin 2) * 512 + 1 * y.val = q.val; rw [e1, hq]; omega

/-- What point t writes back is block t of the specification's output of the arrays the region finds. -/
theorem flushed_eq (c : Dev nD) (t : Fin cfg1.N) :
    (Gen.dat1 V c).flushed 7 t = ((cfg1.win 7).blk t).view.read (Elt Ideal)
      (outT (V c main_arg0) (V c main_arg9) (V c main_arg10) (V c main_arg11) (V c main_arg12) (V c main_v17_0) (V c main_v17_1) : Arr 16 4096) := by
  show (cfg1.win 7).cut (cfg1.grid.coords t) ((Gen.dat1 V c).after 7 t) = _
  rw [after1_7]
  unfold out1_7
  rw [View.canon_unit_zero hz]
  simp only [View.ld_unit_zero (S := S16x4096) hz, View.ld_unit_zero (S := S512x4096) hz, View.ld_unit_zero (S := S32x16) hz,
    View.ld_unit_zero (S := S32x1) hz, View.ld_unit_zero (S := S16x32) hz, View.ld_unit_zero (S := S16x1) hz, View.ld_unit_zero (S := S16x512) hz]
  have ht : t.val < 8 := lt_of_lt_of_eq t.isLt N8
  have key : ∀ j : S16x512.Idx,
      k1_pay1 (F := Ideal) (iblk1 V c 0 t) (iblk1 V c 1 t) (iblk1 V c 3 t) (iblk1 V c 4 t) (iblk1 V c 5 t) (iblk1 V c 6 t) (iblk1 V c 2 t) j
        = (outT (V c main_arg0) (V c main_arg9) (V c main_arg10) (V c main_arg11) (V c main_arg12) (V c main_v17_0) (V c main_v17_1) : Arr 16 4096)
            (((cfg1.win 7).blk t).view.emb j) := by
    intro j
    obtain ⟨p, y, rfl⟩ : ∃ (p : Fin 16) (y : Fin 512), j = ix2 p y := ⟨j 0, j 1, eq_ix2 j⟩
    have hq : 512 * t.val + y.val < 4096 := by have := y.isLt; omega
    rw [emb7 t p y ⟨512 * t.val + y.val, hq⟩ rfl]
    refine (congrFun (pay_eq _ _ _ _ _ _ _) (ix2 p y)).trans ?_
    exact block_entry (V c main_v17_1) _ (V c main_arg0) _ (V c main_arg9) _ (V c main_arg10) _ (V c main_arg11) _ (V c main_arg12) _
      (V c main_v17_0) _ p y ⟨512 * t.val + y.val, hq⟩ (blk0_eq V c t) (blk3_eq V c t) (blk4_eq V c t) (blk5_eq V c t) (blk6_eq V c t)
      (fun s => blk1_apply V c t y s _ rfl) (blk2_apply V c t p y _ rfl)
  funext j
  rw [View.read_apply]
  exact key j

/-! ## The eight blocks cover the output -/

/-- An index of the output is in point t's block iff each coordinate is in the block's range on its axis. -/
theorem mem_blk (t : Fin cfg1.N) (i : S16x4096.Idx) :
    i ∈ ((cfg1.win 7).blk t).view.set ↔ ∀ a : Fin 2, win1_7.index t a * S16x512.size a ≤ (i a).val ∧ (i a).val < win1_7.index t a * S16x512.size a + S16x512.size a := by
  show i ∈ ((View.whole main_v18).slice (win1_7.rect t)).set ↔ _
  rw [View.set_slice_whole, Rect.mem_set_unit]
  exact Iff.rfl

/-- Column q of the output is written back at point q / 512. -/
theorem covered (i : S16x4096.Idx) : ∃ t : Fin cfg1.N, (cfg1.win 7).flush t = true ∧ i ∈ ((cfg1.win 7).blk t).view.set := by
  have hi0 : (i 0).val < 16 := (i 0).isLt
  have hi1 : (i 1).val < 4096 := (i 1).isLt
  have hlt : (i 1).val / 512 < cfg1.N := by rw [N8]; omega
  obtain ⟨t, ht⟩ : ∃ t : Fin cfg1.N, t.val = (i 1).val / 512 := ⟨⟨_, hlt⟩, rfl⟩
  obtain ⟨-, -, -, -, -, -, -, -, -, -, -, -, -, -, e0, e1⟩ := idx_facts t
  refine ⟨t, flush1_7 t, ?_⟩
  rw [mem_blk]
  intro a
  match a with
  | ⟨0, _⟩ => show win1_7.index t (0 : Fin 2) * 16 ≤ (i 0).val ∧ (i 0).val < win1_7.index t (0 : Fin 2) * 16 + 16; rw [e0]; omega
  | ⟨1, _⟩ => show win1_7.index t (1 : Fin 2) * 512 ≤ (i 1).val ∧ (i 1).val < win1_7.index t (1 : Fin 2) * 512 + 512; rw [e1, ht]; omega

/-- The output (features on rows) after the second region, from the arrays the region finds. -/
theorem out_arr (c : Dev nD) :
    ((Gen.dat1 V c).arrAt 7 cfg1.N : Arr 16 4096)
      = outT (V c main_arg0) (V c main_arg9) (V c main_arg10) (V c main_arg11) (V c main_arg12) (V c main_v17_0) (V c main_v17_1) :=
  (Gen.dat1 V c).arrAt_eq_of_cover 7 _ (fun t _ => flushed_eq V c t) covered

end Cert.KernelIdeal.Val

end
-- ==== Proof.KVal.lean ====
/-
  What the kernel program's result buffer holds at the end, as the specification's function of the argument arrays
  and of the feature matrix the host operations before the first region compute: the last host operation transposes
  the second region's output; the second region's output is the aggregation layers plus the hidden features of the
  arrays it finds; those are the first region's two outputs and arguments no earlier item wrote.
-/
import proofs.«130414_g2000600855469178_pallasbulk_547_2_alg».proof.Proof.Gen.KernelIdeal.Frame
import proofs.«130414_g2000600855469178_pallasbulk_547_2_alg».proof.Proof.Spec
import proofs.«130414_g2000600855469178_pallasbulk_547_2_alg».proof.Proof.KArr0
import proofs.«130414_g2000600855469178_pallasbulk_547_2_alg».proof.Proof.KArr1
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg)

/-- The feature matrix (features on rows, nodes on columns) the host operations before the first region leave. -/
abbrev feat (c : Dev nD) : Arr 10 4096 := Gen.V1 m ρ c main_v16

/-- No host operation before the first region writes argument 0. -/
theorem V1_arg0 (c : Dev nD) : Gen.V1 m ρ c main_arg0 = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : Gen.W1 m ρ c (Proc.devRef .tc main_arg0) = Gen.W0 m ρ c (Proc.devRef .tc main_arg0))

/-- No host operation before the first region writes argument 3. -/
theorem V1_arg3 (c : Dev nD) : Gen.V1 m ρ c main_arg3 = m ((c : Thread nD τ).loc main_arg3) :=
  (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : Gen.W1 m ρ c (Proc.devRef .tc main_arg3) = Gen.W0 m ρ c (Proc.devRef .tc main_arg3))

/-- No host operation before the first region writes argument 4. -/
theorem V1_arg4 (c : Dev nD) : Gen.V1 m ρ c main_arg4 = m ((c : Thread nD τ).loc main_arg4) :=
  (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : Gen.W1 m ρ c (Proc.devRef .tc main_arg4) = Gen.W0 m ρ c (Proc.devRef .tc main_arg4))

/-- No host operation before the first region writes argument 5. -/
theorem V1_arg5 (c : Dev nD) : Gen.V1 m ρ c main_arg5 = m ((c : Thread nD τ).loc main_arg5) :=
  (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : Gen.W1 m ρ c (Proc.devRef .tc main_arg5) = Gen.W0 m ρ c (Proc.devRef .tc main_arg5))

/-- No host operation before the first region writes argument 6. -/
theorem V1_arg6 (c : Dev nD) : Gen.V1 m ρ c main_arg6 = m ((c : Thread nD τ).loc main_arg6) :=
  (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : Gen.W1 m ρ c (Proc.devRef .tc main_arg6) = Gen.W0 m ρ c (Proc.devRef .tc main_arg6))

/-- No host operation before the first region writes argument 7. -/
theorem V1_arg7 (c : Dev nD) : Gen.V1 m ρ c main_arg7 = m ((c : Thread nD τ).loc main_arg7) :=
  (StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : Gen.W1 m ρ c (Proc.devRef .tc main_arg7) = Gen.W0 m ρ c (Proc.devRef .tc main_arg7))

/-- No host operation before the first region writes argument 8. -/
theorem V1_arg8 (c : Dev nD) : Gen.V1 m ρ c main_arg8 = m ((c : Thread nD τ).loc main_arg8) :=
  (StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : Gen.W1 m ρ c (Proc.devRef .tc main_arg8) = Gen.W0 m ρ c (Proc.devRef .tc main_arg8))

/-- No host operation before the first region writes argument 9. -/
theorem V1_arg9 (c : Dev nD) : Gen.V1 m ρ c main_arg9 = m ((c : Thread nD τ).loc main_arg9) :=
  (StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : Gen.W1 m ρ c (Proc.devRef .tc main_arg9) = Gen.W0 m ρ c (Proc.devRef .tc main_arg9))

/-- No host operation before the first region writes argument 10. -/
theorem V1_arg10 (c : Dev nD) : Gen.V1 m ρ c main_arg10 = m ((c : Thread nD τ).loc main_arg10) :=
  (StableHlo.after_of_forall_not_mem (b := Proc.devRef .tc main_arg10) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : Gen.W1 m ρ c (Proc.devRef .tc main_arg10) = Gen.W0 m ρ c (Proc.devRef .tc main_arg10))

/-- No host operation before the first region writes argument 11. -/
theorem V1_arg11 (c : Dev nD) : Gen.V1 m ρ c main_arg11 = m ((c : Thread nD τ).loc main_arg11) :=
  (StableHlo.after_of_forall_not_mem (b := Proc.devRef .tc main_arg11) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : Gen.W1 m ρ c (Proc.devRef .tc main_arg11) = Gen.W0 m ρ c (Proc.devRef .tc main_arg11))

/-- No host operation before the first region writes argument 12. -/
theorem V1_arg12 (c : Dev nD) : Gen.V1 m ρ c main_arg12 = m ((c : Thread nD τ).loc main_arg12) :=
  (StableHlo.after_of_forall_not_mem (b := Proc.devRef .tc main_arg12) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : Gen.W1 m ρ c (Proc.devRef .tc main_arg12) = Gen.W0 m ρ c (Proc.devRef .tc main_arg12))

/-- The hidden features the second region finds. -/
theorem V2_hid (c : Dev nD) :
    (Gen.V2 m ρ c main_v17_0 : Arr 16 4096) = hid (m ((c : Thread nD τ).loc main_arg3)) (m ((c : Thread nD τ).loc main_arg4)) (feat m ρ c) :=
  ((Gen.W2_arr m ρ c 7).trans (hid_arr (Gen.V1 m ρ) c)).trans (by rw [V1_arg3 m ρ c, V1_arg4 m ρ c])

/-- The messages the second region finds. -/
theorem V2_msg (c : Dev nD) :
    (Gen.V2 m ρ c main_v17_1 : Arr 16 4096)
      = msg (m ((c : Thread nD τ).loc main_arg5)) (m ((c : Thread nD τ).loc main_arg6)) (m ((c : Thread nD τ).loc main_arg7)) (m ((c : Thread nD τ).loc main_arg8))
          (hid (m ((c : Thread nD τ).loc main_arg3)) (m ((c : Thread nD τ).loc main_arg4)) (feat m ρ c)) :=
  ((Gen.W2_arr m ρ c 8).trans (msg_arr (Gen.V1 m ρ) c)).trans
    (by rw [V1_arg3 m ρ c, V1_arg4 m ρ c, V1_arg5 m ρ c, V1_arg6 m ρ c, V1_arg7 m ρ c, V1_arg8 m ρ c])

/-- The first region writes none of the second region's argument operands. -/
theorem V2_arg0 (c : Dev nD) : Gen.V2 m ρ c main_arg0 = m ((c : Thread nD τ).loc main_arg0) :=
  (Gen.W2_of_ne m ρ c main_arg0 (by decide)).trans (V1_arg0 m ρ c)
theorem V2_arg9 (c : Dev nD) : Gen.V2 m ρ c main_arg9 = m ((c : Thread nD τ).loc main_arg9) :=
  (Gen.W2_of_ne m ρ c main_arg9 (by decide)).trans (V1_arg9 m ρ c)
theorem V2_arg10 (c : Dev nD) : Gen.V2 m ρ c main_arg10 = m ((c : Thread nD τ).loc main_arg10) :=
  (Gen.W2_of_ne m ρ c main_arg10 (by decide)).trans (V1_arg10 m ρ c)
theorem V2_arg11 (c : Dev nD) : Gen.V2 m ρ c main_arg11 = m ((c : Thread nD τ).loc main_arg11) :=
  (Gen.W2_of_ne m ρ c main_arg11 (by decide)).trans (V1_arg11 m ρ c)
theorem V2_arg12 (c : Dev nD) : Gen.V2 m ρ c main_arg12 = m ((c : Thread nD τ).loc main_arg12) :=
  (Gen.W2_of_ne m ρ c main_arg12 (by decide)).trans (V1_arg12 m ρ c)

/-- The second region's output, with features on rows. -/
theorem W3_out (c : Dev nD) :
    (Gen.W3 m ρ c (Proc.devRef .tc main_v18) : Arr 16 4096)
      = netT (m ((c.tc : Thread nD τ).loc main_arg0)) (feat m ρ c) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) (m ((c.tc : Thread nD τ).loc main_arg12)) := by
  refine ((Gen.W3_arr m ρ c 7).trans (out_arr (Gen.V2 m ρ) c)).trans ?_
  rw [V2_arg0 m ρ c, V2_arg9 m ρ c, V2_arg10 m ρ c, V2_arg11 m ρ c, V2_arg12 m ρ c, V2_hid m ρ c, V2_msg m ρ c]
  rfl

/-- The last host operation transposes the second region's output. -/
theorem W4_v19 (c : Dev nD) :
    Gen.W4 m ρ c (Proc.devRef .tc main_v19)
      = transpose S4096x16 [1, 0] (Gen.W3 m ρ c (Proc.devRef .tc main_v18)) transposes_S16x4096_S4096x16_1_0 := by
  show StableHlo.after hostOps2 (Gen.W3 m ρ c) (Proc.devRef .tc main_v19) = _
  after_results

/-- The result buffer at the end is the specification's network of the arguments and the feature matrix. -/
theorem result (c : Dev nD) :
    (Gen.W4 m ρ c (Proc.devRef .tc main_v19) : Arr 4096 16)
      = net (m ((c.tc : Thread nD τ).loc main_arg0)) (feat m ρ c) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) (m ((c.tc : Thread nD τ).loc main_arg12)) := by
  rw [W4_v19 m ρ c]
  funext i
  rw [eq_ix2 i]
  refine (transpose_ix2_apply _ _ _ _).trans ?_
  rw [W3_out m ρ c]
  rfl

end Cert.KernelIdeal.Val

end
-- ==== Proof.RDat0.lean ====
/-
  The proof data of the reference's first kernel region (the per-node layers, one tile of 512 nodes per grid point):
  the arrays as the region finds them; after the body each input's buffer at its block, the hidden tile and the message
  tile at the body's two stored values, each a pure function of the loaded blocks.
-/
import proofs.«130414_g2000600855469178_pallasbulk_547_2_alg».proof.Proof.Gen.ReferenceIdeal.Launch
import proofs.«130414_g2000600855469178_pallasbulk_547_2_alg».proof.Proof.Gen.ReferenceIdeal.Skeleton
import proofs.«130414_g2000600855469178_pallasbulk_547_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of the first region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => k0_pay1 (iblk0 V c 0 t) (iblk0 V c 1 t) (iblk0 V c 2 t)
    | ⟨8, _⟩ => k0_pay2 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_7 (c : Dev nD) (t : Fin cfg0.N) :
    (dat0 V c).after 7 t = k0_pay1 (iblk0 V c 0 t) (iblk0 V c 1 t) (iblk0 V c 2 t) := by dsimp only [dat0]

theorem after0_8 (c : Dev nD) (t : Fin cfg0.N) :
    (dat0 V c).after 8 t = k0_pay2 (iblk0 V c 0 t) (iblk0 V c 1 t) (iblk0 V c 2 t) (iblk0 V c 3 t) (iblk0 V c 4 t) (iblk0 V c 5 t) (iblk0 V c 6 t) := by
  dsimp only [dat0]

end Region0

end Cert.ReferenceIdeal.Hand

end
-- ==== Proof.RBody0.lean ====
/-
  The reference's first kernel region (the per-node layers, one tile of 512 nodes per grid point): at every point the
  body loads the feature tile and the six parameter blocks whole and stores the hidden tile and the message tile whole,
  each a pure function of the loads. So the body meets the pipeline's obligation for the region's proof data.
-/
import proofs.«130414_g2000600855469178_pallasbulk_547_2_alg».proof.Proof.RDat0
import Idealize.ShloMosaic.Lib.Pipeline.Value

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## What the body leaves in, and finds in, the input windows -/

/-- The body leaves every input window's buffer at its block. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]

/-- An input window's buffer holds its block at every point, fetched there or not: where it was not fetched the
    block index has not moved since the point before, and the body left the block in place there. The seven input
    windows are uncut and never idle. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

/-! ## Whole-buffer accesses -/

/-- The offsets of every access of the body are zero. -/
private theorem zeros2 : (![0, 0] : Fin 2 → Nat) = fun _ => 0 := funext fun a => by fin_cases a <;> rfl

/-- A load of the whole buffer reads its contents. -/
private theorem readAt_whole {sg : RefSig} {κ : Kind} {sp : Space} {S : Shape} {e : EltTy} (v : View sg κ sp S e)
    {off : Fin S.rank → Nat} (h : off = fun _ => 0) (inb : ∀ a, off a + S.size a ≤ S.size a) (f : v.ty.Contents (Elt F)) :
    v.readAt (Elt F) (Rect.unit off S.size inb).toLoadRect f = v.read (Elt F) f :=
  View.ld_unit_zero h inb _

/-- One store of the whole buffer leaves its payload, whatever was there. -/
private theorem read_write_whole {sg : RefSig} {κ : Kind} {sp : Space} {S : Shape} {e : EltTy} (v : View sg κ sp S e)
    {off : Fin S.rank → Nat} (h : off = fun _ => 0) (inb : ∀ a, off a + S.size a ≤ S.size a) (f : v.ty.Contents (Elt F))
    (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩),
    View.canon_unit_zero h inb]

/-! ## The body's triple -/

set_option maxHeartbeats 1000000 in
/-- The body on whole staging buffers, the inputs' at contents `xW` and the outputs' at anything, returns the inputs'
    as they were, the hidden tile's at the first payload of the inputs and the message tile's at the second: each
    whole-buffer load reads the contents, and one whole-buffer store leaves its payload whatever was there. -/
theorem sound_kernel0 (c : Dev nD) (E : Set ℕ) (i : grid0.Coords)
    (a0 : Memref sig .tc .vmem S10x512 .f32) (h0 : a0.IsWhole) (a1 : Memref sig .tc .vmem S16x10 .f32) (h1 : a1.IsWhole)
    (a2 : Memref sig .tc .vmem S16x1 .f32) (h2 : a2.IsWhole) (a3 : Memref sig .tc .vmem S32x16 .f32) (h3 : a3.IsWhole)
    (a4 : Memref sig .tc .vmem S32x1 .f32) (h4 : a4.IsWhole) (a5 : Memref sig .tc .vmem S16x32 .f32) (h5 : a5.IsWhole)
    (a6 : Memref sig .tc .vmem S16x1 .f32) (h6 : a6.IsWhole) (a7 : Memref sig .tc .vmem S16x512 .f32) (h7 : a7.IsWhole)
    (a8 : Memref sig .tc .vmem S16x512 .bf16) (h8 : a8.IsWhole)
    (x0 : Vec F S10x512 .f32) (x1 : Vec F S16x10 .f32) (x2 : Vec F S16x1 .f32) (x3 : Vec F S32x16 .f32) (x4 : Vec F S32x1 .f32)
    (x5 : Vec F S16x32 .f32) (x6 : Vec F S16x1 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ owns (c : Thread nD τ) a6 fullShare x6 ∗ (∃ d, owns (c : Thread nD τ) a7 fullShare d) ∗ (∃ d, owns (c : Thread nD τ) a8 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare x6 ∗ owns (c : Thread nD τ) a7 fullShare (k0_pay1 x0 x1 x2)
            ∗ owns (c : Thread nD τ) a8 fullShare (k0_pay2 x0 x1 x2 x3 x4 x5 x6)) -∗ K ⟨⟩))
      ⊢ wp frame (wpE (defs₀ (F := F)) Variants.none c none) E
          (cc0_node_mlp_kernel i a0 h0 a1 h1 a2 h2 a3 h3 a4 h4 a5 h5 a6 h6 a7 h7 a8 h8) K := by
  simp only [cc0_node_mlp_kernel_eq_skeleton]; unfold cc0_node_mlp_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, Hk⟩
  subst e0 e1 e2 e3 e4 e5 e6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [read_write_whole (S := S16x512) _ zeros2]
    simp only [readAt_whole (S := S10x512) _ zeros2, readAt_whole (S := S16x10) _ zeros2, readAt_whole (S := S16x1) _ zeros2]
  iexists _; isplitr
  swap; · iexact H8
  ipureintro
  rw [read_write_whole (S := S16x512) _ zeros2]
  simp only [readAt_whole (S := S10x512) _ zeros2, readAt_whole (S := S16x10) _ zeros2, readAt_whole (S := S16x1) _ zeros2,
    readAt_whole (S := S32x16) _ zeros2, readAt_whole (S := S32x1) _ zeros2, readAt_whole (S := S16x32) _ zeros2]

/-! ## The body obligation, at a generic point -/

/-- What the body is called with at point `t`: the invariant, the core's debt, and each window's current buffer at
    what it then holds, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns: the same invariant and debt, and each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' buffers hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ (grid0.coords t) _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the first region, at every point. -/
theorem body_obligation0 (c : Dev nD) : BodyObligation (dat0 (F := F) V c) (defs₀ (F := F)) Variants.none () Set.univ := fun t => by
  rw [bigSep_W0, bigSep_W0]
  exact sound_body0 V c t

end Region0

end Cert.ReferenceIdeal.Hand

end
-- ==== Proof.RDat1.lean ====
/-
  The proof data of the reference's second kernel region (aggregation over 8 × 8 tiles with a carried accumulator).
  Grid point t is destination tile t / 8 and source tile t % 8. The scratch accumulator is reset at source tile 0,
  takes one tile product more at every point, and at source tile 7 the two aggregation layers and the residual are
  stored into the output tile, which is written back at exactly those points.
-/
import proofs.«130414_g2000600855469178_pallasbulk_547_2_alg».proof.Proof.Gen.ReferenceIdeal.Launch
import proofs.«130414_g2000600855469178_pallasbulk_547_2_alg».proof.Proof.Gen.ReferenceIdeal.Skeleton
import proofs.«130414_g2000600855469178_pallasbulk_547_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`: at a point of source tile 0 the tile product over the zero the body has just
    stored; at any other point the tile product over what the point before left. -/
def scAt1 (c : Dev nD) : (n : ℕ) → n < cfg1.N → Vec F S16x512 .f32
  | 0, hn => k1_pay2 (k1_pay1 (F := F)) (iblk1 V c 0 ⟨0, hn⟩) (iblk1 V c 1 ⟨0, hn⟩)
  | n + 1, hn =>
    if (n + 1) % 8 = 0 then k1_pay2 (k1_pay1 (F := F)) (iblk1 V c 0 ⟨n + 1, hn⟩) (iblk1 V c 1 ⟨n + 1, hn⟩)
    else k1_pay2 (scAt1 c n (Nat.lt_of_succ_lt hn)) (iblk1 V c 0 ⟨n + 1, hn⟩) (iblk1 V c 1 ⟨n + 1, hn⟩)

theorem scAt1_reset (c : Dev nD) (t : Fin cfg1.N) (h : t.val % 8 = 0) :
    scAt1 V c t.val t.isLt = k1_pay2 (k1_pay1 (F := F)) (iblk1 V c 0 t) (iblk1 V c 1 t) := by
  obtain ⟨n, hn⟩ := t
  cases n with
  | zero => rfl
  | succ n => exact (scAt1.eq_2 V c n hn).trans (if_pos h)

theorem scAt1_step (c : Dev nD) (t : Fin cfg1.N) (h : t.val % 8 ≠ 0) :
    scAt1 V c t.val t.isLt
      = k1_pay2 (scAt1 V c (t.val - 1) (Nat.lt_of_le_of_lt (Nat.sub_le _ _) t.isLt)) (iblk1 V c 0 t) (iblk1 V c 1 t) := by
  obtain ⟨n, hn⟩ := t
  cases n with
  | zero => exact absurd (Nat.zero_mod 8) h
  | succ n => exact (scAt1.eq_2 V c n hn).trans (if_neg h)

/-- The region invariant before position `n`: before the first point the class invariant (every scratch at anything);
    afterwards the accumulator at what the point before left, the other scoped buffers at anything, and the generator
    register at some state. -/
def PhiS1 (c : Dev nD) : (n : ℕ) → n ≤ cfg1.N → sProp 𝕄
  | 0, _ => Pipeline.ΦA spec1 c
  | n + 1, hn => iprop(iprop(owns (c : Thread nD τ) (Memref.whole cc1_scratch0) fullShare (scAt1 V c n hn) ∗ Pipeline.scopedRestBut (Ix := Unit) (Name := ℕ) (U := UR sig nD τ) (Lvl := ℕ) (Val := Elt F) spec1 c [cc1_scratch0]) ∗ (∃ r, prngReg c r))

/-- The proof data of the second region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => k1_pay3 (scAt1 V c t.val t.isLt) (iblk1 V c 3 t) (iblk1 V c 4 t) (iblk1 V c 5 t) (iblk1 V c 6 t) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_7 (c : Dev nD) (t : Fin cfg1.N) :
    (dat1 V c).after 7 t
      = k1_pay3 (scAt1 V c t.val t.isLt) (iblk1 V c 3 t) (iblk1 V c 4 t) (iblk1 V c 5 t) (iblk1 V c 6 t) (iblk1 V c 2 t) := by
  dsimp only [dat1]

end Region1

end Cert.ReferenceIdeal.Hand

end
-- ==== Proof.RBody1.lean ====
/-
  The reference's second kernel region (aggregation over 8 × 8 tiles with a carried accumulator): the body obligation of
  its proof data. Grid point t is destination tile t / 8 and source tile t % 8. At source tile 0 the body zeroes the
  accumulator and adds the first tile product; at source tiles 1 to 6 it adds one more; at source tile 7 it adds the
  last and stores the two aggregation layers plus the residual into the output tile, which is written back at exactly
  those points and is handed back untouched at the others.
-/
import proofs.«130414_g2000600855469178_pallasbulk_547_2_alg».proof.Proof.RDat1
import Idealize.ShloMosaic.Lib.Pipeline.Value

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

/-- The zero offsets of a two-axis rectangle, as a function. -/
private theorem hz2 : (![0, 0] : Fin 2 → Nat) = fun _ => 0 := funext fun a => by fin_cases a <;> rfl

/-- One store through the whole-shape rectangle at zero offsets, made last, is what the buffer then reads. -/
private theorem read_writes_unit_zero {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

/-! ## The body's two conditions, and where the output window is idle -/

/-- The first conditional's condition (the source tile is 0), from the grid coordinates. -/
abbrev cond1_0 (i : grid1.Coords) : Prop := (Scalar.cmpi .ne (Scalar.extui (Scalar.cmpi .eq (BitVec.ofNat 32 (i 1).val) 0#32)) 0#32) = 1#1

/-- It holds at the points of source tile 0. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition holds at the points of source tile 7. -/
theorem hcond1_1 : ∀ t : Fin cfg1.N, k1_cond2 (grid1.coords t) = 1#1 ↔ t.val % 8 = 7 :=
  (by decide +kernel : ∀ t : Fin grid1.N, k1_cond2 (grid1.coords t) = 1#1 ↔ t.val % 8 = 7)

/-- Off source tile 7 the configuration calls the output window idle, -/
theorem idleAt1_7 : ∀ t : Fin cfg1.N, ¬ t.val % 8 = 7 → cfg1.idle 7 (grid1.coords t) = true :=
  (by decide +kernel : ∀ t : Fin grid1.N, ¬ t.val % 8 = 7 → cfg1.idle 7 (grid1.coords t) = true)

/-- and does not write its block back; -/
theorem noFlush1_7 (t : Fin cfg1.N) (h : ¬ t.val % 8 = 7) : (cfg1.win 7).flush t = false :=
  Bool.eq_false_iff.mpr fun hf => h ((flush1_7 t).mp hf)

/-- at source tile 7 it is live. -/
theorem liveAt1_7 : ∀ t : Fin cfg1.N, t.val % 8 = 7 → cfg1.idle 7 (grid1.coords t) = false :=
  (by decide +kernel : ∀ t : Fin grid1.N, t.val % 8 = 7 → cfg1.idle 7 (grid1.coords t) = false)

/-! ## The body's triple in each control case

On whole memrefs. Every value is named by a payload: a load through the whole-buffer rectangle reads the contents, and a
buffer stored whole reads back what was stored. -/

set_option maxHeartbeats 1000000 in
/-- Source tile 0: the accumulator, found at anything, is zeroed and takes the first tile product. -/
theorem run1_A (c : Dev nD) (E : Set ℕ) (i : grid1.Coords) (arg2 : Memref sig .tc .vmem S16x512 .bf16) (harg2 : arg2.IsWhole) (arg3 : Memref sig .tc .vmem S512x512 .bf16) (harg3 : arg3.IsWhole) (arg4 : Memref sig .tc .vmem S16x512 .f32) (harg4 : arg4.IsWhole) (arg5 : Memref sig .tc .vmem S32x16 .f32) (harg5 : arg5.IsWhole) (arg6 : Memref sig .tc .vmem S32x1 .f32) (harg6 : arg6.IsWhole) (arg7 : Memref sig .tc .vmem S16x32 .f32) (harg7 : arg7.IsWhole) (arg8 : Memref sig .tc .vmem S16x1 .f32) (harg8 : arg8.IsWhole) (arg9 : Memref sig .tc .vmem S16x512 .f32) (harg9 : arg9.IsWhole) (arg10 : Memref sig .tc .vmem S16x512 .f32) (harg10 : arg10.IsWhole)
    (hc0 : cond1_0 i) (hc1 : ¬ k1_cond2 i = 1#1)
    (x0 : Vec F S16x512 .bf16) (x1 : Vec F S512x512 .bf16) (K : PUnit → sProp 𝕄) :
    iprop(owns (c : Thread nD τ) arg2 fullShare x0 ∗ owns (c : Thread nD τ) arg3 fullShare x1 ∗ (∃ d, owns (c : Thread nD τ) arg10 fullShare d)
        ∗ (iprop(owns (c : Thread nD τ) arg2 fullShare x0 ∗ owns (c : Thread nD τ) arg3 fullShare x1 ∗ owns (c : Thread nD τ) arg10 fullShare (k1_pay2 (k1_pay1 (F := F)) x0 x1)) -∗ K ⟨⟩))
      ⊢ wp frame (wpE (defs₀ (F := F)) Variants.none c none) E (cc1_aggregate_kernel i arg2 harg2 arg3 harg3 arg4 harg4 arg5 harg5 arg6 harg6 arg7 harg7 arg8 harg8 arg9 harg9 arg10 harg10) K := by
  simp only [cc1_aggregate_kernel_eq_skeleton]; unfold cc1_aggregate_kernel_skel
  unfold owns
  iintro ⟨⟨%f0, %hf0, H0⟩, ⟨%f1, %hf1, H1⟩, ⟨%ds0, %fs0, -, HS0⟩, Hk⟩
  subst hf0 hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS0
  ipureintro
  sl_unfold_run_names
  rw [read_writes_unit_zero _ _ hz2]
  simp only [View.readCov_unit_zero (S := S16x512) _ hz2, View.readAt_eq_ld, View.ld_unit_zero (S := S16x512) hz2, View.ld_unit_zero (S := S512x512) hz2, View.ld_unit_zero (S := S32x16) hz2, View.ld_unit_zero (S := S32x1) hz2, View.ld_unit_zero (S := S16x32) hz2, View.ld_unit_zero (S := S16x1) hz2]

set_option maxHeartbeats 1000000 in
/-- Source tiles 1 to 6: the accumulator, found at `xs`, takes one tile product more. -/
theorem run1_B (c : Dev nD) (E : Set ℕ) (i : grid1.Coords) (arg2 : Memref sig .tc .vmem S16x512 .bf16) (harg2 : arg2.IsWhole) (arg3 : Memref sig .tc .vmem S512x512 .bf16) (harg3 : arg3.IsWhole) (arg4 : Memref sig .tc .vmem S16x512 .f32) (harg4 : arg4.IsWhole) (arg5 : Memref sig .tc .vmem S32x16 .f32) (harg5 : arg5.IsWhole) (arg6 : Memref sig .tc .vmem S32x1 .f32) (harg6 : arg6.IsWhole) (arg7 : Memref sig .tc .vmem S16x32 .f32) (harg7 : arg7.IsWhole) (arg8 : Memref sig .tc .vmem S16x1 .f32) (harg8 : arg8.IsWhole) (arg9 : Memref sig .tc .vmem S16x512 .f32) (harg9 : arg9.IsWhole) (arg10 : Memref sig .tc .vmem S16x512 .f32) (harg10 : arg10.IsWhole)
    (hc0 : ¬ cond1_0 i) (hc1 : ¬ k1_cond2 i = 1#1)
    (x0 : Vec F S16x512 .bf16) (x1 : Vec F S512x512 .bf16) (xs : Vec F S16x512 .f32) (K : PUnit → sProp 𝕄) :
    iprop(owns (c : Thread nD τ) arg2 fullShare x0 ∗ owns (c : Thread nD τ) arg3 fullShare x1 ∗ owns (c : Thread nD τ) arg10 fullShare xs
        ∗ (iprop(owns (c : Thread nD τ) arg2 fullShare x0 ∗ owns (c : Thread nD τ) arg3 fullShare x1 ∗ owns (c : Thread nD τ) arg10 fullShare (k1_pay2 xs x0 x1)) -∗ K ⟨⟩))
      ⊢ wp frame (wpE (defs₀ (F := F)) Variants.none c none) E (cc1_aggregate_kernel i arg2 harg2 arg3 harg3 arg4 harg4 arg5 harg5 arg6 harg6 arg7 harg7 arg8 harg8 arg9 harg9 arg10 harg10) K := by
  simp only [cc1_aggregate_kernel_eq_skeleton]; unfold cc1_aggregate_kernel_skel
  unfold owns
  iintro ⟨⟨%f0, %hf0, H0⟩, ⟨%f1, %hf1, H1⟩, ⟨%fs0, %hfs0, HS0⟩, Hk⟩
  subst hf0 hf1 hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS0
  ipureintro
  sl_unfold_run_names
  rw [read_writes_unit_zero _ _ hz2]
  simp only [View.readCov_unit_zero (S := S16x512) _ hz2, View.readAt_eq_ld, View.ld_unit_zero (S := S16x512) hz2, View.ld_unit_zero (S := S512x512) hz2, View.ld_unit_zero (S := S32x16) hz2, View.ld_unit_zero (S := S32x1) hz2, View.ld_unit_zero (S := S16x32) hz2, View.ld_unit_zero (S := S16x1) hz2]

set_option maxHeartbeats 1000000 in
/-- Source tile 7: the accumulator takes the last tile product, and the output tile, found at anything, is stored at the
    two layers of the accumulated sum plus the residual. -/
theorem run1_C (c : Dev nD) (E : Set ℕ) (i : grid1.Coords) (arg2 : Memref sig .tc .vmem S16x512 .bf16) (harg2 : arg2.IsWhole) (arg3 : Memref sig .tc .vmem S512x512 .bf16) (harg3 : arg3.IsWhole) (arg4 : Memref sig .tc .vmem S16x512 .f32) (harg4 : arg4.IsWhole) (arg5 : Memref sig .tc .vmem S32x16 .f32) (harg5 : arg5.IsWhole) (arg6 : Memref sig .tc .vmem S32x1 .f32) (harg6 : arg6.IsWhole) (arg7 : Memref sig .tc .vmem S16x32 .f32) (harg7 : arg7.IsWhole) (arg8 : Memref sig .tc .vmem S16x1 .f32) (harg8 : arg8.IsWhole) (arg9 : Memref sig .tc .vmem S16x512 .f32) (harg9 : arg9.IsWhole) (arg10 : Memref sig .tc .vmem S16x512 .f32) (harg10 : arg10.IsWhole)
    (hc0 : ¬ cond1_0 i) (hc1 : k1_cond2 i = 1#1)
    (x0 : Vec F S16x512 .bf16) (x1 : Vec F S512x512 .bf16) (x2 : Vec F S16x512 .f32) (x3 : Vec F S32x16 .f32) (x4 : Vec F S32x1 .f32) (x5 : Vec F S16x32 .f32) (x6 : Vec F S16x1 .f32) (xs : Vec F S16x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k1_pay3 (k1_pay2 xs x0 x1) x3 x4 x5 x6 x2) ∗ owns (c : Thread nD τ) arg10 fullShare (k1_pay2 xs x0 x1)) -∗ K ⟨⟩))
      ⊢ wp frame (wpE (defs₀ (F := F)) Variants.none c none) E (cc1_aggregate_kernel i arg2 harg2 arg3 harg3 arg4 harg4 arg5 harg5 arg6 harg6 arg7 harg7 arg8 harg8 arg9 harg9 arg10 harg10) K := by
  simp only [cc1_aggregate_kernel_eq_skeleton]; unfold cc1_aggregate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
  subst hf0 hf1 hf2 hf3 hf4 hf5 hf6 hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_run_names
    rw [read_writes_unit_zero _ _ hz2]
    simp only [View.readCov_unit_zero (S := S16x512) _ hz2, View.readAt_eq_ld, View.ld_unit_zero (S := S16x512) hz2, View.ld_unit_zero (S := S512x512) hz2, View.ld_unit_zero (S := S32x16) hz2, View.ld_unit_zero (S := S32x1) hz2, View.ld_unit_zero (S := S16x32) hz2, View.ld_unit_zero (S := S16x1) hz2]
  iexists _; isplitr
  swap; · iexact HS0
  ipureintro
  sl_unfold_run_names
  rw [read_writes_unit_zero _ _ hz2]
  simp only [View.readCov_unit_zero (S := S16x512) _ hz2, View.readAt_eq_ld, View.ld_unit_zero (S := S16x512) hz2, View.ld_unit_zero (S := S512x512) hz2, View.ld_unit_zero (S := S32x16) hz2, View.ld_unit_zero (S := S32x1) hz2, View.ld_unit_zero (S := S16x32) hz2, View.ld_unit_zero (S := S16x1) hz2]

section Region1

variable (V : (c : Dev nD) → (b : Ref sig .tc) → Buf (Elt F) ((c : Thread nD τ).loc b))

/-! ## The invariant, position by position -/

/-- The core's scoped buffers that are neither a staging buffer of this region nor the accumulator, at anything. -/
abbrev rest1 (c : Dev nD) : sProp 𝕄 :=
  Pipeline.scopedRestBut (Ix := Unit) (Name := ℕ) (U := UR sig nD τ) (Lvl := ℕ) (Val := Elt F) spec1 c [cc1_scratch0]

/-- The class invariant with the accumulator split off the other scoped buffers. -/
theorem PhiA1_eq (c : Dev nD) :
    (Pipeline.ΦA spec1 c : sProp 𝕄)
      = iprop(iprop((∃ d, owns (c : Thread nD τ) (Memref.whole cc1_scratch0) fullShare d) ∗ rest1 (F := F) c) ∗ (∃ r, prngReg c r)) := by
  unfold Pipeline.ΦA
  rw [Pipeline.scopedRest_split_of_list spec1 c [cc1_scratch0] (by decide) (by decide)]
  simp only [owns_whole]
  rfl

theorem PhiS1_zero (c : Dev nD) (n : ℕ) (h : n ≤ cfg1.N) (hz : n = 0) : PhiS1 V c n h = Pipeline.ΦA spec1 c := by
  subst hz; rfl

/-- After point `n`: the accumulator at that point's contents. -/
theorem PhiS1_succ (c : Dev nD) (n : ℕ) (hn : n < cfg1.N) :
    PhiS1 V c (n + 1) hn
      = iprop(iprop(owns (c : Thread nD τ) (Memref.whole cc1_scratch0) fullShare (scAt1 V c n hn) ∗ rest1 (F := F) c) ∗ (∃ r, prngReg c r)) := rfl

/-- Before a point that is not the first: the accumulator at what the point before left. -/
theorem PhiS1_pos (c : Dev nD) (n : ℕ) (h : n ≤ cfg1.N) (hz : n ≠ 0) :
    PhiS1 V c n h
      = iprop(iprop(owns (c : Thread nD τ) (Memref.whole cc1_scratch0) fullShare (scAt1 V c (n - 1) (by omega)) ∗ rest1 (F := F) c) ∗ (∃ r, prngReg c r)) := by
  cases n with
  | zero => exact absurd rfl hz
  | succ n => rfl

/-- At every position the invariant holds the accumulator at some contents: the named contents forgotten. -/
theorem PhiS1_any (c : Dev nD) (n : ℕ) (h : n ≤ cfg1.N) :
    PhiS1 V c n h ⊢ iprop(iprop((∃ d, owns (c : Thread nD τ) (Memref.whole cc1_scratch0) fullShare d) ∗ rest1 (F := F) c) ∗ (∃ r, prngReg c r)) := by
  cases n with
  | zero =>
    rw [PhiS1_zero V c 0 h rfl, PhiA1_eq]
    try exact Idealize.SL.BI.Entails.refl _
  | succ n =>
    rw [PhiS1_succ]
    iintro ⟨⟨HS, HR⟩, Hg⟩
    isplitl [HS HR]
    · isplitl [HS]
      · iexists _; iexact HS
      iexact HR
    iexact Hg

/-! ## The input windows hold their blocks -/

theorem after1_0 (c : Dev nD) (t : Fin cfg1.N) : (dat1 V c).after 0 t = iblk1 V c 0 t := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem after1_1 (c : Dev nD) (t : Fin cfg1.N) : (dat1 V c).after 1 t = iblk1 V c 1 t := by dsimp only [dat1]
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem after1_2 (c : Dev nD) (t : Fin cfg1.N) : (dat1 V c).after 2 t = iblk1 V c 2 t := by dsimp only [dat1]
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem after1_3 (c : Dev nD) (t : Fin cfg1.N) : (dat1 V c).after 3 t = iblk1 V c 3 t := by dsimp only [dat1]
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem after1_4 (c : Dev nD) (t : Fin cfg1.N) : (dat1 V c).after 4 t = iblk1 V c 4 t := by dsimp only [dat1]
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem after1_5 (c : Dev nD) (t : Fin cfg1.N) : (dat1 V c).after 5 t = iblk1 V c 5 t := by dsimp only [dat1]
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem after1_6 (c : Dev nD) (t : Fin cfg1.N) : (dat1 V c).after 6 t = iblk1 V c 6 t := by dsimp only [dat1]
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns: every input window's buffer as found, the output window's as the configuration says of the point. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ (dat1 V c).leavesExact 7 t)

set_option maxHeartbeats 4000000 in
/-- The body at any point. The input windows hold their blocks; the source tile decides the case. At source tile 0 the
    invariant's accumulator is taken at anything and returned at the first tile product over zero; elsewhere it is taken
    at what the point before left and returned with one product more. The output window is handed back as found off
    source tile 7, and there returned at the two layers of the accumulated sum plus the residual. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl,
    show (dat1 V c).Φ t.succ = PhiS1 V c (t.val + 1) t.isLt from rfl, PhiS1_succ,
    show (dat1 V c).Φ t.castSucc = PhiS1 V c t.val (Nat.le_of_lt t.isLt) from rfl,
    after1_0, after1_1, after1_2, after1_3, after1_4, after1_5, after1_6]
  by_cases h0 : t.val % 8 = 0
  · have h7 : ¬ t.val % 8 = 7 := by omega
    rw [Dat.leavesExact_idle (dat1 V c) 7 t (idleAt1_7 t h7) (noFlush1_7 t h7), scAt1_reset V c t h0]
    iintro ⟨HΦ, Ho, ⟨%d0, H0⟩, ⟨%d1, H1⟩, ⟨%d2, H2⟩, ⟨%d3, H3⟩, ⟨%d4, H4⟩, ⟨%d5, H5⟩, ⟨%d6, H6⟩, H7⟩
    icases (PhiS1_any V c t.val _) $$ HΦ with ⟨⟨HS, HR⟩, Hg⟩
    iapply (run1_A c Set.univ (grid1.coords t) _ _ _ _ _ _ _ _ _ _ _ _ _ _ _ _ _ _ ((hcond1_0 t).mpr h0) (fun h => h7 ((hcond1_1 t).mp h)) (iblk1 V c 0 t) (iblk1 V c 1 t) _)
    isplitl [H0]; · iexact H0
    isplitl [H1]; · iexact H1
    isplitl [HS]; · iexact HS
    iintro ⟨H0, H1, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hz : t.val ≠ 0 := fun e => h0 (by rw [e])
    rw [scAt1_step V c t h0, PhiS1_pos V c _ _ hz]
    by_cases h7 : t.val % 8 = 7
    · rw [show (dat1 V c).leavesExact 7 t = owns (c : Thread nD τ) (st1_7 t) fullShare ((dat1 V c).after 7 t) from by
        unfold Dat.leavesExact; rw [liveAt1_7 t h7], after1_7, scAt1_step V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_C c Set.univ (grid1.coords t) _ _ _ _ _ _ _ _ _ _ _ _ _ _ _ _ _ _ (fun h => h0 ((hcond1_0 t).mp h)) ((hcond1_1 t).mpr h7) (iblk1 V c 0 t) (iblk1 V c 1 t) (iblk1 V c 2 t) (iblk1 V c 3 t) (iblk1 V c 4 t) (iblk1 V c 5 t) (iblk1 V c 6 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat1 V c) 7 t (idleAt1_7 t h7) (noFlush1_7 t h7)]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, H7⟩
      iapply (run1_B c Set.univ (grid1.coords t) _ _ _ _ _ _ _ _ _ _ _ _ _ _ _ _ _ _ (fun h => h0 ((hcond1_0 t).mp h)) (fun h => h7 ((hcond1_1 t).mp h)) (iblk1 V c 0 t) (iblk1 V c 1 t) _ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body obligation of the second region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 (F := F) V c).Φ 0 := by
  rw [show (dat1 V c).Φ 0 = PhiS1 V c 0 (Nat.zero_le _) from rfl, PhiS1_zero V c 0 _ rfl]
  try exact Idealize.SL.BI.Entails.refl _

/-- After the last point the invariant gives the class invariant back. -/
theorem hout1 (c : Dev nD) : (dat1 (F := F) V c).Φ (Fin.last cfg1.N) ⊢ Pipeline.ΦA spec1 c := by
  rw [show (dat1 V c).Φ (Fin.last cfg1.N) = PhiS1 V c cfg1.N (Nat.le_refl _) from rfl, PhiA1_eq]
  exact PhiS1_any V c _ _

end Region1

end Cert.ReferenceIdeal.Hand

end
-- ==== Proof.RFold.lean ====
/-
  The contents of every buffer at each boundary of the reference's @main, named by a fold from the launch memory: a
  host stretch applies its operations; a region leaves each of its arrays at what its write-backs leave and every
  other buffer as entered.
-/
import proofs.«130414_g2000600855469178_pallasbulk_547_2_alg».proof.Proof.RDat0
import proofs.«130414_g2000600855469178_pallasbulk_547_2_alg».proof.Proof.RDat1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations before the first region. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first region's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
/-- After the last host operation. -/
abbrev W4 : Dev nD → Valuation τ sig (Elt F) := fun c => StableHlo.after hostOps2 (W3 m ρ c)

end Cert.ReferenceIdeal.Hand

end
-- ==== Proof.RRun.lean ====
/-
  The reference's @main as a run: host operations, the per-node region, the aggregation region, one host operation.
  The contents of every buffer at each boundary are the fold from the launch memory (a host stretch applies its
  operations; a region leaves each of its arrays at what its write-backs leave and every other buffer as entered). Every
  weakly fair execution terminates with every buffer at the last boundary's contents; no item writes an argument.
-/
import proofs.«130414_g2000600855469178_pallasbulk_547_2_alg».proof.Proof.RFold
import proofs.«130414_g2000600855469178_pallasbulk_547_2_alg».proof.Proof.Gen.ReferenceIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched

No host operation writes an argument, and a region either reads it through an input window, whose array keeps its
entry contents, or does not touch it; so the fold at an argument's buffer walks back to the launch memory. -/

/-- At each of the first region's arrays the exit contents are what the pipeline leaves; elsewhere the entry contents. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- The same at the second region. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- A reference the first host stretch does not write holds its launch contents after it. -/
theorem W1_of (c : Dev nD) (r : Ref sig .tc) (h : r ∉ hostOps0_W) :
    W1 m ρ c (Proc.devRef .tc r) = m ((c : Thread nD τ).loc r) :=
  (StableHlo.after_of_writes_sub hostOps0 _ hostOps0_writes h).trans rfl
/-- A reference the last host operation does not write is as the second region left it. -/
theorem W4_of (c : Dev nD) (r : Ref sig .tc) (h : r ∉ hostOps2_W) :
    W4 m ρ c (Proc.devRef .tc r) = W3 m ρ c (Proc.devRef .tc r) :=
  StableHlo.after_of_writes_sub hostOps2 _ hostOps2_writes h

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = m ((c : Thread nD τ).loc main_arg0) := W1_of m ρ c main_arg0 (by decide)
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = m ((c : Thread nD τ).loc main_arg1) := W1_of m ρ c main_arg1 (by decide)
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = m ((c : Thread nD τ).loc main_arg2) := W1_of m ρ c main_arg2 (by decide)
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of m ρ c main_arg3 (by decide)
    _ = W2 m ρ c (Proc.devRef .tc main_arg3) := W3_of_ne m ρ c main_arg3 (by decide)
    _ = W1 m ρ c (Proc.devRef .tc main_arg3) := (W2_arr m ρ c 1).trans (((dat0 (V1 m ρ) c).arrAt_in 1 rfl _).trans (A_eq0 (V1 m ρ) c 1))
    _ = m ((c : Thread nD τ).loc main_arg3) := W1_of m ρ c main_arg3 (by decide)
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of m ρ c main_arg4 (by decide)
    _ = W2 m ρ c (Proc.devRef .tc main_arg4) := W3_of_ne m ρ c main_arg4 (by decide)
    _ = W1 m ρ c (Proc.devRef .tc main_arg4) := (W2_arr m ρ c 2).trans (((dat0 (V1 m ρ) c).arrAt_in 2 rfl _).trans (A_eq0 (V1 m ρ) c 2))
    _ = m ((c : Thread nD τ).loc main_arg4) := W1_of m ρ c main_arg4 (by decide)
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of m ρ c main_arg5 (by decide)
    _ = W2 m ρ c (Proc.devRef .tc main_arg5) := W3_of_ne m ρ c main_arg5 (by decide)
    _ = W1 m ρ c (Proc.devRef .tc main_arg5) := (W2_arr m ρ c 3).trans (((dat0 (V1 m ρ) c).arrAt_in 3 rfl _).trans (A_eq0 (V1 m ρ) c 3))
    _ = m ((c : Thread nD τ).loc main_arg5) := W1_of m ρ c main_arg5 (by decide)
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of m ρ c main_arg6 (by decide)
    _ = W2 m ρ c (Proc.devRef .tc main_arg6) := W3_of_ne m ρ c main_arg6 (by decide)
    _ = W1 m ρ c (Proc.devRef .tc main_arg6) := (W2_arr m ρ c 4).trans (((dat0 (V1 m ρ) c).arrAt_in 4 rfl _).trans (A_eq0 (V1 m ρ) c 4))
    _ = m ((c : Thread nD τ).loc main_arg6) := W1_of m ρ c main_arg6 (by decide)
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of m ρ c main_arg7 (by decide)
    _ = W2 m ρ c (Proc.devRef .tc main_arg7) := W3_of_ne m ρ c main_arg7 (by decide)
    _ = W1 m ρ c (Proc.devRef .tc main_arg7) := (W2_arr m ρ c 5).trans (((dat0 (V1 m ρ) c).arrAt_in 5 rfl _).trans (A_eq0 (V1 m ρ) c 5))
    _ = m ((c : Thread nD τ).loc main_arg7) := W1_of m ρ c main_arg7 (by decide)
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of m ρ c main_arg8 (by decide)
    _ = W2 m ρ c (Proc.devRef .tc main_arg8) := W3_of_ne m ρ c main_arg8 (by decide)
    _ = W1 m ρ c (Proc.devRef .tc main_arg8) := (W2_arr m ρ c 6).trans (((dat0 (V1 m ρ) c).arrAt_in 6 rfl _).trans (A_eq0 (V1 m ρ) c 6))
    _ = m ((c : Thread nD τ).loc main_arg8) := W1_of m ρ c main_arg8 (by decide)
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of m ρ c main_arg9 (by decide)
    _ = W2 m ρ c (Proc.devRef .tc main_arg9) := (W3_arr m ρ c 3).trans (((dat1 (V2 m ρ) c).arrAt_in 3 rfl _).trans (A_eq1 (V2 m ρ) c 3))
    _ = W1 m ρ c (Proc.devRef .tc main_arg9) := W2_of_ne m ρ c main_arg9 (by decide)
    _ = m ((c : Thread nD τ).loc main_arg9) := W1_of m ρ c main_arg9 (by decide)
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of m ρ c main_arg10 (by decide)
    _ = W2 m ρ c (Proc.devRef .tc main_arg10) := (W3_arr m ρ c 4).trans (((dat1 (V2 m ρ) c).arrAt_in 4 rfl _).trans (A_eq1 (V2 m ρ) c 4))
    _ = W1 m ρ c (Proc.devRef .tc main_arg10) := W2_of_ne m ρ c main_arg10 (by decide)
    _ = m ((c : Thread nD τ).loc main_arg10) := W1_of m ρ c main_arg10 (by decide)
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of m ρ c main_arg11 (by decide)
    _ = W2 m ρ c (Proc.devRef .tc main_arg11) := (W3_arr m ρ c 5).trans (((dat1 (V2 m ρ) c).arrAt_in 5 rfl _).trans (A_eq1 (V2 m ρ) c 5))
    _ = W1 m ρ c (Proc.devRef .tc main_arg11) := W2_of_ne m ρ c main_arg11 (by decide)
    _ = m ((c : Thread nD τ).loc main_arg11) := W1_of m ρ c main_arg11 (by decide)
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of m ρ c main_arg12 (by decide)
    _ = W2 m ρ c (Proc.devRef .tc main_arg12) := (W3_arr m ρ c 6).trans (((dat1 (V2 m ρ) c).arrAt_in 6 rfl _).trans (A_eq1 (V2 m ρ) c 6))
    _ = W1 m ρ c (Proc.devRef .tc main_arg12) := W2_of_ne m ρ c main_arg12 (by decide)
    _ = m ((c : Thread nD τ).loc main_arg12) := W1_of m ρ c main_arg12 (by decide)
theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of m ρ c main_arg13 (by decide)
    _ = W2 m ρ c (Proc.devRef .tc main_arg13) := W3_of_ne m ρ c main_arg13 (by decide)
    _ = W1 m ρ c (Proc.devRef .tc main_arg13) := W2_of_ne m ρ c main_arg13 (by decide)
    _ = m ((c : Thread nD τ).loc main_arg13) := W1_of m ρ c main_arg13 (by decide)

/-! ## The proof data and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch from the contents `W`: it leaves every unscoped buffer at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions -/

set_option backward.isDefEq.respectTransparency.types false in
/-- The first region: entered from every unscoped buffer at `W1`, left at `W2`. Its arrays are split out of the unscoped
    buffers and put back at the exit contents; the generator register goes into the invariant and comes back; nothing is owed. -/
def reg0
    (hb0 : ∀ (V : (c : Dev nD) → (b : Ref sig .tc) → Buf (Elt F) ((c : Thread nD τ).loc b)) (c : Dev nD),
      BodyObligation (dat0 (F := F) V c) (defs₀ (F := F)) Variants.none () Set.univ) :
    Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`. The invariant before the first point is
    what the launch hands over, and after the last point the carried accumulator is forgotten again. -/
def reg1
    (hb1 : ∀ (V : (c : Dev nD) → (b : Ref sig .tc) → Buf (Elt F) ((c : Thread nD τ).loc b)) (c : Dev nD),
      BodyObligation (dat1 (F := F) V c) (defs₀ (F := F)) Variants.none () Set.univ)
    (hi1 : ∀ (V : (c : Dev nD) → (b : Ref sig .tc) → Buf (Elt F) ((c : Thread nD τ).loc b)) (c : Dev nD),
      Pipeline.ΦA spec1 c ⊢ (dat1 (F := F) V c).Φ 0)
    (ho1 : ∀ (V : (c : Dev nD) → (b : Ref sig .tc) → Buf (Elt F) ((c : Thread nD τ).loc b)) (c : Dev nD),
      (dat1 (F := F) V c).Φ (Fin.last cfg1.N) ⊢ Pipeline.ΦA spec1 c) :
    Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m ρ 1 c).Φ 0 := hi1 (V2 m ρ) c
    refine BIBase.Entails.trans ?_ h
    unfold Pipeline.ΦA
    iintro ⟨Hp, -, Hr⟩
    isplitl [Hr]; · iexact Hr
    iexact Hp
  hout c := by
    rw [Pipeline.ownSems0_none]
    have h : (pdats m ρ 1 c).Φ (Fin.last _) ⊢ Pipeline.ΦA spec1 c := ho1 (V2 m ρ) c
    refine BIBase.Entails.trans h ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the launch -/

/-- @main's four items in order. -/
abbrev segs
    (hb0 : ∀ (V : (c : Dev nD) → (b : Ref sig .tc) → Buf (Elt F) ((c : Thread nD τ).loc b)) (c : Dev nD),
      BodyObligation (dat0 (F := F) V c) (defs₀ (F := F)) Variants.none () Set.univ)
    (hb1 : ∀ (V : (c : Dev nD) → (b : Ref sig .tc) → Buf (Elt F) ((c : Thread nD τ).loc b)) (c : Dev nD),
      BodyObligation (dat1 (F := F) V c) (defs₀ (F := F)) Variants.none () Set.univ)
    (hi1 : ∀ (V : (c : Dev nD) → (b : Ref sig .tc) → Buf (Elt F) ((c : Thread nD τ).loc b)) (c : Dev nD),
      Pipeline.ΦA spec1 c ⊢ (dat1 (F := F) V c).Φ 0)
    (ho1 : ∀ (V : (c : Dev nD) → (b : Ref sig .tc) → Buf (Elt F) ((c : Thread nD τ).loc b)) (c : Dev nD),
      (dat1 (F := F) V c).Φ (Fin.last cfg1.N) ⊢ Pipeline.ΦA spec1 c) :
    List (Pipeline.Seg (pcfgs (F := F)) adm (pdats m ρ) () defs₀ 𝒱₀ L lv) :=
  [ .host (hseg hostOps0 hostOps0_sub hostOps0_fresh (W0 m ρ)),
    .region (reg0 m ρ hb0),
    .region (reg1 m ρ hb1 hi1 ho1),
    .host (hseg hostOps2 hostOps2_sub hostOps2_fresh (W3 m ρ)) ]
/-- @main is the run of its items. -/
theorem main_run
    (hb0 : ∀ (V : (c : Dev nD) → (b : Ref sig .tc) → Buf (Elt F) ((c : Thread nD τ).loc b)) (c : Dev nD),
      BodyObligation (dat0 (F := F) V c) (defs₀ (F := F)) Variants.none () Set.univ)
    (hb1 : ∀ (V : (c : Dev nD) → (b : Ref sig .tc) → Buf (Elt F) ((c : Thread nD τ).loc b)) (c : Dev nD),
      BodyObligation (dat1 (F := F) V c) (defs₀ (F := F)) Variants.none () Set.univ)
    (hi1 : ∀ (V : (c : Dev nD) → (b : Ref sig .tc) → Buf (Elt F) ((c : Thread nD τ).loc b)) (c : Dev nD),
      Pipeline.ΦA spec1 c ⊢ (dat1 (F := F) V c).Φ 0)
    (ho1 : ∀ (V : (c : Dev nD) → (b : Ref sig .tc) → Buf (Elt F) ((c : Thread nD τ).loc b)) (c : Dev nD),
      (dat1 (F := F) V c).Φ (Fin.last cfg1.N) ⊢ Pipeline.ΦA spec1 c) (c : Dev nD) :
    main (F := F) c = Pipeline.Seg.run (segs m ρ hb0 hb1 hi1 ho1) := (main_chain c).trans (by chain_rfl)

set_option backward.isDefEq.respectTransparency.types false in
/-- Given the two regions' body obligations and the second region's invariant at its two ends, every weakly fair
    execution of @main terminates; the result buffer holds the last boundary's contents and every argument array its
    launch contents. -/
theorem run
    (hb0 : ∀ (V : (c : Dev nD) → (b : Ref sig .tc) → Buf (Elt F) ((c : Thread nD τ).loc b)) (c : Dev nD),
      BodyObligation (dat0 (F := F) V c) (defs₀ (F := F)) Variants.none () Set.univ)
    (hb1 : ∀ (V : (c : Dev nD) → (b : Ref sig .tc) → Buf (Elt F) ((c : Thread nD τ).loc b)) (c : Dev nD),
      BodyObligation (dat1 (F := F) V c) (defs₀ (F := F)) Variants.none () Set.univ)
    (hi1 : ∀ (V : (c : Dev nD) → (b : Ref sig .tc) → Buf (Elt F) ((c : Thread nD τ).loc b)) (c : Dev nD),
      Pipeline.ΦA spec1 c ⊢ (dat1 (F := F) V c).Φ 0)
    (ho1 : ∀ (V : (c : Dev nD) → (b : Ref sig .tc) → Buf (Elt F) ((c : Thread nD τ).loc b)) (c : Dev nD),
      (dat1 (F := F) V c).Φ (Fin.last cfg1.N) ⊢ Pipeline.ΦA spec1 c) :
    θ_run defs (onTc (τ := τ) (main (F := F))) ⟨m, fun _ => 0, ρ⟩ (fun r => ∀ c : Dev nD,
      r.2.mem ((c.tc : Thread nD τ).loc main_v27) = W4 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ hb0 hb1 hi1 ho1)
    (fun c Q => by rw [main_run m ρ hb0 hb1 hi1 ho1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v27 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩)

end Cert.ReferenceIdeal.Hand

end
-- ==== Proof.RArr0.lean ====
/-
  The reference program's first region: after its eight grid points (tiles of 512 nodes) the hidden-feature array and
  the message array hold the specification's layers of the feature matrix, entry by entry. Block t of each output is
  what point t stored, a layer of the block's columns; a layer reads its input in the entry's column only; the eight
  blocks cover the 4096 columns. The message array's narrow float format is the identity on extended reals.
-/
import proofs.«130414_g2000600855469178_pallasbulk_547_2_alg».proof.Proof.RDat0
import proofs.«130414_g2000600855469178_pallasbulk_547_2_alg».proof.Proof.Spec
import proofs.«130414_g2000600855469178_pallasbulk_547_2_alg».proof.Proof.LibLayer
import Idealize.ShloMosaic.Lib.Pipeline.Value
import Idealize.ShloMosaic.Lib.ValueIdx
import Idealize.ShloMosaic.Lib.ValueLayout

set_option maxRecDepth 16384

noncomputable section

namespace Cert.ReferenceIdeal.Hand

open Idealize.ShloMosaic Idealize.ShloMosaic.TcCoe Idealize.ShloMosaic.ValueIdx Idealize.SL.Sem
open Cert.ReferenceIdeal Cert.ReferenceIdeal.Gen Cert.Spec

variable (V : (c : Dev nD) → (b : Ref sig .tc) → Buf (Elt Ideal) ((c : Thread nD τ).loc b))

namespace Arr0

/-! ## What a point stores, as layers of its blocks -/

/-- The first stored value of a point is the layer of the feature block. -/
theorem pay1_layer (x : Vec Ideal S10x512 .f32) (w : Vec Ideal S16x10 .f32) (b : Vec Ideal S16x1 .f32) :
    (k0_pay1 x w b : Arr 16 512) = layer w b x := by
  unfold k0_pay1
  rw [shapeCast_self]
  exact LibLayer.layer_eq w b x _

/-- The second stored value of a point is two more layers over the first; narrowing the float format changes nothing
    over the extended reals. -/
theorem pay2_layer (x : Vec Ideal S10x512 .f32) (w : Vec Ideal S16x10 .f32) (b : Vec Ideal S16x1 .f32)
    (w1 : Vec Ideal S32x16 .f32) (b1 : Vec Ideal S32x1 .f32) (w2 : Vec Ideal S16x32 .f32) (b2 : Vec Ideal S16x1 .f32) :
    (k0_pay2 x w b w1 b1 w2 b2 : Arr 16 512) = layer w2 b2 (layer w1 b1 (layer w b x)) := by
  unfold k0_pay2
  rw [pay1_layer]
  dsimp only
  have e1 : maximumf (addf (matmul dot_S32x16_S16x512_S32x512_1_0_0_1_n_n none w1 (layer w b x : Arr 16 512) (constant S32x512 .f32 0x00000000#32)) (broadcastTo S32x512 b1 broadcasts_S32x1_S32x512)) (broadcast S32x512 (Scalar.ofBits (F := Ideal) .f32 0x00000000#32)) = layer w1 b1 (layer w b x) := LibLayer.layer_eq w1 b1 _ _
  rw [e1]
  funext i
  rw [truncf_apply]
  exact congrFun (LibLayer.layer_eq w2 b2 _ _) i

/-! ## A block's layer is the array's layer, column by column -/

/-- Entry j of the layer of a block that holds columns 512 n … 512 n + 511 of the matrix A is the entry of the layer
    of A in the same row and in column 512 n + (j's column). -/
theorem hid_block (W : Arr 16 10) (B : Arr 16 1) (X : Arr 10 512) (A : Arr 10 4096) (n : Nat)
    (hX : ∀ (k : Fin 10) (q : Fin 512) (q' : Fin 4096), q'.val = n * 512 + q.val → X (ix2 k q) = A (ix2 k q'))
    (j : (⟨2, ![16, 512]⟩ : Shape).Idx) (i : (⟨2, ![16, 4096]⟩ : Shape).Idx)
    (h0 : (i 0).val = (j 0).val) (h1 : (i 1).val = n * 512 + (j 1).val) :
    layer W B X j = hid W B A i := by
  show layerE W B X (j 0) (j 1) = layerE W B A (i 0) (i 1)
  rw [show i 0 = j 0 from Fin.ext h0]
  exact layerE_congr_col W B X A (j 0) (j 1) (i 1) fun k => hX k (j 1) (i 1) h1

/-- The same through the two message layers: each layer's entry reads the layer below in its own column only. -/
theorem msg_block (W : Arr 16 10) (B : Arr 16 1) (X : Arr 10 512) (A : Arr 10 4096) (n : Nat)
    (hX : ∀ (k : Fin 10) (q : Fin 512) (q' : Fin 4096), q'.val = n * 512 + q.val → X (ix2 k q) = A (ix2 k q'))
    (W1 : Arr 32 16) (B1 : Arr 32 1) (W2 : Arr 16 32) (B2 : Arr 16 1)
    (j : (⟨2, ![16, 512]⟩ : Shape).Idx) (i : (⟨2, ![16, 4096]⟩ : Shape).Idx)
    (h0 : (i 0).val = (j 0).val) (h1 : (i 1).val = n * 512 + (j 1).val) :
    layer W2 B2 (layer W1 B1 (layer W B X)) j = msg W1 B1 W2 B2 (hid W B A) i := by
  show layerE W2 B2 (layer W1 B1 (layer W B X)) (j 0) (j 1) = layerE W2 B2 (layer W1 B1 (hid W B A)) (i 0) (i 1)
  rw [show i 0 = j 0 from Fin.ext h0]
  refine layerE_congr_col _ _ _ _ (j 0) (j 1) (i 1) fun k => ?_
  show layerE W1 B1 (layer W B X) k (j 1) = layerE W1 B1 (hid W B A) k (i 1)
  refine layerE_congr_col _ _ _ _ k (j 1) (i 1) fun k' => ?_
  show layerE W B X k' (j 1) = layerE W B A k' (i 1)
  exact layerE_congr_col W B X A k' (j 1) (i 1) fun k'' => hX k'' (j 1) (i 1) h1

/-! ## The windows' blocks -/

/-- The index maps over the grid: the feature window and the two output windows sit at block (0, t); every parameter
    window at block (0, 0). -/
theorem idx_facts0 : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = t.val
    ∧ win0_8.index t (0 : Fin 2) = 0 ∧ win0_8.index t (1 : Fin 2) = t.val :=
  (by decide +kernel : ∀ t : Fin grid0.N, _)

/-- The feature window's block at point t holds columns 512 t … 512 t + 511 of the feature matrix. -/
theorem iblk0_0 (c : Dev nD) (t : Fin cfg0.N) (k : Fin 10) (q : Fin 512) (q' : Fin 4096) (hq : q'.val = t.val * 512 + q.val) :
    (iblk0 V c 0 t : Arr 10 512) (ix2 k q) = (V c main_v20 : Arr 10 4096) (ix2 k q') := by
  obtain ⟨e0, e1, -⟩ := idx_facts0 t
  unfold iblk0
  rw [View.read_apply]
  show V c main_v20 (((cfg0.win 0).blk t).view.emb (ix2 k q)) = V c main_v20 (ix2 k q')
  congr 1
  funext a; apply Fin.ext
  match a with
  | ⟨0, _⟩ => show win0_0.index t (0 : Fin 2) * 10 + 1 * k.val = k.val; omega
  | ⟨1, _⟩ => show win0_0.index t (1 : Fin 2) * 512 + 1 * q.val = q'.val; omega

/-- Each parameter window's block is the whole parameter array, at every point. -/
theorem iblk0_1 (c : Dev nD) (t : Fin cfg0.N) : (iblk0 V c 1 t : Arr 16 10) = V c main_arg3 := by
  obtain ⟨-, -, e0, e1, -⟩ := idx_facts0 t
  funext y
  unfold iblk0
  rw [View.read_apply]
  show V c main_arg3 (((cfg0.win 1).blk t).view.emb y) = V c main_arg3 y
  congr 1
  funext a; apply Fin.ext
  match a with
  | ⟨0, _⟩ => show win0_1.index t (0 : Fin 2) * 16 + 1 * (y 0).val = (y 0).val; omega
  | ⟨1, _⟩ => show win0_1.index t (1 : Fin 2) * 10 + 1 * (y 1).val = (y 1).val; omega

theorem iblk0_2 (c : Dev nD) (t : Fin cfg0.N) : (iblk0 V c 2 t : Arr 16 1) = V c main_arg4 := by
  obtain ⟨-, -, -, -, e0, e1, -⟩ := idx_facts0 t
  funext y
  unfold iblk0
  rw [View.read_apply]
  show V c main_arg4 (((cfg0.win 2).blk t).view.emb y) = V c main_arg4 y
  congr 1
  funext a; apply Fin.ext
  match a with
  | ⟨0, _⟩ => show win0_2.index t (0 : Fin 2) * 16 + 1 * (y 0).val = (y 0).val; omega
  | ⟨1, _⟩ => show win0_2.index t (1 : Fin 2) * 1 + 1 * (y 1).val = (y 1).val; omega

theorem iblk0_3 (c : Dev nD) (t : Fin cfg0.N) : (iblk0 V c 3 t : Arr 32 16) = V c main_arg5 := by
  obtain ⟨-, -, -, -, -, -, e0, e1, -⟩ := idx_facts0 t
  funext y
  unfold iblk0
  rw [View.read_apply]
  show V c main_arg5 (((cfg0.win 3).blk t).view.emb y) = V c main_arg5 y
  congr 1
  funext a; apply Fin.ext
  match a with
  | ⟨0, _⟩ => show win0_3.index t (0 : Fin 2) * 32 + 1 * (y 0).val = (y 0).val; omega
  | ⟨1, _⟩ => show win0_3.index t (1 : Fin 2) * 16 + 1 * (y 1).val = (y 1).val; omega

theorem iblk0_4 (c : Dev nD) (t : Fin cfg0.N) : (iblk0 V c 4 t : Arr 32 1) = V c main_arg6 := by
  obtain ⟨-, -, -, -, -, -, -, -, e0, e1, -⟩ := idx_facts0 t
  funext y
  unfold iblk0
  rw [View.read_apply]
  show V c main_arg6 (((cfg0.win 4).blk t).view.emb y) = V c main_arg6 y
  congr 1
  funext a; apply Fin.ext
  match a with
  | ⟨0, _⟩ => show win0_4.index t (0 : Fin 2) * 32 + 1 * (y 0).val = (y 0).val; omega
  | ⟨1, _⟩ => show win0_4.index t (1 : Fin 2) * 1 + 1 * (y 1).val = (y 1).val; omega

theorem iblk0_5 (c : Dev nD) (t : Fin cfg0.N) : (iblk0 V c 5 t : Arr 16 32) = V c main_arg7 := by
  obtain ⟨-, -, -, -, -, -, -, -, -, -, e0, e1, -⟩ := idx_facts0 t
  funext y
  unfold iblk0
  rw [View.read_apply]
  show V c main_arg7 (((cfg0.win 5).blk t).view.emb y) = V c main_arg7 y
  congr 1
  funext a; apply Fin.ext
  match a with
  | ⟨0, _⟩ => show win0_5.index t (0 : Fin 2) * 16 + 1 * (y 0).val = (y 0).val; omega
  | ⟨1, _⟩ => show win0_5.index t (1 : Fin 2) * 32 + 1 * (y 1).val = (y 1).val; omega

theorem iblk0_6 (c : Dev nD) (t : Fin cfg0.N) : (iblk0 V c 6 t : Arr 16 1) = V c main_arg8 := by
  obtain ⟨-, -, -, -, -, -, -, -, -, -, -, -, e0, e1, -⟩ := idx_facts0 t
  funext y
  unfold iblk0
  rw [View.read_apply]
  show V c main_arg8 (((cfg0.win 6).blk t).view.emb y) = V c main_arg8 y
  congr 1
  funext a; apply Fin.ext
  match a with
  | ⟨0, _⟩ => show win0_6.index t (0 : Fin 2) * 16 + 1 * (y 0).val = (y 0).val; omega
  | ⟨1, _⟩ => show win0_6.index t (1 : Fin 2) * 1 + 1 * (y 1).val = (y 1).val; omega

/-! ## What each point writes back -/

/-- Point t writes back block t of the hidden-feature array of the specification. -/
theorem flushed0_7 (c : Dev nD) (t : Fin cfg0.N) :
    (dat0 V c).flushed 7 t
      = ((cfg0.win 7).blk t).view.read (Elt Ideal) (hid (V c main_arg3) (V c main_arg4) (V c main_v20)) := by
  show (cfg0.win 7).cut (cfg0.grid.coords t) ((dat0 V c).after 7 t) = _
  rw [after0_7]
  have hp : (k0_pay1 (iblk0 V c 0 t) (iblk0 V c 1 t) (iblk0 V c 2 t) : Arr 16 512)
      = layer (V c main_arg3) (V c main_arg4) (iblk0 V c 0 t) :=
    (pay1_layer (iblk0 V c 0 t) (iblk0 V c 1 t) (iblk0 V c 2 t)).trans
      (congrArg₂ (fun (w : Arr 16 10) (b : Arr 16 1) => layer w b (iblk0 V c 0 t : Arr 10 512)) (iblk0_1 V c t) (iblk0_2 V c t))
  obtain ⟨-, -, -, -, -, -, -, -, -, -, -, -, -, -, e0, e1, -⟩ := idx_facts0 t
  funext y
  rw [View.read_apply]
  refine (congrFun hp ((cfg0.win 7).xinj (cfg0.grid.coords t) y)).trans ?_
  exact hid_block (V c main_arg3) (V c main_arg4) (iblk0 V c 0 t) (V c main_v20) t.val
    (fun k q q' h => iblk0_0 V c t k q q' h) ((cfg0.win 7).xinj (cfg0.grid.coords t) y) (((cfg0.win 7).blk t).view.emb y)
    (by show win0_7.index t (0 : Fin 2) * 16 + 1 * (y 0).val = (y 0).val; omega)
    (by show win0_7.index t (1 : Fin 2) * 512 + 1 * (y 1).val = t.val * 512 + (y 1).val; omega)

/-- Point t writes back block t of the message array of the specification. -/
theorem flushed0_8 (c : Dev nD) (t : Fin cfg0.N) :
    (dat0 V c).flushed 8 t
      = ((cfg0.win 8).blk t).view.read (Elt Ideal)
          (msg (V c main_arg5) (V c main_arg6) (V c main_arg7) (V c main_arg8) (hid (V c main_arg3) (V c main_arg4) (V c main_v20))) := by
  show (cfg0.win 8).cut (cfg0.grid.coords t) ((dat0 V c).after 8 t) = _
  rw [after0_8]
  have hl : (layer (iblk0 V c 1 t : Arr 16 10) (iblk0 V c 2 t : Arr 16 1) (iblk0 V c 0 t : Arr 10 512) : Arr 16 512)
      = layer (V c main_arg3) (V c main_arg4) (iblk0 V c 0 t) :=
    congrArg₂ (fun (w : Arr 16 10) (b : Arr 16 1) => layer w b (iblk0 V c 0 t : Arr 10 512)) (iblk0_1 V c t) (iblk0_2 V c t)
  have hm : (layer (iblk0 V c 3 t : Arr 32 16) (iblk0 V c 4 t : Arr 32 1)
        (layer (iblk0 V c 1 t : Arr 16 10) (iblk0 V c 2 t : Arr 16 1) (iblk0 V c 0 t : Arr 10 512)) : Arr 32 512)
      = layer (V c main_arg5) (V c main_arg6) (layer (V c main_arg3) (V c main_arg4) (iblk0 V c 0 t)) := by
    rw [hl]
    exact congrArg₂ (fun (w : Arr 32 16) (b : Arr 32 1) => layer w b (layer (V c main_arg3) (V c main_arg4) (iblk0 V c 0 t : Arr 10 512) : Arr 16 512))
      (iblk0_3 V c t) (iblk0_4 V c t)
  have hp : (k0_pay2 (iblk0 V c 0 t) (iblk0 V c 1 t) (iblk0 V c 2 t) (iblk0 V c 3 t) (iblk0 V c 4 t) (iblk0 V c 5 t) (iblk0 V c 6 t) : Arr 16 512)
      = layer (V c main_arg7) (V c main_arg8) (layer (V c main_arg5) (V c main_arg6) (layer (V c main_arg3) (V c main_arg4) (iblk0 V c 0 t))) := by
    refine (pay2_layer (iblk0 V c 0 t) (iblk0 V c 1 t) (iblk0 V c 2 t) (iblk0 V c 3 t) (iblk0 V c 4 t) (iblk0 V c 5 t) (iblk0 V c 6 t)).trans ?_
    rw [hm]
    exact congrArg₂ (fun (w : Arr 16 32) (b : Arr 16 1) => layer w b
        (layer (V c main_arg5) (V c main_arg6) (layer (V c main_arg3) (V c main_arg4) (iblk0 V c 0 t : Arr 10 512) : Arr 16 512) : Arr 32 512))
      (iblk0_5 V c t) (iblk0_6 V c t)
  obtain ⟨-, -, -, -, -, -, -, -, -, -, -, -, -, -, -, -, e0, e1⟩ := idx_facts0 t
  funext y
  rw [View.read_apply]
  refine (congrFun hp ((cfg0.win 8).xinj (cfg0.grid.coords t) y)).trans ?_
  exact msg_block (V c main_arg3) (V c main_arg4) (iblk0 V c 0 t) (V c main_v20) t.val
    (fun k q q' h => iblk0_0 V c t k q q' h) (V c main_arg5) (V c main_arg6) (V c main_arg7) (V c main_arg8)
    ((cfg0.win 8).xinj (cfg0.grid.coords t) y) (((cfg0.win 8).blk t).view.emb y)
    (by show win0_8.index t (0 : Fin 2) * 16 + 1 * (y 0).val = (y 0).val; omega)
    (by show win0_8.index t (1 : Fin 2) * 512 + 1 * (y 1).val = t.val * 512 + (y 1).val; omega)

/-! ## The eight blocks cover the 4096 columns -/

/-- An index of the hidden-feature array is in point t's block iff each coordinate is in the block's range. -/
theorem mem_blk0_7 (t : Fin cfg0.N) (i : S16x4096.Idx) :
    i ∈ ((cfg0.win 7).blk t).view.set
      ↔ ∀ a : Fin 2, win0_7.index t a * S16x512.size a ≤ (i a).val ∧ (i a).val < win0_7.index t a * S16x512.size a + S16x512.size a := by
  show i ∈ ((View.whole main_v25_0).slice (win0_7.rect t)).set ↔ _
  rw [View.set_slice_whole, Rect.mem_set_unit]
  exact Iff.rfl

/-- The same for the message array. -/
theorem mem_blk0_8 (t : Fin cfg0.N) (i : S16x4096.Idx) :
    i ∈ ((cfg0.win 8).blk t).view.set
      ↔ ∀ a : Fin 2, win0_8.index t a * S16x512.size a ≤ (i a).val ∧ (i a).val < win0_8.index t a * S16x512.size a + S16x512.size a := by
  show i ∈ ((View.whole main_v25_1).slice (win0_8.rect t)).set ↔ _
  rw [View.set_slice_whole, Rect.mem_set_unit]
  exact Iff.rfl

/-- Column q of the hidden-feature array is in the block of point q / 512. -/
theorem cover0_7 (i : S16x4096.Idx) :
    ∃ t : Fin cfg0.N, (cfg0.win 7).flush t = true ∧ i ∈ ((cfg0.win 7).blk t).view.set := by
  have hi0 : (i 0).val < 16 := (i 0).isLt
  have hi1 : (i 1).val < 4096 := (i 1).isLt
  have hN : cfg0.N = 8 := N_0
  obtain ⟨t, ht⟩ : ∃ t : Fin cfg0.N, t.val = (i 1).val / 512 := ⟨⟨(i 1).val / 512, by rw [hN]; omega⟩, rfl⟩
  obtain ⟨-, -, -, -, -, -, -, -, -, -, -, -, -, -, e0, e1, -⟩ := idx_facts0 t
  refine ⟨t, flush0_7 t, ?_⟩
  rw [mem_blk0_7]
  intro a
  match a with
  | ⟨0, _⟩ => show win0_7.index t (0 : Fin 2) * 16 ≤ (i 0).val ∧ (i 0).val < win0_7.index t (0 : Fin 2) * 16 + 16; omega
  | ⟨1, _⟩ => show win0_7.index t (1 : Fin 2) * 512 ≤ (i 1).val ∧ (i 1).val < win0_7.index t (1 : Fin 2) * 512 + 512; omega

/-- Column q of the message array is in the block of point q / 512. -/
theorem cover0_8 (i : S16x4096.Idx) :
    ∃ t : Fin cfg0.N, (cfg0.win 8).flush t = true ∧ i ∈ ((cfg0.win 8).blk t).view.set := by
  have hi0 : (i 0).val < 16 := (i 0).isLt
  have hi1 : (i 1).val < 4096 := (i 1).isLt
  have hN : cfg0.N = 8 := N_0
  obtain ⟨t, ht⟩ : ∃ t : Fin cfg0.N, t.val = (i 1).val / 512 := ⟨⟨(i 1).val / 512, by rw [hN]; omega⟩, rfl⟩
  obtain ⟨-, -, -, -, -, -, -, -, -, -, -, -, -, -, -, -, e0, e1⟩ := idx_facts0 t
  refine ⟨t, flush0_8 t, ?_⟩
  rw [mem_blk0_8]
  intro a
  match a with
  | ⟨0, _⟩ => show win0_8.index t (0 : Fin 2) * 16 ≤ (i 0).val ∧ (i 0).val < win0_8.index t (0 : Fin 2) * 16 + 16; omega
  | ⟨1, _⟩ => show win0_8.index t (1 : Fin 2) * 512 ≤ (i 1).val ∧ (i 1).val < win0_8.index t (1 : Fin 2) * 512 + 512; omega

end Arr0

/-! ## The two arrays after the region -/

/-- The hidden features after the first region. -/
theorem hid_arr (c : Dev nD) :
    ((dat0 V c).arrAt 7 cfg0.N : Arr 16 4096) = hid (V c main_arg3) (V c main_arg4) (V c main_v20) :=
  (dat0 V c).arrAt_eq_of_cover 7 (hid (V c main_arg3) (V c main_arg4) (V c main_v20))
    (fun t _ => Arr0.flushed0_7 V c t) Arr0.cover0_7

/-- The messages after the first region. -/
theorem msg_arr (c : Dev nD) :
    ((dat0 V c).arrAt 8 cfg0.N : Arr 16 4096)
      = msg (V c main_arg5) (V c main_arg6) (V c main_arg7) (V c main_arg8) (hid (V c main_arg3) (V c main_arg4) (V c main_v20)) :=
  (dat0 V c).arrAt_eq_of_cover 8
    (msg (V c main_arg5) (V c main_arg6) (V c main_arg7) (V c main_arg8) (hid (V c main_arg3) (V c main_arg4) (V c main_v20)))
    (fun t _ => Arr0.flushed0_8 V c t) Arr0.cover0_8

end Cert.ReferenceIdeal.Hand

end
-- ==== Proof.RArr1.lean ====
/-
  The reference program's second region: after its 8 × 8 grid points the output array holds the specification's
  aggregation layers plus the hidden features, entry by entry. For destination tile i the accumulator after source tile
  j holds, at (p, y), the sum over the source nodes of tiles 0 … j of msg(p, s) · adjT(s, 512 i + y): it starts from
  zero at source tile 0 and takes one tile's 512 products more at each point; after source tile 7 that is the sum over
  all 4096 source nodes, regrouped tile by tile. There the two layers are applied column by column, the hidden tile is
  added, and the block is written back; the eight written blocks cover the 4096 columns.
-/
import proofs.«130414_g2000600855469178_pallasbulk_547_2_alg».proof.Proof.RDat1
import proofs.«130414_g2000600855469178_pallasbulk_547_2_alg».proof.Proof.Spec
import proofs.«130414_g2000600855469178_pallasbulk_547_2_alg».proof.Proof.LibLayer
import Idealize.ShloMosaic.Lib.Pipeline.Value
import Idealize.ShloMosaic.Lib.ValueIdx
import Idealize.ShloMosaic.Lib.ValueLayout

set_option maxRecDepth 16384

noncomputable section

namespace Cert.ReferenceIdeal.Hand

open Idealize.ShloMosaic Idealize.ShloMosaic.TcCoe Idealize.ShloMosaic.ValueIdx Idealize.SL.Sem
open Cert.ReferenceIdeal Cert.ReferenceIdeal.Gen Cert.Spec

variable (V : (c : Dev nD) → (b : Ref sig .tc) → Buf (Elt Ideal) ((c : Thread nD τ).loc b))

namespace Arr1

/-- The three tiled arrays the region reads, by their literal types. -/
abbrev msgA (c : Dev nD) : Arr 16 4096 := V c main_v25_1
abbrev adjA (c : Dev nD) : Arr 4096 4096 := V c main_v24
abbrev hidA (c : Dev nD) : Arr 16 4096 := V c main_v25_0

/-- Their blocks at a grid point. -/
abbrev msgB (c : Dev nD) (t : Fin cfg1.N) : Vec Ideal S16x512 .bf16 := iblk1 V c 0 t
abbrev adjB (c : Dev nD) (t : Fin cfg1.N) : Vec Ideal S512x512 .bf16 := iblk1 V c 1 t
abbrev hidB (c : Dev nD) (t : Fin cfg1.N) : Vec Ideal S16x512 .f32 := iblk1 V c 2 t

theorem idx_facts1 : ∀ t : Fin cfg1.N,
    win1_0.index t (0 : Fin 2) = 0 ∧ win1_0.index t (1 : Fin 2) = t.val % 8
    ∧ win1_1.index t (0 : Fin 2) = t.val % 8 ∧ win1_1.index t (1 : Fin 2) = t.val / 8
    ∧ win1_2.index t (0 : Fin 2) = 0 ∧ win1_2.index t (1 : Fin 2) = t.val / 8
    ∧ win1_7.index t (0 : Fin 2) = 0 ∧ win1_7.index t (1 : Fin 2) = t.val / 8 :=
  (by decide +kernel : ∀ t : Fin grid1.N, _)

theorem idx_whole1 : ∀ t : Fin cfg1.N,
    win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

theorem msgB_apply (c : Dev nD) (t : Fin cfg1.N) (p : Fin 16) (k : Fin 512) (s : Fin 4096)
    (hs : s.val = 512 * (t.val % 8) + k.val) : msgB V c t (ix2 p k) = msgA V c (ix2 p s) := by
  show V c main_v25_1 (((cfg1.win 0).blk t).view.emb (ix2 p k)) = V c main_v25_1 (ix2 p s)
  refine congrArg _ ?_
  obtain ⟨e0, e1, -⟩ := idx_facts1 t
  funext a; apply Fin.ext
  match a with
  | ⟨0, _⟩ => show win1_0.index t (0 : Fin 2) * 16 + 1 * p.val = p.val; rw [e0]; omega
  | ⟨1, _⟩ => show win1_0.index t (1 : Fin 2) * 512 + 1 * k.val = s.val; rw [e1, hs]; omega

theorem adjB_apply (c : Dev nD) (t : Fin cfg1.N) (k : Fin 512) (y : Fin 512) (s d : Fin 4096)
    (hs : s.val = 512 * (t.val % 8) + k.val) (hd : d.val = 512 * (t.val / 8) + y.val) :
    adjB V c t (ix2 k y) = adjA V c (ix2 s d) := by
  show V c main_v24 (((cfg1.win 1).blk t).view.emb (ix2 k y)) = V c main_v24 (ix2 s d)
  refine congrArg _ ?_
  obtain ⟨-, -, e0, e1, -⟩ := idx_facts1 t
  funext a; apply Fin.ext
  match a with
  | ⟨0, _⟩ => show win1_1.index t (0 : Fin 2) * 512 + 1 * k.val = s.val; rw [e0, hs]; omega
  | ⟨1, _⟩ => show win1_1.index t (1 : Fin 2) * 512 + 1 * y.val = d.val; rw [e1, hd]; omega

theorem hidB_apply (c : Dev nD) (t : Fin cfg1.N) (p : Fin 16) (y : Fin 512) (d : Fin 4096)
    (hd : d.val = 512 * (t.val / 8) + y.val) : hidB V c t (ix2 p y) = hidA V c (ix2 p d) := by
  show V c main_v25_0 (((cfg1.win 2).blk t).view.emb (ix2 p y)) = V c main_v25_0 (ix2 p d)
  refine congrArg _ ?_
  obtain ⟨-, -, -, -, e0, e1, -⟩ := idx_facts1 t
  funext a; apply Fin.ext
  match a with
  | ⟨0, _⟩ => show win1_2.index t (0 : Fin 2) * 16 + 1 * p.val = p.val; rw [e0]; omega
  | ⟨1, _⟩ => show win1_2.index t (1 : Fin 2) * 512 + 1 * y.val = d.val; rw [e1, hd]; omega

/-- The zero block reads zero everywhere. -/
theorem pay1_apply (p : Fin 16) (y : Fin 512) : (k1_pay1 (F := Ideal)) (ix2 p y) = 0 := by
  unfold k1_pay1
  simp only [shapeCast_self]
  exact Ideal.ofBits_zero_f32

/-- One point's step at an entry: the accumulator plus the tile's 512 products. -/
theorem pay2_apply (acc : Vec Ideal S16x512 .f32) (m : Vec Ideal S16x512 .bf16) (a : Vec Ideal S512x512 .bf16)
    (p : Fin 16) (y : Fin 512) :
    k1_pay2 acc m a (ix2 p y) = acc (ix2 p y) + ∑ k : Fin 512, m (ix2 p k) * a (ix2 k y) := by
  unfold k1_pay2
  simp only [shapeCast_self]
  rw [addf_apply]
  exact congrArg (acc (ix2 p y) + ·) (LibMatmul.matmul_zero_plain_apply none m a p y)

/-- The stored block at an entry: the two layers of the accumulator, plus the hidden block. -/
theorem pay3_apply (acc : Vec Ideal S16x512 .f32) (w1 : Vec Ideal S32x16 .f32) (b1 : Vec Ideal S32x1 .f32)
    (w2 : Vec Ideal S16x32 .f32) (b2 : Vec Ideal S16x1 .f32) (h : Vec Ideal S16x512 .f32) (p : Fin 16) (y : Fin 512) :
    k1_pay3 acc w1 b1 w2 b2 h (ix2 p y) = layerE w2 b2 (layer w1 b1 acc) p y + h (ix2 p y) := by
  unfold k1_pay3
  simp only [shapeCast_self]
  rw [addf_apply]
  refine congrArg (· + h (ix2 p y)) ?_
  refine (congrArg (fun x => maximumf (addf (matmul (DotDims.plain 16 32 512) none w2 x (constant S16x512 .f32 0x00000000#32))
        (broadcastTo S16x512 b2 broadcasts_S16x1_S16x512))
      (broadcast S16x512 (Scalar.ofBits (F := Ideal) .f32 0x00000000#32)) (ix2 p y))
    (LibLayer.layer_eq w1 b1 acc broadcasts_S32x1_S32x512)).trans ?_
  exact LibLayer.layer_apply w2 b2 (layer w1 b1 acc) broadcasts_S16x1_S16x512 p y

theorem N1 : cfg1.N = 64 := rfl

/-- The weight and bias windows hold their whole arrays at every point. -/
theorem w1B_eq (c : Dev nD) (t : Fin cfg1.N) : (iblk1 V c 3 t : Vec Ideal S32x16 .f32) = (V c main_arg9 : Arr 32 16) := by
  funext y
  show V c main_arg9 (((cfg1.win 3).blk t).view.emb y) = V c main_arg9 y
  refine congrArg _ ?_
  obtain ⟨e0, e1, -⟩ := idx_whole1 t
  funext a; apply Fin.ext
  match a with
  | ⟨0, _⟩ => show win1_3.index t (0 : Fin 2) * 32 + 1 * (y 0).val = (y 0).val; rw [e0]; omega
  | ⟨1, _⟩ => show win1_3.index t (1 : Fin 2) * 16 + 1 * (y 1).val = (y 1).val; rw [e1]; omega

theorem b1B_eq (c : Dev nD) (t : Fin cfg1.N) : (iblk1 V c 4 t : Vec Ideal S32x1 .f32) = (V c main_arg10 : Arr 32 1) := by
  funext y
  show V c main_arg10 (((cfg1.win 4).blk t).view.emb y) = V c main_arg10 y
  refine congrArg _ ?_
  obtain ⟨-, -, e0, e1, -⟩ := idx_whole1 t
  funext a; apply Fin.ext
  match a with
  | ⟨0, _⟩ => show win1_4.index t (0 : Fin 2) * 32 + 1 * (y 0).val = (y 0).val; rw [e0]; omega
  | ⟨1, _⟩ => show win1_4.index t (1 : Fin 2) * 1 + 1 * (y 1).val = (y 1).val; rw [e1]; omega

theorem w2B_eq (c : Dev nD) (t : Fin cfg1.N) : (iblk1 V c 5 t : Vec Ideal S16x32 .f32) = (V c main_arg11 : Arr 16 32) := by
  funext y
  show V c main_arg11 (((cfg1.win 5).blk t).view.emb y) = V c main_arg11 y
  refine congrArg _ ?_
  obtain ⟨-, -, -, -, e0, e1, -⟩ := idx_whole1 t
  funext a; apply Fin.ext
  match a with
  | ⟨0, _⟩ => show win1_5.index t (0 : Fin 2) * 16 + 1 * (y 0).val = (y 0).val; rw [e0]; omega
  | ⟨1, _⟩ => show win1_5.index t (1 : Fin 2) * 32 + 1 * (y 1).val = (y 1).val; rw [e1]; omega

theorem b2B_eq (c : Dev nD) (t : Fin cfg1.N) : (iblk1 V c 6 t : Vec Ideal S16x1 .f32) = (V c main_arg12 : Arr 16 1) := by
  funext y
  show V c main_arg12 (((cfg1.win 6).blk t).view.emb y) = V c main_arg12 y
  refine congrArg _ ?_
  obtain ⟨-, -, -, -, -, -, e0, e1⟩ := idx_whole1 t
  funext a; apply Fin.ext
  match a with
  | ⟨0, _⟩ => show win1_6.index t (0 : Fin 2) * 16 + 1 * (y 0).val = (y 0).val; rw [e0]; omega
  | ⟨1, _⟩ => show win1_6.index t (1 : Fin 2) * 1 + 1 * (y 1).val = (y 1).val; rw [e1]; omega

/-- The 512 products of source tile j for message row p and destination node d (the source node taken modulo the
    number of nodes, so that the term is defined for every natural j; for j below 8 nothing is reduced). -/
def tileSum (c : Dev nD) (j : ℕ) (p : Fin 16) (d : Fin 4096) : EReal :=
  ∑ k : Fin 512, msgA V c (ix2 p ⟨(512 * j + k.val) % 4096, Nat.mod_lt _ (by norm_num)⟩)
    * adjA V c (ix2 ⟨(512 * j + k.val) % 4096, Nat.mod_lt _ (by norm_num)⟩ d)

/-- A product depends on the source node only through its number. -/
theorem term_congr (c : Dev nD) (p : Fin 16) (d s s' : Fin 4096) (h : s.val = s'.val) :
    msgA V c (ix2 p s) * adjA V c (ix2 s d) = msgA V c (ix2 p s') * adjA V c (ix2 s' d) := by
  rw [Fin.ext h]

/-- The products a point adds: those of its source tile, for the destination node of its destination tile. -/
theorem tile_eq (c : Dev nD) (t : Fin cfg1.N) (p : Fin 16) (y : Fin 512) (d : Fin 4096)
    (hd : d.val = 512 * (t.val / 8) + y.val) :
    ∑ k : Fin 512, msgB V c t (ix2 p k) * adjB V c t (ix2 k y) = tileSum V c (t.val % 8) p d := by
  unfold tileSum
  refine Finset.sum_congr rfl fun k _ => ?_
  have hk : (512 * (t.val % 8) + k.val) % 4096 = 512 * (t.val % 8) + k.val :=
    Nat.mod_eq_of_lt (by have := k.isLt; omega)
  exact congrArg₂ (· * ·) (msgB_apply V c t p k ⟨_, Nat.mod_lt _ (by norm_num)⟩ hk)
    (adjB_apply V c t k y ⟨_, Nat.mod_lt _ (by norm_num)⟩ d hk hd)

/-- THE INVARIANT. After point n (destination tile n / 8, source tile n % 8) the accumulator holds, at (p, y), the
    products of source tiles 0 … n % 8 for destination node 512 (n / 8) + y. -/
theorem scAt1_apply (c : Dev nD) (p : Fin 16) (y : Fin 512) (n : ℕ) :
    ∀ (hn : n < cfg1.N) (d : Fin 4096), d.val = 512 * (n / 8) + y.val →
      scAt1 V c n hn (ix2 p y) = ∑ j ∈ Finset.range (n % 8 + 1), tileSum V c j p d := by
  induction n with
  | zero =>
    intro hn d hd
    refine (congrFun (scAt1_reset V c ⟨0, hn⟩ rfl) (ix2 p y)).trans ?_
    refine (pay2_apply (k1_pay1 (F := Ideal)) (msgB V c ⟨0, hn⟩) (adjB V c ⟨0, hn⟩) p y).trans ?_
    rw [pay1_apply, zero_add, tile_eq V c ⟨0, hn⟩ p y d hd]
    exact (Finset.sum_range_one (fun j => tileSum V c j p d)).symm
  | succ n ih =>
    intro hn d hd
    by_cases h : (n + 1) % 8 = 0
    · refine (congrFun (scAt1_reset V c ⟨n + 1, hn⟩ h) (ix2 p y)).trans ?_
      refine (pay2_apply (k1_pay1 (F := Ideal)) (msgB V c ⟨n + 1, hn⟩) (adjB V c ⟨n + 1, hn⟩) p y).trans ?_
      rw [pay1_apply, zero_add, tile_eq V c ⟨n + 1, hn⟩ p y d hd, h]
      exact (Finset.sum_range_one (fun j => tileSum V c j p d)).symm
    · refine (congrFun (scAt1_step V c ⟨n + 1, hn⟩ h) (ix2 p y)).trans ?_
      refine (pay2_apply (scAt1 V c n (Nat.lt_of_succ_lt hn)) (msgB V c ⟨n + 1, hn⟩) (adjB V c ⟨n + 1, hn⟩) p y).trans ?_
      have hdiv : (n + 1) / 8 = n / 8 := by omega
      have hmod : (n + 1) % 8 = n % 8 + 1 := by omega
      rw [tile_eq V c ⟨n + 1, hn⟩ p y d hd, ih (Nat.lt_of_succ_lt hn) d (by rw [hd, hdiv])]
      show _ + tileSum V c ((n + 1) % 8) p d = _
      rw [hmod, Finset.sum_range_succ _ (n % 8 + 1)]

/-- The adjacency matrix, read back from its transpose. -/
abbrev adjR (c : Dev nD) : Arr 4096 4096 := fun i => adjA V c (ix2 (i 1) (i 0))

/-- The eight tiles' products are the aggregation's sum over all source nodes. -/
theorem tiles_eq_agg (c : Dev nD) (p : Fin 16) (d : Fin 4096) :
    ∑ j ∈ Finset.range 8, tileSum V c j p d = aggE (msgA V c) (adjR V c) p d := by
  rw [Finset.sum_range]
  refine Eq.symm ((sum_tiles 8 512 (fun s : Fin (8 * 512) => msgA V c (ix2 p s) * adjA V c (ix2 s d))).trans ?_)
  refine Finset.sum_congr rfl fun j _ => Finset.sum_congr rfl fun k _ => ?_
  exact term_congr V c p d _ _ (by
    show j.val * 512 + k.val = (512 * j.val + k.val) % 4096
    have := j.isLt; have := k.isLt; omega)

/-- What the region leaves in the output array. -/
abbrev outG (c : Dev nD) : Arr 16 4096 :=
  outT (adjR V c) (V c main_arg9) (V c main_arg10) (V c main_arg11) (V c main_arg12) (hidA V c) (msgA V c)

/-- One stored entry against the specification's: the layers read their input in the entry's column only, so the block's
    layers of the accumulator are the array's layers of the aggregation once the accumulator's column is the
    aggregation's. -/
theorem out_entry (acc : Vec Ideal S16x512 .f32) (w1 w1' : Arr 32 16) (b1 b1' : Arr 32 1) (w2 w2' : Arr 16 32)
    (b2 b2' : Arr 16 1) (hB : Vec Ideal S16x512 .f32) (adj : Arr 4096 4096) (ms hA : Arr 16 4096)
    (p : Fin 16) (q : Fin 512) (d : Fin 4096) (e1 : w1 = w1') (e2 : b1 = b1') (e3 : w2 = w2') (e4 : b2 = b2')
    (hacc : ∀ k : Fin 16, acc (ix2 k q) = aggE ms adj k d) (hh : hB (ix2 p q) = hA (ix2 p d)) :
    layerE w2 b2 (layer w1 b1 acc) p q + hB (ix2 p q) = outT adj w1' b1' w2' b2' hA ms (ix2 p d) := by
  subst e1 e2 e3 e4
  show _ = layerE w2 b2 (layer w1 b1 (agg ms adj)) p d + hA (ix2 p d)
  rw [hh]
  refine congrArg (· + hA (ix2 p d)) ?_
  refine layerE_congr_col w2 b2 _ _ p q d fun k => ?_
  show layerE w1 b1 acc k q = layerE w1 b1 (agg ms adj) k d
  exact layerE_congr_col w1 b1 _ _ k q d fun k' => hacc k'

/-- WHAT A FLUSHING POINT WRITES BACK is its block of the specification's output. -/
theorem flushed1_eq (c : Dev nD) (t : Fin cfg1.N) (hf : (cfg1.win 7).flush t = true) :
    (dat1 V c).flushed 7 t = ((cfg1.win 7).blk t).view.read (Elt Ideal) (outG V c) := by
  have h7 : t.val % 8 = 7 := (flush1_7 t).mp hf
  have hN : t.val < 64 := N1 ▸ t.isLt
  show (cfg1.win 7).cut (cfg1.grid.coords t) ((dat1 V c).after 7 t) = _
  rw [after1_7]
  funext y
  obtain ⟨p, q, rfl⟩ : ∃ (p : Fin 16) (q : Fin 512), y = ix2 p q := ⟨y 0, y 1, eq_ix2 y⟩
  have hq := q.isLt
  let d : Fin 4096 := ⟨512 * (t.val / 8) + q.val, by omega⟩
  have hd : d.val = 512 * (t.val / 8) + q.val := rfl
  have he : ((cfg1.win 7).blk t).view.emb (ix2 p q) = (ix2 p d : S16x4096.Idx) := by
    obtain ⟨-, -, -, -, -, -, e0, e1⟩ := idx_facts1 t
    funext a; apply Fin.ext
    match a with
    | ⟨0, _⟩ => show win1_7.index t (0 : Fin 2) * 16 + 1 * p.val = p.val; rw [e0]; omega
    | ⟨1, _⟩ => show win1_7.index t (1 : Fin 2) * 512 + 1 * q.val = d.val; rw [e1, hd]; omega
  show k1_pay3 (scAt1 V c t.val t.isLt) (iblk1 V c 3 t) (iblk1 V c 4 t) (iblk1 V c 5 t) (iblk1 V c 6 t) (hidB V c t) (ix2 p q)
    = outG V c (((cfg1.win 7).blk t).view.emb (ix2 p q))
  rw [he]
  refine (pay3_apply (scAt1 V c t.val t.isLt) (iblk1 V c 3 t) (iblk1 V c 4 t) (iblk1 V c 5 t) (iblk1 V c 6 t) (hidB V c t) p q).trans ?_
  exact out_entry (scAt1 V c t.val t.isLt) (iblk1 V c 3 t) (V c main_arg9) (iblk1 V c 4 t) (V c main_arg10)
    (iblk1 V c 5 t) (V c main_arg11) (iblk1 V c 6 t) (V c main_arg12) (hidB V c t) (adjR V c) (msgA V c) (hidA V c) p q d
    (w1B_eq V c t) (b1B_eq V c t) (w2B_eq V c t) (b2B_eq V c t)
    (fun k => (scAt1_apply V c k q t.val t.isLt d hd).trans (by rw [h7]; exact tiles_eq_agg V c k d))
    (hidB_apply V c t p q d hd)

/-- An index of the output array is in point t's block iff each coordinate is in the block's range on its axis. -/
theorem mem_blk7 (t : Fin cfg1.N) (i : S16x4096.Idx) :
    i ∈ ((cfg1.win 7).blk t).view.set ↔ ∀ a : Fin 2, win1_7.index t a * S16x512.size a ≤ (i a).val
      ∧ (i a).val < win1_7.index t a * S16x512.size a + S16x512.size a := by
  show i ∈ ((View.whole main_v26).slice (win1_7.rect t)).set ↔ _
  rw [View.set_slice_whole, Rect.mem_set_unit]
  exact Iff.rfl

/-- Column q of the output is written back by the last point of destination tile q / 512. -/
theorem cover7 (i : S16x4096.Idx) :
    ∃ t : Fin cfg1.N, (cfg1.win 7).flush t = true ∧ i ∈ ((cfg1.win 7).blk t).view.set := by
  have hi0 : (i 0).val < 16 := (i 0).isLt
  have hi1 : (i 1).val < 4096 := (i 1).isLt
  let t : Fin cfg1.N := ⟨8 * ((i 1).val / 512) + 7, by rw [N1]; omega⟩
  have htv : t.val = 8 * ((i 1).val / 512) + 7 := rfl
  refine ⟨t, (flush1_7 t).mpr (by rw [htv]; omega), ?_⟩
  rw [mem_blk7]
  obtain ⟨-, -, -, -, -, -, e0, e1⟩ := idx_facts1 t
  have ht : t.val / 8 = (i 1).val / 512 := by rw [htv]; omega
  intro a
  match a with
  | ⟨0, _⟩ =>
    show win1_7.index t (0 : Fin 2) * 16 ≤ (i 0).val ∧ (i 0).val < win1_7.index t (0 : Fin 2) * 16 + 16
    rw [e0]; omega
  | ⟨1, _⟩ =>
    show win1_7.index t (1 : Fin 2) * 512 ≤ (i 1).val ∧ (i 1).val < win1_7.index t (1 : Fin 2) * 512 + 512
    rw [e1, ht]; omega

end Arr1

/-- The output (features on rows) after the second region, from the arrays the region finds; the adjacency matrix is
    read back from its transpose `main_v24`: entry (d, s) is the transposed matrix's entry (s, d). -/
theorem out_arr (c : Dev nD) :
    ((dat1 V c).arrAt 7 cfg1.N : Arr 16 4096)
      = outT (fun i => (V c main_v24 : Arr 4096 4096) (ix2 (i 1) (i 0))) (V c main_arg9) (V c main_arg10) (V c main_arg11) (V c main_arg12)
          (V c main_v25_0) (V c main_v25_1) :=
  (dat1 V c).arrAt_eq_of_cover 7 (Arr1.outG V c) (Arr1.flushed1_eq V c) Arr1.cover7

end Cert.ReferenceIdeal.Hand

end
-- ==== Proof.RVal.lean ====
/-
  What the reference program's result buffer holds at the end, as the specification's function of the argument arrays,
  of the feature matrix and of the transposed adjacency matrix its host operations compute before the first region:
  the last host operation transposes the second region's output; the second region's output is the aggregation layers
  plus the hidden features of the arrays it finds; those are the first region's two outputs, the transposed adjacency
  matrix, and arguments no earlier item wrote.
-/
import proofs.«130414_g2000600855469178_pallasbulk_547_2_alg».proof.Proof.RRun
import proofs.«130414_g2000600855469178_pallasbulk_547_2_alg».proof.Proof.Spec
import proofs.«130414_g2000600855469178_pallasbulk_547_2_alg».proof.Proof.RArr0
import proofs.«130414_g2000600855469178_pallasbulk_547_2_alg».proof.Proof.RArr1
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.ReferenceIdeal.Hand

open Idealize.ShloMosaic Idealize.ShloMosaic.TcCoe Idealize.ShloMosaic.ValueIdx Idealize.SL.Sem
open Cert.ReferenceIdeal Cert.ReferenceIdeal.Gen Cert.Spec

variable (m : (ℓ : Loc nD τ sig) → Buf (Elt Ideal) ℓ) (ρ : Dev nD → PrngReg)

/-- The feature matrix (features on rows, nodes on columns) the host operations before the first region leave. -/
abbrev feat (c : Dev nD) : Arr 10 4096 := V1 m ρ c main_v20

/-- The adjacency matrix read back from its transpose, which the host operations before the first region leave:
    entry (d, s) is the transposed matrix's entry (s, d). -/
abbrev adjOf (c : Dev nD) : Arr 4096 4096 := fun i => (V1 m ρ c main_v24 : Arr 4096 4096) (ix2 (i 1) (i 0))

/-- The hidden features the second region finds. -/
theorem V2_hid (c : Dev nD) :
    (V2 m ρ c main_v25_0 : Arr 16 4096) = hid (m ((c : Thread nD τ).loc main_arg3)) (m ((c : Thread nD τ).loc main_arg4)) (feat m ρ c) :=
  ((W2_arr m ρ c 7).trans (hid_arr (V1 m ρ) c)).trans
    (by rw [show V1 m ρ c main_arg3 = _ from W1_of m ρ c main_arg3 (by decide), show V1 m ρ c main_arg4 = _ from W1_of m ρ c main_arg4 (by decide)])

/-- The messages the second region finds. -/
theorem V2_msg (c : Dev nD) :
    (V2 m ρ c main_v25_1 : Arr 16 4096)
      = msg (m ((c : Thread nD τ).loc main_arg5)) (m ((c : Thread nD τ).loc main_arg6)) (m ((c : Thread nD τ).loc main_arg7)) (m ((c : Thread nD τ).loc main_arg8))
          (hid (m ((c : Thread nD τ).loc main_arg3)) (m ((c : Thread nD τ).loc main_arg4)) (feat m ρ c)) :=
  ((W2_arr m ρ c 8).trans (msg_arr (V1 m ρ) c)).trans
    (by rw [show V1 m ρ c main_arg3 = _ from W1_of m ρ c main_arg3 (by decide), show V1 m ρ c main_arg4 = _ from W1_of m ρ c main_arg4 (by decide),
      show V1 m ρ c main_arg5 = _ from W1_of m ρ c main_arg5 (by decide), show V1 m ρ c main_arg6 = _ from W1_of m ρ c main_arg6 (by decide),
      show V1 m ρ c main_arg7 = _ from W1_of m ρ c main_arg7 (by decide), show V1 m ρ c main_arg8 = _ from W1_of m ρ c main_arg8 (by decide)])

/-- The first region writes neither the transposed adjacency matrix nor the second region's argument operands. -/
theorem V2_v24 (c : Dev nD) : V2 m ρ c main_v24 = V1 m ρ c main_v24 := W2_of_ne m ρ c main_v24 (by decide)
theorem V2_arg9 (c : Dev nD) : V2 m ρ c main_arg9 = m ((c : Thread nD τ).loc main_arg9) :=
  (W2_of_ne m ρ c main_arg9 (by decide)).trans (W1_of m ρ c main_arg9 (by decide))
theorem V2_arg10 (c : Dev nD) : V2 m ρ c main_arg10 = m ((c : Thread nD τ).loc main_arg10) :=
  (W2_of_ne m ρ c main_arg10 (by decide)).trans (W1_of m ρ c main_arg10 (by decide))
theorem V2_arg11 (c : Dev nD) : V2 m ρ c main_arg11 = m ((c : Thread nD τ).loc main_arg11) :=
  (W2_of_ne m ρ c main_arg11 (by decide)).trans (W1_of m ρ c main_arg11 (by decide))
theorem V2_arg12 (c : Dev nD) : V2 m ρ c main_arg12 = m ((c : Thread nD τ).loc main_arg12) :=
  (W2_of_ne m ρ c main_arg12 (by decide)).trans (W1_of m ρ c main_arg12 (by decide))

/-- The second region's output, with features on rows. -/
theorem W3_out (c : Dev nD) :
    (W3 m ρ c (Proc.devRef .tc main_v26) : Arr 16 4096)
      = netT (adjOf m ρ c) (feat m ρ c) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) (m ((c.tc : Thread nD τ).loc main_arg12)) := by
  refine ((W3_arr m ρ c 7).trans (out_arr (V2 m ρ) c)).trans ?_
  rw [V2_v24 m ρ c, V2_arg9 m ρ c, V2_arg10 m ρ c, V2_arg11 m ρ c, V2_arg12 m ρ c, V2_hid m ρ c, V2_msg m ρ c]
  rfl

/-- The last host operation transposes the second region's output. -/
theorem W4_v27 (c : Dev nD) :
    W4 m ρ c (Proc.devRef .tc main_v27)
      = transpose S4096x16 [1, 0] (W3 m ρ c (Proc.devRef .tc main_v26)) transposes_S16x4096_S4096x16_1_0 := by
  show StableHlo.after hostOps2 (W3 m ρ c) (Proc.devRef .tc main_v27) = _
  after_results

/-- The result buffer at the end is the specification's network of the arguments, the feature matrix and the
    adjacency matrix. -/
theorem result (c : Dev nD) :
    (W4 m ρ c (Proc.devRef .tc main_v27) : Arr 4096 16)
      = net (adjOf m ρ c) (feat m ρ c) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) (m ((c.tc : Thread nD τ).loc main_arg12)) := by
  rw [W4_v27 m ρ c]
  funext i
  rw [eq_ix2 i]
  refine (transpose_ix2_apply _ _ _ _).trans ?_
  rw [W3_out m ρ c]
  rfl

end Cert.ReferenceIdeal.Hand

end
-- ==== Proof.HostFeatLib.lean ====
/-
  A scatter whose update is as large as the operand and whose window starts at the origin (no scattered axis: the index
  tensor is empty) touches every entry exactly once: the result combines operand and update entry by entry. With the
  combiner "take the update" the result is the update; with addition on an operand of zeros, at the extended reals, it is
  the update as well (zero plus x is x).
-/
import Idealize.ShloMosaic.Lib.ValueIdx
import Idealize.ShloMosaic.Lib.IdealHost

namespace Cert.HostFeatLib

open Idealize.ShloMosaic

variable {α : Type} {s si : Shape} {w : Nat}

/-- Folding "replace the entry at position n by f of it and the update's entry there" over positions without
    repeats replaces exactly the entries at the listed positions. -/
theorem foldl_whole (f : α → α → α) (upd : s.Idx → α) (l : List (Fin s.numel)) (hl : l.Nodup) (r : s.Idx → α) :
    l.foldl (fun r n => fun i' => if i' = s.rowMajor.symm n then f (r (s.rowMajor.symm n)) (upd (s.rowMajor.symm n)) else r i') r
      = fun i' => if s.rowMajor i' ∈ l then f (r i') (upd i') else r i' := by
  induction l generalizing r with
  | nil => simp
  | cons n l ih =>
    have hn := (List.nodup_cons.1 hl).1
    rw [List.foldl_cons, ih (List.nodup_cons.1 hl).2]
    funext i'
    by_cases h : i' = s.rowMajor.symm n
    · subst h
      simp [hn]
    · have hne : s.rowMajor i' ≠ n := fun e => h (by rw [← e]; simp)
      simp [h, hne]

/-- A scatter whose every update index lands at itself combines the operand and the update entry by entry. -/
theorem scatter_whole (d : ScatterDims s si s) (f : α → α → α) (x : s.Idx → α) (idx : IVec si w) (upd : s.Idx → α)
    (h : ∀ j, d.resultIdx? j idx = some j) :
    Host.scatter d f x idx upd = fun i => f (x i) (upd i) := by
  unfold Host.scatter
  simp only [h]
  refine (foldl_whole f upd _ (List.nodup_finRange _) x).trans ?_
  funext i; simp

/-- With no scattered axis, no inserted axis and both axes window axes, a rank-two update index lands at itself. -/
theorem resultIdx?_whole2 {n0 n1 : Nat} (d : ScatterDims ⟨2, ![n0, n1]⟩ si ⟨2, ![n0, n1]⟩)
    (hu : d.updateWindowDims = [0, 1]) (hi : d.insertedWindowDims = []) (hs : d.scatterDimsToOperandDims = [])
    (j : (⟨2, ![n0, n1]⟩ : Shape).Idx) (idx : IVec si w) : d.resultIdx? j idx = some j := by
  obtain ⟨uw, iw, sd, iv, wf⟩ := d
  simp only at hu hi hs
  subst hu hi hs
  have hst : ∀ a, (ScatterDims.mk [0, 1] [] [] iv wf).start j idx a = 0 := fun a => by
    unfold ScatterDims.start; exact dif_neg (by simp)
  have hw : ∀ a, (ScatterDims.mk [0, 1] [] [] iv wf).window j a = (j a).val := fun a => by
    fin_cases a <;> rfl
  unfold ScatterDims.resultIdx?
  rw [dif_pos]
  · congr 1; funext a; apply Fin.ext; simp [hst, hw]
  · intro a; rw [hst, hw]; have := (j a).isLt; omega

/-- The same for a rank-two operand updated whole: no scattered axis, no inserted axis, both axes window axes. -/
theorem scatter_whole2 {n0 n1 : Nat} (d : ScatterDims ⟨2, ![n0, n1]⟩ si ⟨2, ![n0, n1]⟩)
    (hu : d.updateWindowDims = [0, 1]) (hi : d.insertedWindowDims = []) (hs : d.scatterDimsToOperandDims = [])
    (f : α → α → α) (x : (⟨2, ![n0, n1]⟩ : Shape).Idx → α) (idx : IVec si w) (upd : (⟨2, ![n0, n1]⟩ : Shape).Idx → α) :
    Host.scatter d f x idx upd = fun i => f (x i) (upd i) :=
  scatter_whole d f x idx upd fun j => resultIdx?_whole2 d hu hi hs j idx

/-- Overwriting a rank-two operand whole leaves the update. -/
theorem scatter_set2 {n0 n1 : Nat} (d : ScatterDims ⟨2, ![n0, n1]⟩ si ⟨2, ![n0, n1]⟩)
    (hu : d.updateWindowDims = [0, 1]) (hi : d.insertedWindowDims = []) (hs : d.scatterDimsToOperandDims = [])
    (x : (⟨2, ![n0, n1]⟩ : Shape).Idx → α) (idx : IVec si w) (upd : (⟨2, ![n0, n1]⟩ : Shape).Idx → α) :
    Host.scatter d (fun _ b => b) x idx upd = upd :=
  scatter_whole2 d hu hi hs _ x idx upd

/-- Adding a whole update onto a rank-two operand of zeros, at the extended reals, leaves the update. -/
theorem scatter_add_zero2 {n0 n1 : Nat} {φ : FTy} (d : ScatterDims ⟨2, ![n0, n1]⟩ si ⟨2, ![n0, n1]⟩)
    (hu : d.updateWindowDims = [0, 1]) (hi : d.insertedWindowDims = []) (hs : d.scatterDimsToOperandDims = [])
    (x : FVec Ideal ⟨2, ![n0, n1]⟩ φ) (hx : ∀ i, x i = 0) (idx : IVec si w) (upd : FVec Ideal ⟨2, ![n0, n1]⟩ φ) :
    Host.scatter d FloatOps.addf x idx upd = upd := by
  rw [scatter_whole2 d hu hi hs]
  funext i
  rw [hx i]
  exact zero_add _

/-- The f32 zero constant broadcast to any shape is zero at every index. -/
theorem bcast_zero_f32_apply {T : Shape} (h : (⟨0, ![]⟩ : Shape).BroadcastsInDim T ![]) (i : T.Idx) :
    broadcastInDim T ![] h (constant (F := Ideal) ⟨0, ![]⟩ .f32 0x00000000#32) i = 0 := by
  rw [ValueIdx.broadcastInDim_scalar_apply, ValueIdx.constant_apply, Ideal.ofBits_zero_f32]

end Cert.HostFeatLib
-- ==== Proof.HostFeat.lean ====
/-
  The host operations before the first kernel region compute the same feature matrix in both programs, and the
  reference's transposed adjacency matrix is the argument transposed.

  Both programs divide the real features by their column-wise largest absolute value plus a small constant, gather the
  embedding rows the (wrapped) category indices name, join the two blocks of columns and transpose. The reference
  then adds the gathered rows onto a matrix of zeros (zero plus x is x) and writes the transposed features and the
  transposed adjacency matrix over matrices of zeros, whole (the update replaces every entry); its change of float format
  is the identity on extended reals.
-/
import proofs.«130414_g2000600855469178_pallasbulk_547_2_alg».proof.Proof.Gen.KernelIdeal.Frame
import proofs.«130414_g2000600855469178_pallasbulk_547_2_alg».proof.Proof.RFold
import proofs.«130414_g2000600855469178_pallasbulk_547_2_alg».proof.Proof.Spec
import proofs.«130414_g2000600855469178_pallasbulk_547_2_alg».proof.Proof.HostFeatLib
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.HostFeat

open Idealize.ShloMosaic Idealize.ShloMosaic.TcCoe Idealize.ShloMosaic.ValueIdx Idealize.SL.Sem Cert.Spec Cert.HostFeatLib

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (ρ' : Dev Cert.ReferenceIdeal.nD → PrngReg)

/-- Two joins of two blocks along one axis are equal when the blocks are. -/
theorem concat2_congr {α : Type} {T S : Shape} (ax : Fin T.rank) {a a' b b' : S.Idx → α}
    (h : Shape.Concatenates [S, S] T ax) (ha : a = a') (hb : b = b') :
    concatenate T ax [⟨S, a⟩, ⟨S, b⟩] h = concatenate T ax [⟨S, a'⟩, ⟨S, b'⟩] h := by
  subst ha hb; rfl

set_option maxHeartbeats 1000000 in
/-- From memories agreeing on the real features, the category indices and the embedding table, the two programs'
    feature matrices are equal. -/
theorem feat_eq (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    (Cert.ReferenceIdeal.Hand.V1 m' ρ' c Cert.ReferenceIdeal.main_v20 : Arr 10 4096)
      = (Cert.KernelIdeal.Gen.V1 m ρ c Cert.KernelIdeal.main_v16 : Arr 10 4096) := by
  -- the three arguments the features are computed from, as the launch contents of the two programs
  have e1 : Cert.ReferenceIdeal.Hand.W0 m' ρ' c (Proc.devRef .tc Cert.ReferenceIdeal.main_arg1)
      = Cert.KernelIdeal.Gen.W0 m ρ c (Proc.devRef .tc Cert.KernelIdeal.main_arg1) := h1
  have e2 : Cert.ReferenceIdeal.Hand.W0 m' ρ' c (Proc.devRef .tc Cert.ReferenceIdeal.main_arg2)
      = Cert.KernelIdeal.Gen.W0 m ρ c (Proc.devRef .tc Cert.KernelIdeal.main_arg2) := h2
  have e13 : Cert.ReferenceIdeal.Hand.W0 m' ρ' c (Proc.devRef .tc Cert.ReferenceIdeal.main_arg13)
      = Cert.KernelIdeal.Gen.W0 m ρ c (Proc.devRef .tc Cert.KernelIdeal.main_arg13) := h13
  show (StableHlo.after (Cert.ReferenceIdeal.Gen.hostOps0 (F := Ideal)) (Cert.ReferenceIdeal.Hand.W0 m' ρ' c) (Proc.devRef .tc Cert.ReferenceIdeal.main_v20) : Arr 10 4096)
      = (StableHlo.after (Cert.KernelIdeal.Gen.hostOps0 (F := Ideal)) (Cert.KernelIdeal.Gen.W0 m ρ c) (Proc.devRef .tc Cert.KernelIdeal.main_v16) : Arr 10 4096)
  after_results_simp
  -- the whole-array overwrite onto zeros is its update: both sides are the transposed join of two blocks
  rw [scatter_set2 _ rfl rfl rfl]
  refine congrArg (fun x => transpose Cert.KernelIdeal.S10x4096 [1, 0] x Cert.KernelIdeal.Gen.transposes_S4096x10_S10x4096_1_0)
    (concat2_congr 1 Cert.KernelIdeal.Gen.concatenates_S4096x5_S4096x5_S4096x10_d1 ?_ ?_)
  · -- the scaled real features: the same operations on the same argument
    after_results_simp
    rw [e1]
  · -- the gathered rows: zero plus the rows is the rows, then the same operations on the same arguments
    after_results_simp
    rw [scatter_add_zero2 _ rfl rfl rfl _ (bcast_zero_f32_apply _), e13, e2]
    rfl

set_option maxHeartbeats 1000000 in
/-- The reference's transposed adjacency matrix, read back transposed, is the adjacency argument. -/
theorem adj_eq (c : Dev Cert.ReferenceIdeal.nD) :
    (fun i => (Cert.ReferenceIdeal.Hand.V1 m' ρ' c Cert.ReferenceIdeal.main_v24 : Arr 4096 4096) (ix2 (i 1) (i 0)) : Arr 4096 4096)
      = m' ((c.tc : Thread Cert.ReferenceIdeal.nD Cert.ReferenceIdeal.τ).loc Cert.ReferenceIdeal.main_arg0) := by
  funext i
  obtain ⟨a, b, rfl⟩ : ∃ (a : Fin 4096) (b : Fin 4096), i = ix2 a b := ⟨i 0, i 1, eq_ix2 i⟩
  show (StableHlo.after (Cert.ReferenceIdeal.Gen.hostOps0 (F := Ideal)) (Cert.ReferenceIdeal.Hand.W0 m' ρ' c) (Proc.devRef .tc Cert.ReferenceIdeal.main_v24) : Arr 4096 4096) (ix2 b a) = _
  after_results_simp
  -- the change of format is the identity, the overwrite onto zeros is its update, the transpose swaps the coordinates
  rw [truncf_apply, scatter_set2 _ rfl rfl rfl, transpose_ix2_apply]

end Cert.HostFeat

end
-- ==== Proof.lean ====
/-
  The graph-convolution kernel against its tiled reference, over the extended reals.

  Both programs compute, for 4096 nodes, hid = layer(W_hid, b_hid, feat), msg = layer(W_m2, b_m2, layer(W_m1, b_m1, hid)),
  out^T = layer(W_a2, b_a2, layer(W_a1, b_a1, agg(msg, adj))) + hid and return its transpose, where a layer is an affine
  map followed by the rectifier (column by column) and agg contracts the source-node axis of the messages against the
  adjacency matrix. The kernel takes the per-node layers in 2 tiles of 2048 nodes and the aggregation in 8 destination
  tiles, each against the whole adjacency rows at once; the reference takes the per-node layers in 8 tiles of 512 nodes
  and accumulates the aggregation over 8 source tiles per destination tile in a scratch buffer that starts from zero.
  A layer reads its input only in the entry's column, so tiling the nodes changes nothing; the sum over 4096 source
  nodes is the sum over 8 tiles of the sums over 512, because addition of extended reals is commutative and
  associative, and zero plus x is x; the changes of float format (the message rounded through the narrow format, the
  adjacency matrix converted) are the identity on extended reals. Nothing here needs the inputs finite.

  The three frames: the kernel's two programs by their generated frames; the reference's by its run, whose second
  region carries the accumulator between grid points. `preserves` is the one ledger entry's statement.
-/
import proofs.«130414_g2000600855469178_pallasbulk_547_2_alg».proof.Defs
import proofs.«130414_g2000600855469178_pallasbulk_547_2_alg».proof.Proof.Gen.Kernel
import proofs.«130414_g2000600855469178_pallasbulk_547_2_alg».proof.Proof.Gen.Kernel.Frame
import proofs.«130414_g2000600855469178_pallasbulk_547_2_alg».proof.Proof.Gen.KernelIdeal
import proofs.«130414_g2000600855469178_pallasbulk_547_2_alg».proof.Proof.Gen.KernelIdeal.Frame
import proofs.«130414_g2000600855469178_pallasbulk_547_2_alg».proof.Proof.Gen.ReferenceIdeal
import proofs.«130414_g2000600855469178_pallasbulk_547_2_alg».proof.Proof.Gen.Pre_finite_inputs
import proofs.«130414_g2000600855469178_pallasbulk_547_2_alg».proof.Proof.KRun
import proofs.«130414_g2000600855469178_pallasbulk_547_2_alg».proof.Proof.KVal
import proofs.«130414_g2000600855469178_pallasbulk_547_2_alg».proof.Proof.RBody0
import proofs.«130414_g2000600855469178_pallasbulk_547_2_alg».proof.Proof.RBody1
import proofs.«130414_g2000600855469178_pallasbulk_547_2_alg».proof.Proof.RRun
import proofs.«130414_g2000600855469178_pallasbulk_547_2_alg».proof.Proof.RVal
import proofs.«130414_g2000600855469178_pallasbulk_547_2_alg».proof.Proof.HostFeat
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run: the result buffer at the last boundary's contents, the arguments as launched. -/
theorem run_ri (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
      r.2.mem ((c.tc : Thread Cert.ReferenceIdeal.nD Cert.ReferenceIdeal.τ).loc Cert.ReferenceIdeal.main_v27) = Cert.ReferenceIdeal.Hand.W4 m ρ c (Proc.devRef .tc Cert.ReferenceIdeal.main_v27)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)) :=
  Cert.ReferenceIdeal.Hand.run (F := Ideal) m ρ
    (fun V c => Cert.ReferenceIdeal.Hand.body_obligation0 V c) (fun V c => Cert.ReferenceIdeal.Hand.body_obligation1 V c)
    (fun V c => Cert.ReferenceIdeal.Hand.hin1 V c) (fun V c => Cert.ReferenceIdeal.Hand.hout1 V c)

theorem frame_ri : Cert.frame_ReferenceIdeal := fun m ρ _ =>
  (θ_run Cert.ReferenceIdeal.defs _ _).mono (fun _ h c => (h c).2) (run_ri m ρ)

/-- The ledger's one entry: the message tile rounded through the narrow format and widened back is, on extended
    reals, the tile itself. -/
theorem preserves : Cert.preserves_Kernel_KernelIdeal :=
  IdealRules.truncf_extf.statement Cert.KernelIdeal.S16x2048 .f32 .bf16

/-- Both programs end with the specification's network of the arguments: the kernel's over its own feature matrix,
    the reference's over its own feature matrix and the adjacency matrix read back from its transpose; the two feature
    matrices are equal and the read-back is the argument. -/
theorem algebraic : Cert.algebraic_KernelIdeal_ReferenceIdeal := by
  intro m ρ m' ρ' _ hagree
  refine ⟨fun c => Cert.KernelIdeal.Gen.W4 m ρ c (Proc.devRef .tc Cert.KernelIdeal.main_v19), Cert.KernelIdeal.Val.run (F := Ideal) m ρ, ?_⟩
  refine (θ_run Cert.ReferenceIdeal.defs _ _).mono (fun _ h c => ⟨(h c).1.trans ?_, (h c).2⟩) (run_ri m' ρ')
  obtain ⟨h0, h1, h2, h3, h4, h5, h6, h7, h8, h9, h10, h11, h12, h13⟩ := hagree c
  refine (Cert.ReferenceIdeal.Hand.result m' ρ' c).trans (Eq.trans ?_ (Cert.KernelIdeal.Val.result m ρ c).symm)
  have eadj : Cert.ReferenceIdeal.Hand.adjOf m' ρ' c = m' ((c.tc : Thread Cert.ReferenceIdeal.nD Cert.ReferenceIdeal.τ).loc Cert.ReferenceIdeal.main_arg0) :=
    Cert.HostFeat.adj_eq m' ρ' c
  have efeat : Cert.ReferenceIdeal.Hand.feat m' ρ' c = Cert.KernelIdeal.Val.feat m ρ c := Cert.HostFeat.feat_eq m ρ m' ρ' c h1 h2 h13
  rw [eadj, efeat, h0, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
